-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v261) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x1 : Shape := ⟨2, ![4194304, 1]⟩
abbrev S4194304x8 : Shape := ⟨2, ![4194304, 8]⟩
abbrev S8x11 : Shape := ⟨2, ![8, 11]⟩
abbrev S8 : Shape := ⟨1, ![8]⟩
abbrev S8x8 : Shape := ⟨2, ![8, 8]⟩
abbrev S3x8 : Shape := ⟨2, ![3, 8]⟩
abbrev S3 : Shape := ⟨1, ![3]⟩
abbrev S3x4x2 : Shape := ⟨3, ![3, 4, 2]⟩
abbrev S_ : Shape := ⟨0, ![]⟩
abbrev S3x4x1x2x1 : Shape := ⟨5, ![3, 4, 1, 2, 1]⟩
abbrev S3x1x4x1x2 : Shape := ⟨5, ![3, 1, 4, 1, 2]⟩
abbrev S3x4x4x2x2 : Shape := ⟨5, ![3, 4, 4, 2, 2]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S1x4x4x1x1 : Shape := ⟨5, ![1, 4, 4, 1, 1]⟩

class Facts : Prop where
  bcast_S_S4194304x1 : S_.BroadcastsInDim S4194304x1 (![] : Fin 0 → Fin S4194304x1.rank)
  reducesTo_S4194304x1_S_d0_1 : S4194304x1.ReducesTo [0, 1] S_
  h_S_ : 0 < S_.numel
  bcast_S_S4194304x8 : S_.BroadcastsInDim S4194304x8 (![] : Fin 0 → Fin S4194304x8.rank)
  reducesTo_S4194304x8_S_d0_1 : S4194304x8.ReducesTo [0, 1] S_
  bcast_S_S8x11 : S_.BroadcastsInDim S8x11 (![] : Fin 0 → Fin S8x11.rank)
  reducesTo_S8x11_S_d0_1 : S8x11.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S3x8 : S_.BroadcastsInDim S3x8 (![] : Fin 0 → Fin S3x8.rank)
  reducesTo_S3x8_S_d0_1 : S3x8.ReducesTo [0, 1] S_
  bcast_S_S3 : S_.BroadcastsInDim S3 (![] : Fin 0 → Fin S3.rank)
  reducesTo_S3_S_d0 : S3.ReducesTo [0] S_
  bcast_S_S3x4x2 : S_.BroadcastsInDim S3x4x2 (![] : Fin 0 → Fin S3x4x2.rank)
  reducesTo_S3x4x2_S_d0_1_2 : S3x4x2.ReducesTo [0, 1, 2] S_
  bcast_S3x4x2_S3x4x1x2x1_0_1_3 : S3x4x2.BroadcastsInDim S3x4x1x2x1 (![0, 1, 3] : Fin 3 → Fin S3x4x1x2x1.rank)
  bcast_S3x4x2_S3x1x4x1x2_0_2_4 : S3x4x2.BroadcastsInDim S3x1x4x1x2 (![0, 2, 4] : Fin 3 → Fin S3x1x4x1x2.rank)
  bcast_S3x4x1x2x1_S3x4x4x2x2_0_1_2_3_4 : S3x4x1x2x1.BroadcastsInDim S3x4x4x2x2 (![0, 1, 2, 3, 4] : Fin 5 → Fin S3x4x4x2x2.rank)
  bcast_S3x1x4x1x2_S3x4x4x2x2_0_1_2_3_4 : S3x1x4x1x2.BroadcastsInDim S3x4x4x2x2 (![0, 1, 2, 3, 4] : Fin 5 → Fin S3x4x4x2x2.rank)
  bcast_S4_S4x1_0 : S4.BroadcastsInDim S4x1 (![0] : Fin 1 → Fin S4x1.rank)
  bcast_S4_S1x4_1 : S4.BroadcastsInDim S1x4 (![1] : Fin 1 → Fin S1x4.rank)
  bcast_S4x1_S4x4_0_1 : S4x1.BroadcastsInDim S4x4 (![0, 1] : Fin 2 → Fin S4x4.rank)
  bcast_S1x4_S4x4_0_1 : S1x4.BroadcastsInDim S4x4 (![0, 1] : Fin 2 → Fin S4x4.rank)
  bcast_S4x4_S1x4x4x1x1_1_2 : S4x4.BroadcastsInDim S1x4x4x1x1 (![1, 2] : Fin 2 → Fin S1x4x4x1x1.rank)
  bcast_S1x4x4x1x1_S3x4x4x2x2_0_1_2_3_4 : S1x4x4x1x1.BroadcastsInDim S3x4x4x2x2 (![0, 1, 2, 3, 4] : Fin 5 → Fin S3x4x4x2x2.rank)
  reducesTo_S3x4x4x2x2_S_d0_1_2_3_4 : S3x4x4x2x2.ReducesTo [0, 1, 2, 3, 4] S_

variable [Facts]

def fn_part4 {F : FTy → Type} [FloatOps F] (main_v55 : IVec S_ 1) (main_v71 : IVec S_ 1) : IVec S_ 1 :=
  let main_v72 : IVec S_ 1 := andi main_v55 main_v71
  main_v72

def fn_part3 {F : FTy → Type} [FloatOps F] (main_arg10 : IVec S3x4x2 32) (main_v48 : IVec S_ 1) (main_v50 : IVec S3x4x2 1) : IVec S_ 1 :=
  let main_c_19 : IVec S_ 32 := constantI S_ 32 8#32
  let main_v51 : IVec S3x4x2 32 := broadcastInDim S3x4x2 ![] bcast_S_S3x4x2 main_c_19
  let main_v52 : IVec S3x4x2 1 := cmpi .slt main_arg10 main_v51
  let main_v53 : IVec S3x4x2 1 := andi main_v50 main_v52
  let main_c_20 : IVec S_ 1 := constantI S_ 1 1#1
  let main_v54 : IVec S_ 1 := (fun x v => Host.reduce IntOp.andi x v reducesTo_S3x4x2_S_d0_1_2 h_S_) main_v53 main_c_20
  let main_v55 : IVec S_ 1 := andi main_v48 main_v54
  let main_v56 : IVec S3x4x1x2x1 32 := broadcastInDim S3x4x1x2x1 ![0, 1, 3] bcast_S3x4x2_S3x4x1x2x1_0_1_3 main_arg10
  let main_v57 : IVec S3x1x4x1x2 32 := broadcastInDim S3x1x4x1x2 ![0, 2, 4] bcast_S3x4x2_S3x1x4x1x2_0_2_4 main_arg10
  let main_v58 : IVec S3x4x4x2x2 32 := broadcastInDim S3x4x4x2x2 ![0, 1, 2, 3, 4] bcast_S3x4x1x2x1_S3x4x4x2x2_0_1_2_3_4 main_v56
  let main_v59 : IVec S3x4x4x2x2 32 := broadcastInDim S3x4x4x2x2 ![0, 1, 2, 3, 4] bcast_S3x1x4x1x2_S3x4x4x2x2_0_1_2_3_4 main_v57
  let main_v60 : IVec S3x4x4x2x2 1 := cmpi .ne main_v58 main_v59
  let main_v61 : IVec S4 32 := iotaInDim S4 32 0
  let main_v62 : IVec S4x1 32 := broadcastInDim S4x1 ![0] bcast_S4_S4x1_0 main_v61
  let main_v63 : IVec S4 32 := iotaInDim S4 32 0
  let main_v64 : IVec S1x4 32 := broadcastInDim S1x4 ![1] bcast_S4_S1x4_1 main_v63
  let main_v65 : IVec S4x4 32 := broadcastInDim S4x4 ![0, 1] bcast_S4x1_S4x4_0_1 main_v62
  let main_v66 : IVec S4x4 32 := broadcastInDim S4x4 ![0, 1] bcast_S1x4_S4x4_0_1 main_v64
  let main_v67 : IVec S4x4 1 := cmpi .eq main_v65 main_v66
  let main_v68 : IVec S1x4x4x1x1 1 := broadcastInDim S1x4x4x1x1 ![1, 2] bcast_S4x4_S1x4x4x1x1_1_2 main_v67
  let main_v69 : IVec S3x4x4x2x2 1 := broadcastInDim S3x4x4x2x2 ![0, 1, 2, 3, 4] bcast_S1x4x4x1x1_S3x4x4x2x2_0_1_2_3_4 main_v68
  let main_v70 : IVec S3x4x4x2x2 1 := ori main_v60 main_v69
  let main_c_21 : IVec S_ 1 := constantI S_ 1 1#1
  let main_v71 : IVec S_ 1 := (fun x v => Host.reduce IntOp.andi x v reducesTo_S3x4x4x2x2_S_d0_1_2_3_4 h_S_) main_v70 main_c_21
  fn_part4 (F := F) main_v55 main_v71

def fn_part2 {F : FTy → Type} [FloatOps F] (main_arg7 : FVec F S8 .f32) (main_arg8 : FVec F S3x8 .f32) (main_arg9 : FVec F S3 .f32) (main_arg10 : IVec S3x4x2 32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S3x8 .f32 := Host.absf main_arg8
  let main_cst_14 : FVec F S_ .f32 := constant S_ .f32 0x7F800000#32
  let main_v40 : FVec F S3x8 .f32 := broadcastInDim S3x8 ![] bcast_S_S3x8 main_cst_14
  let main_v41 : IVec S3x8 1 := cmpf .olt main_v39 main_v40
  let main_c_15 : IVec S_ 1 := constantI S_ 1 1#1
  let main_v42 : IVec S_ 1 := (fun x v => Host.reduce IntOp.andi x v reducesTo_S3x8_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_c_18 : IVec S_ 32 := constantI S_ 32 0#32
  let main_v49 : IVec S3x4x2 32 := broadcastInDim S3x4x2 ![] bcast_S_S3x4x2 main_c_18
  let main_v50 : IVec S3x4x2 1 := cmpi .sge main_arg10 main_v49
  fn_part3 (F := F) main_arg10 main_v48 main_v50

def fn_part1 {F : FTy → Type} [FloatOps F] (main_arg4 : FVec F S8x11 .f32) (main_arg5 : FVec F S8 .f32) (main_arg6 : FVec F S8x8 .f32) (main_arg7 : FVec F S8 .f32) (main_arg8 : FVec F S3x8 .f32) (main_arg9 : FVec F S3 .f32) (main_arg10 : IVec S3x4x2 32) (main_v13 : IVec S_ 1) (main_v16 : IVec S4194304x8 1) : IVec S_ 1 :=
  let main_c_5 : IVec S_ 1 := constantI S_ 1 1#1
  let main_v17 : IVec S_ 1 := (fun x v => Host.reduce IntOp.andi x v reducesTo_S4194304x8_S_d0_1 h_S_) main_v16 main_c_5
  let main_v18 : IVec S_ 1 := andi main_v13 main_v17
  let main_v19 : FVec F S8x11 .f32 := Host.absf main_arg4
  let main_cst_6 : FVec F S_ .f32 := constant S_ .f32 0x7F800000#32
  let main_v20 : FVec F S8x11 .f32 := broadcastInDim S8x11 ![] bcast_S_S8x11 main_cst_6
  let main_v21 : IVec S8x11 1 := cmpf .olt main_v19 main_v20
  let main_c_7 : IVec S_ 1 := constantI S_ 1 1#1
  let main_v22 : IVec S_ 1 := (fun x v => Host.reduce IntOp.andi x v reducesTo_S8x11_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x8 .f32 := Host.absf main_arg6
  let main_cst_10 : FVec F S_ .f32 := constant S_ .f32 0x7F800000#32
  let main_v30 : FVec F S8x8 .f32 := broadcastInDim S8x8 ![] bcast_S_S8x8 main_cst_10
  let main_v31 : IVec S8x8 1 := cmpf .olt main_v29 main_v30
  let main_c_11 : IVec S_ 1 := constantI S_ 1 1#1
  let main_v32 : IVec S_ 1 := (fun x v => Host.reduce IntOp.andi x v reducesTo_S8x8_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4194304x1 .f32) (main_arg1 : FVec F S4194304x1 .f32) (main_arg2 : FVec F S4194304x1 .f32) (main_arg3 : FVec F S4194304x8 .f32) (main_arg4 : FVec F S8x11 .f32) (main_arg5 : FVec F S8 .f32) (main_arg6 : FVec F S8x8 .f32) (main_arg7 : FVec F S8 .f32) (main_arg8 : FVec F S3x8 .f32) (main_arg9 : FVec F S3 .f32) (main_arg10 : IVec S3x4x2 32) : IVec S_ 1 :=
  let main_v0 : FVec F S4194304x1 .f32 := Host.absf main_arg0
  let main_cst : FVec F S_ .f32 := constant S_ .f32 0x7F800000#32
  let main_v1 : FVec F S4194304x1 .f32 := broadcastInDim S4194304x1 ![] bcast_S_S4194304x1 main_cst
  let main_v2 : IVec S4194304x1 1 := cmpf .olt main_v0 main_v1
  let main_c : IVec S_ 1 := constantI S_ 1 1#1
  let main_v3 : IVec S_ 1 := (fun x v => Host.reduce IntOp.andi x v reducesTo_S4194304x1_S_d0_1 h_S_) main_v2 main_c
  let main_v4 : FVec F S4194304x1 .f32 := Host.absf main_arg1
  let main_cst_0 : FVec F S_ .f32 := constant S_ .f32 0x7F800000#32
  let main_v5 : FVec F S4194304x1 .f32 := broadcastInDim S4194304x1 ![] bcast_S_S4194304x1 main_cst_0
  let main_v6 : IVec S4194304x1 1 := cmpf .olt main_v4 main_v5
  let main_c_1 : IVec S_ 1 := constantI S_ 1 1#1
  let main_v7 : IVec S_ 1 := (fun x v => Host.reduce IntOp.andi x v reducesTo_S4194304x1_S_d0_1 h_S_) main_v6 main_c_1
  let main_v8 : IVec S_ 1 := andi main_v3 main_v7
  let main_v9 : FVec F S4194304x1 .f32 := Host.absf main_arg2
  let main_cst_2 : FVec F S_ .f32 := constant S_ .f32 0x7F800000#32
  let main_v10 : FVec F S4194304x1 .f32 := broadcastInDim S4194304x1 ![] bcast_S_S4194304x1 main_cst_2
  let main_v11 : IVec S4194304x1 1 := cmpf .olt main_v9 main_v10
  let main_c_3 : IVec S_ 1 := constantI S_ 1 1#1
  let main_v12 : IVec S_ 1 := (fun x v => Host.reduce IntOp.andi x v reducesTo_S4194304x1_S_d0_1 h_S_) main_v11 main_c_3
  let main_v13 : IVec S_ 1 := andi main_v8 main_v12
  let main_v14 : FVec F S4194304x8 .f32 := Host.absf main_arg3
  let main_cst_4 : FVec F S_ .f32 := constant S_ .f32 0x7F800000#32
  let main_v15 : FVec F S4194304x8 .f32 := broadcastInDim S4194304x8 ![] bcast_S_S4194304x8 main_cst_4
  let main_v16 : IVec S4194304x8 1 := cmpf .olt main_v14 main_v15
  fn_part1 (F := F) main_arg4 main_arg5 main_arg6 main_arg7 main_arg8 main_arg9 main_arg10 main_v13 main_v16
-- ==== Kernel.lean ====
abbrev S4194304x1 : Shape := ⟨2, ![4194304, 1]⟩
abbrev S4194304x8 : Shape := ⟨2, ![4194304, 8]⟩
abbrev S8x11 : Shape := ⟨2, ![8, 11]⟩
abbrev S8 : Shape := ⟨1, ![8]⟩
abbrev S8x8 : Shape := ⟨2, ![8, 8]⟩
abbrev S3x8 : Shape := ⟨2, ![3, 8]⟩
abbrev S3 : Shape := ⟨1, ![3]⟩
abbrev S3x4x2 : Shape := ⟨3, ![3, 4, 2]⟩
abbrev S1x4194304 : Shape := ⟨2, ![1, 4194304]⟩
abbrev S8x1 : Shape := ⟨2, ![8, 1]⟩
abbrev S3x1 : Shape := ⟨2, ![3, 1]⟩
abbrev S3x4x2x1 : Shape := ⟨4, ![3, 4, 2, 1]⟩
abbrev S1x1x1x8 : Shape := ⟨4, ![1, 1, 1, 8]⟩
abbrev S3x4x2x8 : Shape := ⟨4, ![3, 4, 2, 8]⟩
abbrev S_ : Shape := ⟨0, ![]⟩
abbrev S3x4x8 : Shape := ⟨3, ![3, 4, 8]⟩
abbrev S3x4x8x1 : Shape := ⟨4, ![3, 4, 8, 1]⟩
abbrev S3x4194304 : Shape := ⟨2, ![3, 4194304]⟩
abbrev S1x32768 : Shape := ⟨2, ![1, 32768]⟩
abbrev S32768x8 : Shape := ⟨2, ![32768, 8]⟩
abbrev S3x32768 : Shape := ⟨2, ![3, 32768]⟩
abbrev S8x32768 : Shape := ⟨2, ![8, 32768]⟩
abbrev S1x4x8x1 : Shape := ⟨4, ![1, 4, 8, 1]⟩
abbrev S4x8x1 : Shape := ⟨3, ![4, 8, 1]⟩
abbrev S1x8x1 : Shape := ⟨3, ![1, 8, 1]⟩
abbrev S4194304x3 : Shape := ⟨2, ![4194304, 3]⟩

abbrev nBuf : Space → Nat
  | .hbm => 33
  | .vmem => 20
  | .smem => 0
  | _ => 0

abbrev bufTy : (tb : Table) → Fin (tcTables nBuf tb) → BufTy
  | .hbm, ⟨0, _⟩ => ⟨S4194304x1, .f32⟩
  | .hbm, ⟨1, _⟩ => ⟨S4194304x1, .f32⟩
  | .hbm, ⟨2, _⟩ => ⟨S4194304x1, .f32⟩
  | .hbm, ⟨3, _⟩ => ⟨S4194304x8, .f32⟩
  | .hbm, ⟨4, _⟩ => ⟨S8x11, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S3x8, .f32⟩
  | .hbm, ⟨9, _⟩ => ⟨S3, .f32⟩
  | .hbm, ⟨10, _⟩ => ⟨S3x4x2, .i32⟩
  | .hbm, ⟨11, _⟩ => ⟨S1x4194304, .f32⟩
  | .hbm, ⟨12, _⟩ => ⟨S1x4194304, .f32⟩
  | .hbm, ⟨13, _⟩ => ⟨S1x4194304, .f32⟩
  | .hbm, ⟨14, _⟩ => ⟨S8x8, .f32⟩
  | .hbm, ⟨15, _⟩ => ⟨S8x1, .f32⟩
  | .hbm, ⟨16, _⟩ => ⟨S8x1, .f32⟩
  | .hbm, ⟨17, _⟩ => ⟨S8x1, .f32⟩
  | .hbm, ⟨18, _⟩ => ⟨S8x1, .f32⟩
  | .hbm, ⟨19, _⟩ => ⟨S8x1, .f32⟩
  | .hbm, ⟨20, _⟩ => ⟨S3x1, .f32⟩
  | .hbm, ⟨21, _⟩ => ⟨S8, .i32⟩
  | .hbm, ⟨22, _⟩ => ⟨S3x4x2x1, .i32⟩
  | .hbm, ⟨23, _⟩ => ⟨S1x1x1x8, .i32⟩
  | .hbm, ⟨24, _⟩ => ⟨S3x4x2x8, .i32⟩
  | .hbm, ⟨25, _⟩ => ⟨S3x4x2x8, .i32⟩
  | .hbm, ⟨26, _⟩ => ⟨S3x4x2x8, .i1⟩
  | .hbm, ⟨27, _⟩ => ⟨S_, .i1⟩
  | .hbm, ⟨28, _⟩ => ⟨S3x4x8, .i1⟩
  | .hbm, ⟨29, _⟩ => ⟨S3x4x8, .f32⟩
  | .hbm, ⟨30, _⟩ => ⟨S3x4x8x1, .f32⟩
  | .hbm, ⟨31, _⟩ => ⟨S3x4194304, .f32⟩
  | .hbm, ⟨32, _⟩ => ⟨S4194304x3, .f32⟩
  | .local _ .vmem, ⟨0, _⟩ => ⟨S1x32768, .f32⟩
  | .local _ .vmem, ⟨1, _⟩ => ⟨S1x32768, .f32⟩
  | .local _ .vmem, ⟨2, _⟩ => ⟨S1x32768, .f32⟩
  | .local _ .vmem, ⟨3, _⟩ => ⟨S1x32768, .f32⟩
  | .local _ .vmem, ⟨4, _⟩ => ⟨S1x32768, .f32⟩
  | .local _ .vmem, ⟨5, _⟩ => ⟨S1x32768, .f32⟩
  | .local _ .vmem, ⟨6, _⟩ => ⟨S32768x8, .f32⟩
  | .local _ .vmem, ⟨7, _⟩ => ⟨S32768x8, .f32⟩
  | .local _ .vmem, ⟨8, _⟩ => ⟨S8x8, .f32⟩
  | .local _ .vmem, ⟨9, _⟩ => ⟨S8x1, .f32⟩
  | .local _ .vmem, ⟨10, _⟩ => ⟨S8x1, .f32⟩
  | .local _ .vmem, ⟨11, _⟩ => ⟨S8x1, .f32⟩
  | .local _ .vmem, ⟨12, _⟩ => ⟨S8x1, .f32⟩
  | .local _ .vmem, ⟨13, _⟩ => ⟨S8x8, .f32⟩
  | .local _ .vmem, ⟨14, _⟩ => ⟨S8x1, .f32⟩
  | .local _ .vmem, ⟨15, _⟩ => ⟨S3x8, .f32⟩
  | .local _ .vmem, ⟨16, _⟩ => ⟨S3x1, .f32⟩
  | .local _ .vmem, ⟨17, _⟩ => ⟨S3x4x8x1, .f32⟩
  | .local _ .vmem, ⟨18, _⟩ => ⟨S3x32768, .f32⟩
  | .local _ .vmem, ⟨19, _⟩ => ⟨S3x32768, .f32⟩
  | _, _ => ⟨S4194304x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32768x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x4x8x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S3x32768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S4194304x1_S1x4194304 : S4194304x1.ShapeCasts S1x4194304
  slices_S8x11_S8x8_0_0 : S8x11.Slices ![0, 0] S8x8
  slices_S8x11_S8x1_0_8 : S8x11.Slices ![0, 8] S8x1
  slices_S8x11_S8x1_0_9 : S8x11.Slices ![0, 9] S8x1
  slices_S8x11_S8x1_0_10 : S8x11.Slices ![0, 10] S8x1
  shapeCasts_S8_S8x1 : S8.ShapeCasts S8x1
  shapeCasts_S3_S3x1 : S3.ShapeCasts S3x1
  bcast_S3x4x2_S3x4x2x1_0_1_2 : S3x4x2.BroadcastsInDim S3x4x2x1 (![0, 1, 2] : Fin 3 → Fin S3x4x2x1.rank)
  bcast_S8_S1x1x1x8_3 : S8.BroadcastsInDim S1x1x1x8 (![3] : Fin 1 → Fin S1x1x1x8.rank)
  bcast_S3x4x2x1_S3x4x2x8_0_1_2_3 : S3x4x2x1.BroadcastsInDim S3x4x2x8 (![0, 1, 2, 3] : Fin 4 → Fin S3x4x2x8.rank)
  bcast_S1x1x1x8_S3x4x2x8_0_1_2_3 : S1x1x1x8.BroadcastsInDim S3x4x2x8 (![0, 1, 2, 3] : Fin 4 → Fin S3x4x2x8.rank)
  reducesTo_S3x4x2x8_S3x4x8_d2 : S3x4x2x8.ReducesTo [2] S3x4x8
  h_S_ : 0 < S_.numel
  bcast_S3x4x8_S3x4x8x1_0_1_2 : S3x4x8.BroadcastsInDim S3x4x8x1 (![0, 1, 2] : Fin 3 → Fin S3x4x8x1.rank)
  inb_S32768x8_S32768x8_0_0 : ∀ a, (![0, 0] : Fin 2 → Nat) a + S32768x8.size a ≤ S32768x8.size a
  h_S32768x8 : 0 < S32768x8.numel
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  broadcasts_S8x1_S8x32768 : S8x1.Broadcasts S8x32768
  broadcasts_S1x32768_S8x32768 : S1x32768.Broadcasts S8x32768
  inb_S3x4x8x1_S1x4x8x1_0_0_0_0 : ∀ a, (![0, 0, 0, 0] : Fin 4 → Nat) a + S1x4x8x1.size a ≤ S3x4x8x1.size a
  h_S1x4x8x1 : 0 < S1x4x8x1.numel
  shapeCasts_S1x4x8x1_S4x8x1 : S1x4x8x1.ShapeCasts S4x8x1
  slices_S4x8x1_o0_0_0_S1x8x1 : S4x8x1.Slices ![0, 0, 0] S1x8x1
  shapeCasts_S1x8x1_S8x1 : S1x8x1.ShapeCasts S8x1
  slices_S4x8x1_o1_0_0_S1x8x1 : S4x8x1.Slices ![1, 0, 0] S1x8x1
  slices_S4x8x1_o2_0_0_S1x8x1 : S4x8x1.Slices ![2, 0, 0] S1x8x1
  slices_S4x8x1_o3_0_0_S1x8x1 : S4x8x1.Slices ![3, 0, 0] S1x8x1
  inb_S3x4x8x1_S1x4x8x1_1_0_0_0 : ∀ a, (![1, 0, 0, 0] : Fin 4 → Nat) a + S1x4x8x1.size a ≤ S3x4x8x1.size a
  inb_S3x4x8x1_S1x4x8x1_2_0_0_0 : ∀ a, (![2, 0, 0, 0] : Fin 4 → Nat) a + S1x4x8x1.size a ≤ S3x4x8x1.size a
  inb_S3x8_S3x8_0_0 : ∀ a, (![0, 0] : Fin 2 → Nat) a + S3x8.size a ≤ S3x8.size a
  h_S3x8 : 0 < S3x8.numel
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x32768 : S3x1.Broadcasts S3x32768
  inb_S3x32768_S3x32768_0_0 : ∀ a, (![0, 0] : Fin 2 → Nat) a + S3x32768.size a ≤ S3x32768.size a
  h_S3x32768 : 0 < S3x32768.numel
  transposes_S3x4194304_S4194304x3_1_0 : S3x4194304.Transposes [1, 0] S4194304x3
  dot_S8x8_S32768x8_S8x32768_1_1_0_0_n_n_wf : DotDims.WF S8x8 S32768x8 S8x32768 [1] [1] [0] [0] [] []
  dot_S8x8_S8x32768_S8x32768_1_0_0_1_n_n_wf : DotDims.WF S8x8 S8x32768 S8x32768 [1] [0] [0] [1] [] []
  dot_S3x8_S8x32768_S3x32768_1_0_0_1_n_n_wf : DotDims.WF S3x8 S8x32768 S3x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32768.size a ≤ S1x4194304.size a
  hwx0_0 : ∀ i : grid0.Coords, EltTy.bits .f32 = 32 ∨ (Rect.block (s := S1x4194304) S1x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x4194304.size a
  hwx0_1 : ∀ i : grid0.Coords, EltTy.bits .f32 = 32 ∨ (Rect.block (s := S1x4194304) S1x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x4194304.size a
  hwx0_2 : ∀ i : grid0.Coords, EltTy.bits .f32 = 32 ∨ (Rect.block (s := S1x4194304) S1x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32768x8.size a ≤ S4194304x8.size a
  hwx0_3 : ∀ i : grid0.Coords, EltTy.bits .f32 = 32 ∨ (Rect.block (s := S4194304x8) S32768x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x8.size a ≤ S8x8.size a
  hwx0_4 : ∀ i : grid0.Coords, EltTy.bits .f32 = 32 ∨ (Rect.block (s := S8x8) S8x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S8x1.size a
  hwx0_6 : ∀ i : grid0.Coords, EltTy.bits .f32 = 32 ∨ (Rect.block (s := S8x1) S8x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S8x1.size a
  hwx0_7 : ∀ i : grid0.Coords, EltTy.bits .f32 = 32 ∨ (Rect.block (s := S8x1) S8x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x1.size a ≤ S8x1.size a
  hwx0_8 : ∀ i : grid0.Coords, EltTy.bits .f32 = 32 ∨ (Rect.block (s := S8x1) S8x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x8.size a ≤ S8x8.size a
  hwx0_9 : ∀ i : grid0.Coords, EltTy.bits .f32 = 32 ∨ (Rect.block (s := S8x8) S8x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x1.size a ≤ S8x1.size a
  hwx0_10 : ∀ i : grid0.Coords, EltTy.bits .f32 = 32 ∨ (Rect.block (s := S8x1) S8x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x8.size a ≤ S3x8.size a
  hwx0_11 : ∀ i : grid0.Coords, EltTy.bits .f32 = 32 ∨ (Rect.block (s := S3x8) S3x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x1.size a ≤ S3x1.size a
  hwx0_12 : ∀ i : grid0.Coords, EltTy.bits .f32 = 32 ∨ (Rect.block (s := S3x1) S3x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3x4x8x1.size a ≤ S3x4x8x1.size a
  hwx0_13 : ∀ i : grid0.Coords, EltTy.bits .f32 = 32 ∨ (Rect.block (s := S3x4x8x1) S3x4x8x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S3x32768.size a ≤ S3x4194304.size a
  hwx0_14 : ∀ i : grid0.Coords, EltTy.bits .f32 = 32 ∨ (Rect.block (s := S3x4194304) S3x32768.size (cc0_transform_14 i) (hinb0_14 i)).WholeWords (EltTy.packing .f32)

variable [Facts₀]

def dot_S8x8_S32768x8_S8x32768_1_1_0_0_n_n : DotDims S8x8 S32768x8 S8x32768 where
  lhsContracting := [1]
  rhsContracting := [1]
  lhsNonContracting := [0]
  rhsNonContracting := [0]
  lhsBatch := []
  rhsBatch := []
  wf := dot_S8x8_S32768x8_S8x32768_1_1_0_0_n_n_wf
def dot_S8x8_S8x32768_S8x32768_1_0_0_1_n_n : DotDims S8x8 S8x32768 S8x32768 where
  lhsContracting := [1]
  rhsContracting := [0]
  lhsNonContracting := [0]
  rhsNonContracting := [1]
  lhsBatch := []
  rhsBatch := []
  wf := dot_S8x8_S8x32768_S8x32768_1_0_0_1_n_n_wf
def dot_S3x8_S8x32768_S3x32768_1_0_0_1_n_n : DotDims S3x8 S8x32768 S3x32768 where
  lhsContracting := [1]
  rhsContracting := [0]
  lhsNonContracting := [0]
  rhsNonContracting := [1]
  lhsBatch := []
  rhsBatch := []
  wf := dot_S3x8_S8x32768_S3x32768_1_0_0_1_n_n_wf

abbrev win0_0 : Pipeline.Window sig grid0 :=
  Pipeline.Window.ofSpec (Memref.whole main_v0) S1x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32768x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S8x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S8x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S8x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S8x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S8x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S3x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S3x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S3x4x8x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S3x32768.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4194304x1 : Shape := ⟨2, ![4194304, 1]⟩
abbrev S4194304x8 : Shape := ⟨2, ![4194304, 8]⟩
abbrev S8x11 : Shape := ⟨2, ![8, 11]⟩
abbrev S8 : Shape := ⟨1, ![8]⟩
abbrev S8x8 : Shape := ⟨2, ![8, 8]⟩
abbrev S3x8 : Shape := ⟨2, ![3, 8]⟩
abbrev S3 : Shape := ⟨1, ![3]⟩
abbrev S3x4x2 : Shape := ⟨3, ![3, 4, 2]⟩
abbrev S_ : Shape := ⟨0, ![]⟩
abbrev S4194304x11 : Shape := ⟨2, ![4194304, 11]⟩
abbrev S11x8 : Shape := ⟨2, ![11, 8]⟩
abbrev S1x8 : Shape := ⟨2, ![1, 8]⟩
abbrev S1x1x2 : Shape := ⟨3, ![1, 1, 2]⟩
abbrev S2 : Shape := ⟨1, ![2]⟩
abbrev S2x1 : Shape := ⟨2, ![2, 1]⟩
abbrev S4194304x2 : Shape := ⟨2, ![4194304, 2]⟩
abbrev S8x3 : Shape := ⟨2, ![8, 3]⟩
abbrev S4194304x3 : Shape := ⟨2, ![4194304, 3]⟩
abbrev S1x3 : Shape := ⟨2, ![1, 3]⟩

abbrev nBuf : Space → Nat
  | .hbm => 336
  | .vmem => 0
  | .smem => 0
  | _ => 0

abbrev hbmTy0_0 (i : Nat) : BufTy := match i % 128 with
  | 0 => ⟨S4194304x1, .f32⟩
  | 1 => ⟨S4194304x1, .f32⟩
  | 2 => ⟨S4194304x1, .f32⟩
  | 3 => ⟨S4194304x8, .f32⟩
  | 4 => ⟨S8x11, .f32⟩
  | 5 => ⟨S8, .f32⟩
  | 6 => ⟨S8x8, .f32⟩
  | 7 => ⟨S8, .f32⟩
  | 8 => ⟨S3x8, .f32⟩
  | 9 => ⟨S3, .f32⟩
  | 10 => ⟨S3x4x2, .i32⟩
  | 11 => ⟨S_, .f32⟩
  | 12 => ⟨S4194304x8, .f32⟩
  | 13 => ⟨S4194304x8, .f32⟩
  | 14 => ⟨S4194304x11, .f32⟩
  | 15 => ⟨S11x8, .f32⟩
  | 16 => ⟨S4194304x8, .f32⟩
  | 17 => ⟨S1x8, .f32⟩
  | 18 => ⟨S4194304x8, .f32⟩
  | 19 => ⟨S4194304x8, .f32⟩
  | 20 => ⟨S8x8, .f32⟩
  | 21 => ⟨S4194304x8, .f32⟩
  | 22 => ⟨S1x8, .f32⟩
  | 23 => ⟨S4194304x8, .f32⟩
  | 24 => ⟨S4194304x8, .f32⟩
  | 25 => ⟨S_, .f32⟩
  | 26 => ⟨S4194304x8, .f32⟩
  | 27 => ⟨S1x1x2, .i32⟩
  | 28 => ⟨S2, .i32⟩
  | 29 => ⟨S_, .i32⟩
  | 30 => ⟨S2, .i32⟩
  | 31 => ⟨S2, .i1⟩
  | 32 => ⟨S_, .i32⟩
  | 33 => ⟨S2, .i32⟩
  | 34 => ⟨S2, .i32⟩
  | 35 => ⟨S2, .i32⟩
  | 36 => ⟨S2x1, .i32⟩
  | 37 => ⟨S4194304x2, .f32⟩
  | 38 => ⟨S4194304x2, .f32⟩
  | 39 => ⟨S_, .i32⟩
  | 40 => ⟨S2, .i32⟩
  | 41 => ⟨S2, .i1⟩
  | 42 => ⟨S_, .i32⟩
  | 43 => ⟨S2, .i32⟩
  | 44 => ⟨S2, .i32⟩
  | 45 => ⟨S2, .i32⟩
  | 46 => ⟨S2x1, .i32⟩
  | 47 => ⟨S4194304x8, .f32⟩
  | 48 => ⟨S1x1x2, .i32⟩
  | 49 => ⟨S2, .i32⟩
  | 50 => ⟨S_, .i32⟩
  | 51 => ⟨S2, .i32⟩
  | 52 => ⟨S2, .i1⟩
  | 53 => ⟨S_, .i32⟩
  | 54 => ⟨S2, .i32⟩
  | 55 => ⟨S2, .i32⟩
  | 56 => ⟨S2, .i32⟩
  | 57 => ⟨S2x1, .i32⟩
  | 58 => ⟨S4194304x2, .f32⟩
  | 59 => ⟨S_, .f32⟩
  | 60 => ⟨S4194304x2, .f32⟩
  | 61 => ⟨S4194304x2, .f32⟩
  | 62 => ⟨S4194304x2, .f32⟩
  | 63 => ⟨S4194304x2, .f32⟩
  | 64 => ⟨S_, .f32⟩
  | 65 => ⟨S4194304x2, .f32⟩
  | 66 => ⟨S4194304x2, .f32⟩
  | 67 => ⟨S_, .i32⟩
  | 68 => ⟨S2, .i32⟩
  | 69 => ⟨S2, .i1⟩
  | 70 => ⟨S_, .i32⟩
  | 71 => ⟨S2, .i32⟩
  | 72 => ⟨S2, .i32⟩
  | 73 => ⟨S2, .i32⟩
  | 74 => ⟨S2x1, .i32⟩
  | 75 => ⟨S4194304x8, .f32⟩
  | 76 => ⟨S1x1x2, .i32⟩
  | 77 => ⟨S2, .i32⟩
  | 78 => ⟨S_, .i32⟩
  | 79 => ⟨S2, .i32⟩
  | 80 => ⟨S2, .i1⟩
  | 81 => ⟨S_, .i32⟩
  | 82 => ⟨S2, .i32⟩
  | 83 => ⟨S2, .i32⟩
  | 84 => ⟨S2, .i32⟩
  | 85 => ⟨S2x1, .i32⟩
  | 86 => ⟨S4194304x2, .f32⟩
  | 87 => ⟨S4194304x2, .f32⟩
  | 88 => ⟨S_, .i32⟩
  | 89 => ⟨S2, .i32⟩
  | 90 => ⟨S2, .i1⟩
  | 91 => ⟨S_, .i32⟩
  | 92 => ⟨S2, .i32⟩
  | 93 => ⟨S2, .i32⟩
  | 94 => ⟨S2, .i32⟩
  | 95 => ⟨S2x1, .i32⟩
  | 96 => ⟨S4194304x8, .f32⟩
  | 97 => ⟨S1x1x2, .i32⟩
  | 98 => ⟨S2, .i32⟩
  | 99 => ⟨S_, .i32⟩
  | 100 => ⟨S2, .i32⟩
  | 101 => ⟨S2, .i1⟩
  | 102 => ⟨S_, .i32⟩
  | 103 => ⟨S2, .i32⟩
  | 104 => ⟨S2, .i32⟩
  | 105 => ⟨S2, .i32⟩
  | 106 => ⟨S2x1, .i32⟩
  | 107 => ⟨S4194304x2, .f32⟩
  | 108 => ⟨S_, .i32⟩
  | 109 => ⟨S2, .i32⟩
  | 110 => ⟨S2, .i1⟩
  | 111 => ⟨S_, .i32⟩
  | 112 => ⟨S2, .i32⟩
  | 113 => ⟨S2, .i32⟩
  | 114 => ⟨S2, .i32⟩
  | 115 => ⟨S2x1, .i32⟩
  | 116 => ⟨S4194304x8, .f32⟩
  | 117 => ⟨S4194304x8, .f32⟩
  | 118 => ⟨S_, .f32⟩
  | 119 => ⟨S4194304x8, .f32⟩
  | 120 => ⟨S4194304x8, .f32⟩
  | 121 => ⟨S8x8, .f32⟩
  | 122 => ⟨S4194304x8, .f32⟩
  | 123 => ⟨S1x8, .f32⟩
  | 124 => ⟨S4194304x8, .f32⟩
  | 125 => ⟨S4194304x8, .f32⟩
  | 126 => ⟨S_, .f32⟩
  | 127 => ⟨S4194304x8, .f32⟩
  | _ => ⟨S4194304x1, .f32⟩

abbrev hbmTy0_1 (i : Nat) : BufTy := match i % 128 with
  | 0 => ⟨S1x1x2, .i32⟩
  | 1 => ⟨S2, .i32⟩
  | 2 => ⟨S_, .i32⟩
  | 3 => ⟨S2, .i32⟩
  | 4 => ⟨S2, .i1⟩
  | 5 => ⟨S_, .i32⟩
  | 6 => ⟨S2, .i32⟩
  | 7 => ⟨S2, .i32⟩
  | 8 => ⟨S2, .i32⟩
  | 9 => ⟨S2x1, .i32⟩
  | 10 => ⟨S4194304x2, .f32⟩
  | 11 => ⟨S4194304x2, .f32⟩
  | 12 => ⟨S_, .i32⟩
  | 13 => ⟨S2, .i32⟩
  | 14 => ⟨S2, .i1⟩
  | 15 => ⟨S_, .i32⟩
  | 16 => ⟨S2, .i32⟩
  | 17 => ⟨S2, .i32⟩
  | 18 => ⟨S2, .i32⟩
  | 19 => ⟨S2x1, .i32⟩
  | 20 => ⟨S4194304x8, .f32⟩
  | 21 => ⟨S1x1x2, .i32⟩
  | 22 => ⟨S2, .i32⟩
  | 23 => ⟨S_, .i32⟩
  | 24 => ⟨S2, .i32⟩
  | 25 => ⟨S2, .i1⟩
  | 26 => ⟨S_, .i32⟩
  | 27 => ⟨S2, .i32⟩
  | 28 => ⟨S2, .i32⟩
  | 29 => ⟨S2, .i32⟩
  | 30 => ⟨S2x1, .i32⟩
  | 31 => ⟨S4194304x2, .f32⟩
  | 32 => ⟨S_, .f32⟩
  | 33 => ⟨S4194304x2, .f32⟩
  | 34 => ⟨S4194304x2, .f32⟩
  | 35 => ⟨S4194304x2, .f32⟩
  | 36 => ⟨S4194304x2, .f32⟩
  | 37 => ⟨S_, .f32⟩
  | 38 => ⟨S4194304x2, .f32⟩
  | 39 => ⟨S4194304x2, .f32⟩
  | 40 => ⟨S_, .i32⟩
  | 41 => ⟨S2, .i32⟩
  | 42 => ⟨S2, .i1⟩
  | 43 => ⟨S_, .i32⟩
  | 44 => ⟨S2, .i32⟩
  | 45 => ⟨S2, .i32⟩
  | 46 => ⟨S2, .i32⟩
  | 47 => ⟨S2x1, .i32⟩
  | 48 => ⟨S4194304x8, .f32⟩
  | 49 => ⟨S1x1x2, .i32⟩
  | 50 => ⟨S2, .i32⟩
  | 51 => ⟨S_, .i32⟩
  | 52 => ⟨S2, .i32⟩
  | 53 => ⟨S2, .i1⟩
  | 54 => ⟨S_, .i32⟩
  | 55 => ⟨S2, .i32⟩
  | 56 => ⟨S2, .i32⟩
  | 57 => ⟨S2, .i32⟩
  | 58 => ⟨S2x1, .i32⟩
  | 59 => ⟨S4194304x2, .f32⟩
  | 60 => ⟨S4194304x2, .f32⟩
  | 61 => ⟨S_, .i32⟩
  | 62 => ⟨S2, .i32⟩
  | 63 => ⟨S2, .i1⟩
  | 64 => ⟨S_, .i32⟩
  | 65 => ⟨S2, .i32⟩
  | 66 => ⟨S2, .i32⟩
  | 67 => ⟨S2, .i32⟩
  | 68 => ⟨S2x1, .i32⟩
  | 69 => ⟨S4194304x8, .f32⟩
  | 70 => ⟨S1x1x2, .i32⟩
  | 71 => ⟨S2, .i32⟩
  | 72 => ⟨S_, .i32⟩
  | 73 => ⟨S2, .i32⟩
  | 74 => ⟨S2, .i1⟩
  | 75 => ⟨S_, .i32⟩
  | 76 => ⟨S2, .i32⟩
  | 77 => ⟨S2, .i32⟩
  | 78 => ⟨S2, .i32⟩
  | 79 => ⟨S2x1, .i32⟩
  | 80 => ⟨S4194304x2, .f32⟩
  | 81 => ⟨S_, .i32⟩
  | 82 => ⟨S2, .i32⟩
  | 83 => ⟨S2, .i1⟩
  | 84 => ⟨S_, .i32⟩
  | 85 => ⟨S2, .i32⟩
  | 86 => ⟨S2, .i32⟩
  | 87 => ⟨S2, .i32⟩
  | 88 => ⟨S2x1, .i32⟩
  | 89 => ⟨S4194304x8, .f32⟩
  | 90 => ⟨S4194304x8, .f32⟩
  | 91 => ⟨S_, .f32⟩
  | 92 => ⟨S4194304x8, .f32⟩
  | 93 => ⟨S4194304x8, .f32⟩
  | 94 => ⟨S8x8, .f32⟩
  | 95 => ⟨S4194304x8, .f32⟩
  | 96 => ⟨S1x8, .f32⟩
  | 97 => ⟨S4194304x8, .f32⟩
  | 98 => ⟨S4194304x8, .f32⟩
  | 99 => ⟨S_, .f32⟩
  | 100 => ⟨S4194304x8, .f32⟩
  | 101 => ⟨S1x1x2, .i32⟩
  | 102 => ⟨S2, .i32⟩
  | 103 => ⟨S_, .i32⟩
  | 104 => ⟨S2, .i32⟩
  | 105 => ⟨S2, .i1⟩
  | 106 => ⟨S_, .i32⟩
  | 107 => ⟨S2, .i32⟩
  | 108 => ⟨S2, .i32⟩
  | 109 => ⟨S2, .i32⟩
  | 110 => ⟨S2x1, .i32⟩
  | 111 => ⟨S4194304x2, .f32⟩
  | 112 => ⟨S4194304x2, .f32⟩
  | 113 => ⟨S_, .i32⟩
  | 114 => ⟨S2, .i32⟩
  | 115 => ⟨S2, .i1⟩
  | 116 => ⟨S_, .i32⟩
  | 117 => ⟨S2, .i32⟩
  | 118 => ⟨S2, .i32⟩
  | 119 => ⟨S2, .i32⟩
  | 120 => ⟨S2x1, .i32⟩
  | 121 => ⟨S4194304x8, .f32⟩
  | 122 => ⟨S1x1x2, .i32⟩
  | 123 => ⟨S2, .i32⟩
  | 124 => ⟨S_, .i32⟩
  | 125 => ⟨S2, .i32⟩
  | 126 => ⟨S2, .i1⟩
  | 127 => ⟨S_, .i32⟩
  | _ => ⟨S4194304x1, .f32⟩

abbrev hbmTy0_2 (i : Nat) : BufTy := match i % 128 with
  | 0 => ⟨S2, .i32⟩
  | 1 => ⟨S2, .i32⟩
  | 2 => ⟨S2, .i32⟩
  | 3 => ⟨S2x1, .i32⟩
  | 4 => ⟨S4194304x2, .f32⟩
  | 5 => ⟨S_, .f32⟩
  | 6 => ⟨S4194304x2, .f32⟩
  | 7 => ⟨S4194304x2, .f32⟩
  | 8 => ⟨S4194304x2, .f32⟩
  | 9 => ⟨S4194304x2, .f32⟩
  | 10 => ⟨S_, .f32⟩
  | 11 => ⟨S4194304x2, .f32⟩
  | 12 => ⟨S4194304x2, .f32⟩
  | 13 => ⟨S_, .i32⟩
  | 14 => ⟨S2, .i32⟩
  | 15 => ⟨S2, .i1⟩
  | 16 => ⟨S_, .i32⟩
  | 17 => ⟨S2, .i32⟩
  | 18 => ⟨S2, .i32⟩
  | 19 => ⟨S2, .i32⟩
  | 20 => ⟨S2x1, .i32⟩
  | 21 => ⟨S4194304x8, .f32⟩
  | 22 => ⟨S1x1x2, .i32⟩
  | 23 => ⟨S2, .i32⟩
  | 24 => ⟨S_, .i32⟩
  | 25 => ⟨S2, .i32⟩
  | 26 => ⟨S2, .i1⟩
  | 27 => ⟨S_, .i32⟩
  | 28 => ⟨S2, .i32⟩
  | 29 => ⟨S2, .i32⟩
  | 30 => ⟨S2, .i32⟩
  | 31 => ⟨S2x1, .i32⟩
  | 32 => ⟨S4194304x2, .f32⟩
  | 33 => ⟨S4194304x2, .f32⟩
  | 34 => ⟨S_, .i32⟩
  | 35 => ⟨S2, .i32⟩
  | 36 => ⟨S2, .i1⟩
  | 37 => ⟨S_, .i32⟩
  | 38 => ⟨S2, .i32⟩
  | 39 => ⟨S2, .i32⟩
  | 40 => ⟨S2, .i32⟩
  | 41 => ⟨S2x1, .i32⟩
  | 42 => ⟨S4194304x8, .f32⟩
  | 43 => ⟨S1x1x2, .i32⟩
  | 44 => ⟨S2, .i32⟩
  | 45 => ⟨S_, .i32⟩
  | 46 => ⟨S2, .i32⟩
  | 47 => ⟨S2, .i1⟩
  | 48 => ⟨S_, .i32⟩
  | 49 => ⟨S2, .i32⟩
  | 50 => ⟨S2, .i32⟩
  | 51 => ⟨S2, .i32⟩
  | 52 => ⟨S2x1, .i32⟩
  | 53 => ⟨S4194304x2, .f32⟩
  | 54 => ⟨S_, .i32⟩
  | 55 => ⟨S2, .i32⟩
  | 56 => ⟨S2, .i1⟩
  | 57 => ⟨S_, .i32⟩
  | 58 => ⟨S2, .i32⟩
  | 59 => ⟨S2, .i32⟩
  | 60 => ⟨S2, .i32⟩
  | 61 => ⟨S2x1, .i32⟩
  | 62 => ⟨S4194304x8, .f32⟩
  | 63 => ⟨S4194304x8, .f32⟩
  | 64 => ⟨S_, .f32⟩
  | 65 => ⟨S4194304x8, .f32⟩
  | 66 => ⟨S4194304x8, .f32⟩
  | 67 => ⟨S8x3, .f32⟩
  | 68 => ⟨S4194304x3, .f32⟩
  | 69 => ⟨S1x3, .f32⟩
  | 70 => ⟨S4194304x3, .f32⟩
  | 71 => ⟨S4194304x3, .f32⟩
  | 72 => ⟨S4194304x3, .f32⟩
  | 73 => ⟨S4194304x3, .f32⟩
  | 74 => ⟨S_, .f32⟩
  | 75 => ⟨S4194304x3, .f32⟩
  | 76 => ⟨S4194304x3, .f32⟩
  | 77 => ⟨S_, .f32⟩
  | 78 => ⟨S4194304x3, .f32⟩
  | 79 => ⟨S4194304x3, .f32⟩
  | _ => ⟨S4194304x1, .f32⟩

abbrev hbmTy (i : Nat) : BufTy := match i / 128 with
  | 0 => hbmTy0_0 i
  | 1 => hbmTy0_1 i
  | 2 => hbmTy0_2 i
  | _ => ⟨S4194304x1, .f32⟩

abbrev bufTy : (tb : Table) → Fin (tcTables nBuf tb) → BufTy
  | .hbm, ⟨i, _⟩ => hbmTy i
  | _, _ => ⟨S4194304x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_2 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_c_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_16 : Ref sig .tc := ⟨.hbm, 108, rfl⟩
abbrev main_v79 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_18 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_19 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_20 : Ref sig .tc := ⟨.hbm, 130, rfl⟩
abbrev main_v97 : Ref sig .tc := ⟨.hbm, 131, rfl⟩
abbrev main_v98 : Ref sig .tc := ⟨.hbm, 132, rfl⟩
abbrev main_c_21 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_22 : Ref sig .tc := ⟨.hbm, 140, rfl⟩
abbrev main_v105 : Ref sig .tc := ⟨.hbm, 141, rfl⟩
abbrev main_v106 : Ref sig .tc := ⟨.hbm, 142, rfl⟩
abbrev main_c_23 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_24 : Ref sig .tc := ⟨.hbm, 151, rfl⟩
abbrev main_v114 : Ref sig .tc := ⟨.hbm, 152, rfl⟩
abbrev main_v115 : Ref sig .tc := ⟨.hbm, 153, rfl⟩
abbrev main_c_25 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_26 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_27 : Ref sig .tc := ⟨.hbm, 165, rfl⟩
abbrev main_v125 : Ref sig .tc := ⟨.hbm, 166, rfl⟩
abbrev main_v126 : Ref sig .tc := ⟨.hbm, 167, rfl⟩
abbrev main_c_28 : Ref sig .tc := ⟨.hbm, 168, rfl⟩
abbrev main_v127 : Ref sig .tc := ⟨.hbm, 169, rfl⟩
abbrev main_v128 : Ref sig .tc := ⟨.hbm, 170, rfl⟩
abbrev main_c_29 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_30 : Ref sig .tc := ⟨.hbm, 179, rfl⟩
abbrev main_v136 : Ref sig .tc := ⟨.hbm, 180, rfl⟩
abbrev main_v137 : Ref sig .tc := ⟨.hbm, 181, rfl⟩
abbrev main_c_31 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_c_32 : Ref sig .tc := ⟨.hbm, 189, rfl⟩
abbrev main_v144 : Ref sig .tc := ⟨.hbm, 190, rfl⟩
abbrev main_v145 : Ref sig .tc := ⟨.hbm, 191, rfl⟩
abbrev main_c_33 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_c_34 : Ref sig .tc := ⟨.hbm, 200, rfl⟩
abbrev main_v153 : Ref sig .tc := ⟨.hbm, 201, rfl⟩
abbrev main_v154 : Ref sig .tc := ⟨.hbm, 202, rfl⟩
abbrev main_c_35 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_c_36 : Ref sig .tc := ⟨.hbm, 209, rfl⟩
abbrev main_v160 : Ref sig .tc := ⟨.hbm, 210, rfl⟩
abbrev main_v161 : Ref sig .tc := ⟨.hbm, 211, rfl⟩
abbrev main_c_37 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_38 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_cst_39 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_c_40 : Ref sig .tc := ⟨.hbm, 231, rfl⟩
abbrev main_v178 : Ref sig .tc := ⟨.hbm, 232, rfl⟩
abbrev main_v179 : Ref sig .tc := ⟨.hbm, 233, rfl⟩
abbrev main_c_41 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_c_42 : Ref sig .tc := ⟨.hbm, 241, rfl⟩
abbrev main_v186 : Ref sig .tc := ⟨.hbm, 242, rfl⟩
abbrev main_v187 : Ref sig .tc := ⟨.hbm, 243, rfl⟩
abbrev main_c_43 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_c_44 : Ref sig .tc := ⟨.hbm, 252, rfl⟩
abbrev main_v195 : Ref sig .tc := ⟨.hbm, 253, rfl⟩
abbrev main_v196 : Ref sig .tc := ⟨.hbm, 254, rfl⟩
abbrev main_c_45 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_cst_46 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_cst_47 : Ref sig .tc := ⟨.hbm, 266, rfl⟩
abbrev main_v206 : Ref sig .tc := ⟨.hbm, 267, rfl⟩
abbrev main_v207 : Ref sig .tc := ⟨.hbm, 268, rfl⟩
abbrev main_c_48 : Ref sig .tc := ⟨.hbm, 269, rfl⟩
abbrev main_v208 : Ref sig .tc := ⟨.hbm, 270, rfl⟩
abbrev main_v209 : Ref sig .tc := ⟨.hbm, 271, rfl⟩
abbrev main_c_49 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_c_50 : Ref sig .tc := ⟨.hbm, 280, rfl⟩
abbrev main_v217 : Ref sig .tc := ⟨.hbm, 281, rfl⟩
abbrev main_v218 : Ref sig .tc := ⟨.hbm, 282, rfl⟩
abbrev main_c_51 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_c_52 : Ref sig .tc := ⟨.hbm, 290, rfl⟩
abbrev main_v225 : Ref sig .tc := ⟨.hbm, 291, rfl⟩
abbrev main_v226 : Ref sig .tc := ⟨.hbm, 292, rfl⟩
abbrev main_c_53 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_c_54 : Ref sig .tc := ⟨.hbm, 301, rfl⟩
abbrev main_v234 : Ref sig .tc := ⟨.hbm, 302, rfl⟩
abbrev main_v235 : Ref sig .tc := ⟨.hbm, 303, rfl⟩
abbrev main_c_55 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_c_56 : Ref sig .tc := ⟨.hbm, 310, rfl⟩
abbrev main_v241 : Ref sig .tc := ⟨.hbm, 311, rfl⟩
abbrev main_v242 : Ref sig .tc := ⟨.hbm, 312, rfl⟩
abbrev main_c_57 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_cst_58 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_cst_59 : Ref sig .tc := ⟨.hbm, 330, rfl⟩
abbrev main_v258 : Ref sig .tc := ⟨.hbm, 331, rfl⟩
abbrev main_v259 : Ref sig .tc := ⟨.hbm, 332, rfl⟩
abbrev main_cst_60 : Ref sig .tc := ⟨.hbm, 333, rfl⟩
abbrev main_v260 : Ref sig .tc := ⟨.hbm, 334, rfl⟩
abbrev main_v261 : Ref sig .tc := ⟨.hbm, 335, rfl⟩

abbrev nD : Nat := 1
abbrev τ : Topo := Topo.v7x

variable {F : FTy → Type} [FloatOps F]

class Facts₀ : Prop where
  bcast_S_S4194304x8 : S_.BroadcastsInDim S4194304x8 (![] : Fin 0 → Fin S4194304x8.rank)
  concatenates_S4194304x8_S4194304x1_S4194304x1_S4194304x1_S4194304x11_d1 : Shape.Concatenates [S4194304x8, S4194304x1, S4194304x1, S4194304x1] S4194304x11 1
  transposes_S8x11_S11x8_1_0 : S8x11.Transposes [1, 0] S11x8
  bcast_S8_S1x8_1 : S8.BroadcastsInDim S1x8 (![1] : Fin 1 → Fin S1x8.rank)
  bcast_S1x8_S4194304x8_0_1 : S1x8.BroadcastsInDim S4194304x8 (![0, 1] : Fin 2 → Fin S4194304x8.rank)
  transposes_S8x8_S8x8_1_0 : S8x8.Transposes [1, 0] S8x8
  slices_S3x4x2_S1x1x2_0_0_0 : S3x4x2.Slices ![0, 0, 0] S1x1x2
  shapeCasts_S1x1x2_S2 : S1x1x2.ShapeCasts S2
  bcast_S_S2 : S_.BroadcastsInDim S2 (![] : Fin 0 → Fin S2.rank)
  bcast_S2_S2x1_0 : S2.BroadcastsInDim S2x1 (![0] : Fin 1 → Fin S2x1.rank)
  slices_S3x4x2_S1x1x2_0_1_0 : S3x4x2.Slices ![0, 1, 0] S1x1x2
  bcast_S_S4194304x2 : S_.BroadcastsInDim S4194304x2 (![] : Fin 0 → Fin S4194304x2.rank)
  slices_S3x4x2_S1x1x2_0_2_0 : S3x4x2.Slices ![0, 2, 0] S1x1x2
  slices_S3x4x2_S1x1x2_0_3_0 : S3x4x2.Slices ![0, 3, 0] S1x1x2
  slices_S3x4x2_S1x1x2_1_0_0 : S3x4x2.Slices ![1, 0, 0] S1x1x2
  slices_S3x4x2_S1x1x2_1_1_0 : S3x4x2.Slices ![1, 1, 0] S1x1x2
  slices_S3x4x2_S1x1x2_1_2_0 : S3x4x2.Slices ![1, 2, 0] S1x1x2
  slices_S3x4x2_S1x1x2_1_3_0 : S3x4x2.Slices ![1, 3, 0] S1x1x2
  slices_S3x4x2_S1x1x2_2_0_0 : S3x4x2.Slices ![2, 0, 0] S1x1x2
  slices_S3x4x2_S1x1x2_2_1_0 : S3x4x2.Slices ![2, 1, 0] S1x1x2
  slices_S3x4x2_S1x1x2_2_2_0 : S3x4x2.Slices ![2, 2, 0] S1x1x2
  slices_S3x4x2_S1x1x2_2_3_0 : S3x4x2.Slices ![2, 3, 0] S1x1x2
  transposes_S3x8_S8x3_1_0 : S3x8.Transposes [1, 0] S8x3
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  bcast_S_S4194304x3 : S_.BroadcastsInDim S4194304x3 (![] : Fin 0 → Fin S4194304x3.rank)
  dot_S4194304x11_S11x8_S4194304x8_1_0_0_1_n_n_wf : DotDims.WF S4194304x11 S11x8 S4194304x8 [1] [0] [0] [1] [] []
  dot_S4194304x8_S8x8_S4194304x8_1_0_0_1_n_n_wf : DotDims.WF S4194304x8 S8x8 S4194304x8 [1] [0] [0] [1] [] []
  gather_S4194304x8_S2x1_S4194304x2_0_1_n_n_1_1_41943041_wf : GatherDims.WF S4194304x8 S2x1 S4194304x2 [0] [1] [] [1] [] 1 ![4194304, 1]
  scatter_S4194304x8_S2x1_S4194304x2_0_1_1_1_wf : ScatterDims.WF S4194304x8 S2x1 S4194304x2 [0] [1] [1] 1
  dot_S4194304x8_S8x3_S4194304x3_1_0_0_1_n_n_wf : DotDims.WF S4194304x8 S8x3 S4194304x3 [1] [0] [0] [1] [] []

variable [Facts₀]

def dot_S4194304x11_S11x8_S4194304x8_1_0_0_1_n_n : DotDims S4194304x11 S11x8 S4194304x8 where
  lhsContracting := [1]
  rhsContracting := [0]
  lhsNonContracting := [0]
  rhsNonContracting := [1]
  lhsBatch := []
  rhsBatch := []
  wf := dot_S4194304x11_S11x8_S4194304x8_1_0_0_1_n_n_wf
def dot_S4194304x8_S8x8_S4194304x8_1_0_0_1_n_n : DotDims S4194304x8 S8x8 S4194304x8 where
  lhsContracting := [1]
  rhsContracting := [0]
  lhsNonContracting := [0]
  rhsNonContracting := [1]
  lhsBatch := []
  rhsBatch := []
  wf := dot_S4194304x8_S8x8_S4194304x8_1_0_0_1_n_n_wf
def gather_S4194304x8_S2x1_S4194304x2_0_1_n_n_1_1_41943041 : GatherDims S4194304x8 S2x1 S4194304x2 where
  offsetDims := [0]
  collapsedSliceDims := [1]
  operandBatchingDims := []
  startIndicesBatchingDims := []
  startIndexMap := [1]
  indexVectorDim := 1
  sliceSizes := ![4194304, 1]
  wf := gather_S4194304x8_S2x1_S4194304x2_0_1_n_n_1_1_41943041_wf
def scatter_S4194304x8_S2x1_S4194304x2_0_1_1_1 : ScatterDims S4194304x8 S2x1 S4194304x2 where
  updateWindowDims := [0]
  insertedWindowDims := [1]
  scatterDimsToOperandDims := [1]
  indexVectorDim := 1
  wf := scatter_S4194304x8_S2x1_S4194304x2_0_1_1_1_wf
def dot_S4194304x8_S8x3_S4194304x3_1_0_0_1_n_n : DotDims S4194304x8 S8x3 S4194304x3 where
  lhsContracting := [1]
  rhsContracting := [0]
  lhsNonContracting := [0]
  rhsNonContracting := [1]
  lhsBatch := []
  rhsBatch := []
  wf := dot_S4194304x8_S8x3_S4194304x3_1_0_0_1_n_n_wf

class Facts : Prop extends Facts₀ where

variable [Facts]
-- ==== Proof.Spec.lean ====
/-
  The function both programs compute, row by row, on the extended reals.

  A row carries eleven inputs u (eight motion entries each divided by ten, then x, y, r). Layer 0 is
  o0 h = (sum over k of u k * W0 h k) + b0 h. Each of three further layers forms p h = (sum over k of o k * Wm h k) + bm h,
  applies to column h the activation of the group that holds h (sine, a Gaussian bump, tanh, identity; zero when no
  group holds it) and averages with the layer's input: o' h = (a h + o h) * 1/2. The head is the logistic of
  (sum over k of o k * Wo j k) + bo j.

  "The activation of the group that holds h" has two spellings. One program writes the groups one after the other
  into a zero array, so a column keeps the LAST group that names it (pick). The other weights each activation by
  0 or 1 and adds the four products (blend). When no column lies in two groups the two agree (blend_eq_pick):
  at most one weight is 1, and 0 * a = 0, 1 * a = a, 0 + a = a hold for every extended real, infinite or not.
-/
import Idealize.ShloMosaic.PureOps.Ideal
import Idealize.ShloMosaic.Lib.ValueIdx

noncomputable section

namespace Cert.Cppn

open Idealize.ShloMosaic Idealize.ShloMosaic.ValueIdx

/-- The divisor ten, the factor -1/2, the Gaussian's prefactor and the factor 1/2, each the exact value of its word. -/
abbrev cTen : EReal := Ideal.ofBits .f32 0x41200000#32
abbrev cNegHalf : EReal := Ideal.ofBits .f32 0xBF000000#32
abbrev cGauss : EReal := Ideal.ofBits .f32 0x3ECC422A#32
abbrev cHalf : EReal := Ideal.ofBits .f32 0x3F000000#32

/-- The four activations: sine, c * exp((-1/2 * p) * p), tanh, identity. -/
def act (f : Fin 4) (p : EReal) : EReal :=
  match f with
  | 0 => Ideal.sin p
  | 1 => cGauss * Ideal.exp ((cNegHalf * p) * p)
  | 2 => Ideal.tanh p
  | 3 => p

/-- Column h is one of the two entries of the group g. -/
def inGroup (g : Fin 2 → BitVec 32) (h : Fin 8) : Prop := ∃ k : Fin 2, g k = BitVec.ofNat 32 h.val

instance (g : Fin 2 → BitVec 32) (h : Fin 8) : Decidable (inGroup g h) := by unfold inGroup; infer_instance

/-- The groups written in order into zeros: column h keeps the last group that names it. -/
def pick (G : Fin 4 → Fin 2 → BitVec 32) (h : Fin 8) (p : EReal) : EReal :=
  if inGroup (G 3) h then act 3 p else if inGroup (G 2) h then act 2 p
  else if inGroup (G 1) h then act 1 p else if inGroup (G 0) h then act 0 p else 0

/-- The weight of group g at column h: one if it holds h, else zero. -/
def wt (g : Fin 2 → BitVec 32) (h : Fin 8) : EReal := if inGroup g h then 1 else 0

/-- The four activations weighted and added, in the order the sum is formed. -/
def blend (G : Fin 4 → Fin 2 → BitVec 32) (h : Fin 8) (p : EReal) : EReal :=
  ((wt (G 0) h * act 0 p + wt (G 1) h * act 1 p) + wt (G 2) h * act 2 p) + wt (G 3) h * act 3 p

/-- When no column lies in two groups, the weighted sum is the selected activation. -/
theorem blend_eq_pick (G : Fin 4 → Fin 2 → BitVec 32) (h : Fin 8) (p : EReal)
    (hd : ∀ f f' : Fin 4, f ≠ f' → ¬ (inGroup (G f) h ∧ inGroup (G f') h)) : blend G h p = pick G h p := by
  unfold blend pick wt
  by_cases h3 : inGroup (G 3) h
  · have n2 : ¬ inGroup (G 2) h := fun k => hd 3 2 (by decide) ⟨h3, k⟩
    have n1 : ¬ inGroup (G 1) h := fun k => hd 3 1 (by decide) ⟨h3, k⟩
    have n0 : ¬ inGroup (G 0) h := fun k => hd 3 0 (by decide) ⟨h3, k⟩
    simp only [h3, n2, n1, n0, if_true, if_false, zero_mul, one_mul, zero_add, add_zero]
  · by_cases h2 : inGroup (G 2) h
    · have n1 : ¬ inGroup (G 1) h := fun k => hd 2 1 (by decide) ⟨h2, k⟩
      have n0 : ¬ inGroup (G 0) h := fun k => hd 2 0 (by decide) ⟨h2, k⟩
      simp only [h3, h2, n1, n0, if_true, if_false, zero_mul, one_mul, zero_add, add_zero]
    · by_cases h1 : inGroup (G 1) h
      · have n0 : ¬ inGroup (G 0) h := fun k => hd 1 0 (by decide) ⟨h1, k⟩
        simp only [h3, h2, h1, n0, if_true, if_false, zero_mul, one_mul, zero_add, add_zero]
      · by_cases h0 : inGroup (G 0) h
        · simp only [h3, h2, h1, h0, if_true, if_false, zero_mul, one_mul, zero_add, add_zero]
        · simp only [h3, h2, h1, h0, if_true, if_false, zero_mul, one_mul, zero_add, add_zero]

/-- A row's eleven inputs: the eight motion entries over ten, then x, y, r. -/
def inp (xv yv rv : EReal) (zv : Fin 8 → EReal) : Fin 11 → EReal := fun k =>
  if hk : k.val < 8 then Ideal.div (zv ⟨k.val, hk⟩) cTen else if k.val = 8 then xv else if k.val = 9 then yv else rv

/-- Layer 0. -/
def out0 (W0 : Fin 8 → Fin 11 → EReal) (b0 : Fin 8 → EReal) (u : Fin 11 → EReal) : Fin 8 → EReal :=
  fun h => (∑ k : Fin 11, u k * W0 h k) + b0 h

/-- A layer's pre-activation. -/
def pre (Wm : Fin 8 → Fin 8 → EReal) (bm : Fin 8 → EReal) (o : Fin 8 → EReal) : Fin 8 → EReal :=
  fun h => (∑ k : Fin 8, o k * Wm h k) + bm h

/-- One layer: the selected activation of the pre-activation, averaged with the layer's input. -/
def step (G : Fin 4 → Fin 2 → BitVec 32) (Wm : Fin 8 → Fin 8 → EReal) (bm : Fin 8 → EReal) (o : Fin 8 → EReal) :
    Fin 8 → EReal :=
  fun h => (pick G h (pre Wm bm o h) + o h) * cHalf

/-- The head: the logistic of the output layer. -/
def head (Wo : Fin 3 → Fin 8 → EReal) (bo : Fin 3 → EReal) (o : Fin 8 → EReal) : Fin 3 → EReal :=
  fun j => Ideal.logistic ((∑ k : Fin 8, o k * Wo j k) + bo j)

/-- A whole row. M l is layer l's four groups. -/
def rowOut (xv yv rv : EReal) (zv : Fin 8 → EReal) (W0 : Fin 8 → Fin 11 → EReal) (b0 : Fin 8 → EReal)
    (Wm : Fin 8 → Fin 8 → EReal) (bm : Fin 8 → EReal) (Wo : Fin 3 → Fin 8 → EReal) (bo : Fin 3 → EReal)
    (M : Fin 3 → Fin 4 → Fin 2 → BitVec 32) : Fin 3 → EReal :=
  head Wo bo (step (M 2) Wm bm (step (M 1) Wm bm (step (M 0) Wm bm (out0 W0 b0 (inp xv yv rv zv)))))

/-- The result at row n, output j, of the argument arrays. -/
def Grow (x y r : (⟨2, ![4194304, 1]⟩ : Shape).Idx → EReal) (z : (⟨2, ![4194304, 8]⟩ : Shape).Idx → EReal)
    (W0 : (⟨2, ![8, 11]⟩ : Shape).Idx → EReal) (b0 : (⟨1, ![8]⟩ : Shape).Idx → EReal)
    (Wm : (⟨2, ![8, 8]⟩ : Shape).Idx → EReal) (bm : (⟨1, ![8]⟩ : Shape).Idx → EReal)
    (Wo : (⟨2, ![3, 8]⟩ : Shape).Idx → EReal) (bo : (⟨1, ![3]⟩ : Shape).Idx → EReal)
    (mk : (⟨3, ![3, 4, 2]⟩ : Shape).Idx → BitVec 32) (n : Fin 4194304) (j : Fin 3) : EReal :=
  rowOut (x (ix2 n (0 : Fin 1))) (y (ix2 n (0 : Fin 1))) (r (ix2 n (0 : Fin 1))) (fun k => z (ix2 n k))
    (fun h k => W0 (ix2 h k)) (fun h => b0 (ix1 h)) (fun h k => Wm (ix2 h k)) (fun h => bm (ix1 h))
    (fun j k => Wo (ix2 j k)) (fun j => bo (ix1 j)) (fun l f k => mk (ix3 l f k)) j

/-- The whole result array, [4194304, 3]. -/
def G (x y r : (⟨2, ![4194304, 1]⟩ : Shape).Idx → EReal) (z : (⟨2, ![4194304, 8]⟩ : Shape).Idx → EReal)
    (W0 : (⟨2, ![8, 11]⟩ : Shape).Idx → EReal) (b0 : (⟨1, ![8]⟩ : Shape).Idx → EReal)
    (Wm : (⟨2, ![8, 8]⟩ : Shape).Idx → EReal) (bm : (⟨1, ![8]⟩ : Shape).Idx → EReal)
    (Wo : (⟨2, ![3, 8]⟩ : Shape).Idx → EReal) (bo : (⟨1, ![3]⟩ : Shape).Idx → EReal)
    (mk : (⟨3, ![3, 4, 2]⟩ : Shape).Idx → BitVec 32) : (⟨2, ![4194304, 3]⟩ : Shape).Idx → EReal :=
  fun i => Grow x y r z W0 b0 Wm bm Wo bo mk ⟨(i 0).val, idx2_lt0 i⟩ ⟨(i 1).val, idx2_lt1 i⟩

theorem G_ix2 (x y r : (⟨2, ![4194304, 1]⟩ : Shape).Idx → EReal) (z : (⟨2, ![4194304, 8]⟩ : Shape).Idx → EReal)
    (W0 : (⟨2, ![8, 11]⟩ : Shape).Idx → EReal) (b0 : (⟨1, ![8]⟩ : Shape).Idx → EReal)
    (Wm : (⟨2, ![8, 8]⟩ : Shape).Idx → EReal) (bm : (⟨1, ![8]⟩ : Shape).Idx → EReal)
    (Wo : (⟨2, ![3, 8]⟩ : Shape).Idx → EReal) (bo : (⟨1, ![3]⟩ : Shape).Idx → EReal)
    (mk : (⟨3, ![3, 4, 2]⟩ : Shape).Idx → BitVec 32) (n : Fin 4194304) (j : Fin 3) :
    G x y r z W0 b0 Wm bm Wo bo mk (ix2 n j) = Grow x y r z W0 b0 Wm bm Wo bo mk n j := rfl

end Cert.Cppn

end
-- ==== Proof.PreFacts.lean ====
/-
  What the precondition says about the group table, read off its printed form.

  The precondition is a conjunction ending in two tests of the table mk : [3, 4, 2] of 32-bit words:
  every entry e satisfies 0 <= e and e < 8 (signed), and for entries e = mk l f k, e' = mk l f' k' of one layer,
  e differs from e' unless f = f'. Each test is an and-reduction to a scalar that equals 1 only if every element is 1.
-/
import proofs.«421476_j60232621359502_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Cppn.PreFacts

open Idealize.ShloMosaic Idealize.ShloMosaic.ValueIdx Cert.Pre_finite_inputs

variable [Cert.Pre_finite_inputs.Facts]

/-! ## Words -/

/-- A word that is at least 0 and below 8 as a signed number has its top bit clear, so its unsigned value is its
    signed value, and that is below 8. -/
private theorem word_lt8 (w : BitVec 32) (h0 : IntOp.cmpi .sge w 0#32 = 1#1) (h8 : IntOp.cmpi .slt w 8#32 = 1#1) :
    w.toNat < 8 := by
  have a := IntOp.cmpi_sge.1 h0
  have b := IntOp.cmpi_slt.1 h8
  have z : (0#32 : BitVec 32).toInt = 0 := by decide
  have e : (8#32 : BitVec 32).toInt = 8 := by decide
  rw [z] at a
  rw [e] at b
  rw [BitVec.toInt_eq_toNat_cond] at a b
  have hw := w.isLt
  split at a <;> omega

/-- Two positions below 4 with the same 32-bit word are the same position. -/
private theorem pos_eq_of_word_eq (f f' : Fin 4) (h : BitVec.ofNat 32 f.val = BitVec.ofNat 32 f'.val) : f = f' := by
  have e := congrArg BitVec.toNat h
  rw [BitVec.toNat_ofNat, BitVec.toNat_ofNat] at e
  apply Fin.ext
  have := f.isLt
  have := f'.isLt
  omega

/-! ## The operands of the pairwise test, read at (l, f, f', k, k')

  The table is laid along axes 0, 1, 3 of [3, 4, 1, 2, 1] and along axes 0, 2, 4 of [3, 1, 4, 1, 2], and each is then
  repeated along its unit axes: at (l, f, f', k, k') the first reads mk l f k and the second mk l f' k'. The position test
  compares the position along axis 0 of [4, 4] with the position along axis 1, laid along axes 1, 2 of [1, 4, 4, 1, 1]:
  at (l, f, f', k, k') it compares f with f'. -/

/-- The first operand: entry k of group f of layer l. -/
private theorem left_apply (mk : IVec S3x4x2 32) (l : Fin 3) (f f' : Fin 4) (k k' : Fin 2) :
    broadcastInDim S3x4x4x2x2 ![0, 1, 2, 3, 4] Facts.bcast_S3x4x1x2x1_S3x4x4x2x2_0_1_2_3_4
      (broadcastInDim S3x4x1x2x1 ![0, 1, 3] Facts.bcast_S3x4x2_S3x4x1x2x1_0_1_3 mk) (ix5 l f f' k k') = mk (ix3 l f k) := by
  unfold broadcastInDim
  refine congrArg mk (funext fun a => ?_)
  match a with
  | ⟨0, _⟩ => rfl
  | ⟨1, _⟩ => rfl
  | ⟨2, _⟩ => rfl

/-- The second operand: entry k' of group f' of layer l. -/
private theorem right_apply (mk : IVec S3x4x2 32) (l : Fin 3) (f f' : Fin 4) (k k' : Fin 2) :
    broadcastInDim S3x4x4x2x2 ![0, 1, 2, 3, 4] Facts.bcast_S3x1x4x1x2_S3x4x4x2x2_0_1_2_3_4
      (broadcastInDim S3x1x4x1x2 ![0, 2, 4] Facts.bcast_S3x4x2_S3x1x4x1x2_0_2_4 mk) (ix5 l f f' k k') = mk (ix3 l f' k') := by
  unfold broadcastInDim
  refine congrArg mk (funext fun a => ?_)
  match a with
  | ⟨0, _⟩ => rfl
  | ⟨1, _⟩ => rfl
  | ⟨2, _⟩ => rfl

/-- The position test at (l, f, f', k, k') compares the words of f and f'. -/
private theorem same_group_apply (l : Fin 3) (f f' : Fin 4) (k k' : Fin 2) :
    broadcastInDim S3x4x4x2x2 ![0, 1, 2, 3, 4] Facts.bcast_S1x4x4x1x1_S3x4x4x2x2_0_1_2_3_4
      (broadcastInDim S1x4x4x1x1 ![1, 2] Facts.bcast_S4x4_S1x4x4x1x1_1_2
        (cmpi .eq
          (broadcastInDim S4x4 ![0, 1] Facts.bcast_S4x1_S4x4_0_1 (broadcastInDim S4x1 ![0] Facts.bcast_S4_S4x1_0 (iotaInDim S4 32 0)))
          (broadcastInDim S4x4 ![0, 1] Facts.bcast_S1x4_S4x4_0_1 (broadcastInDim S1x4 ![1] Facts.bcast_S4_S1x4_1 (iotaInDim S4 32 0)))))
      (ix5 l f f' k k') = IntOp.cmpi .eq (BitVec.ofNat 32 f.val) (BitVec.ofNat 32 f'.val) := rfl

/-! ## The last two conjuncts of the precondition -/

/-- The precondition's last two conjuncts, each an and-reduction over the whole table that came out 1. -/
private theorem tail_of_pre (a0 a1 a2 : FVec Ideal S4194304x1 .f32) (a3 : FVec Ideal S4194304x8 .f32) (a4 : FVec Ideal S8x11 .f32)
    (a5 : FVec Ideal S8 .f32) (a6 : FVec Ideal S8x8 .f32) (a7 : FVec Ideal S8 .f32) (a8 : FVec Ideal S3x8 .f32)
    (a9 : FVec Ideal S3 .f32) (mk : IVec S3x4x2 32)
    (hpre : Cert.Pre_finite_inputs.fn (F := Ideal) a0 a1 a2 a3 a4 a5 a6 a7 a8 a9 mk = fun _ => 1#1) :
    (∀ i : S3x4x2.Idx,
        andi (cmpi .sge mk (broadcastInDim S3x4x2 ![] Facts.bcast_S_S3x4x2 (constantI S_ 32 0#32)))
          (cmpi .slt mk (broadcastInDim S3x4x2 ![] Facts.bcast_S_S3x4x2 (constantI S_ 32 8#32))) i = 1#1) ∧
    (∀ j : S3x4x4x2x2.Idx,
        ori
          (cmpi .ne
            (broadcastInDim S3x4x4x2x2 ![0, 1, 2, 3, 4] Facts.bcast_S3x4x1x2x1_S3x4x4x2x2_0_1_2_3_4
              (broadcastInDim S3x4x1x2x1 ![0, 1, 3] Facts.bcast_S3x4x2_S3x4x1x2x1_0_1_3 mk))
            (broadcastInDim S3x4x4x2x2 ![0, 1, 2, 3, 4] Facts.bcast_S3x1x4x1x2_S3x4x4x2x2_0_1_2_3_4
              (broadcastInDim S3x1x4x1x2 ![0, 2, 4] Facts.bcast_S3x4x2_S3x1x4x1x2_0_2_4 mk)))
          (broadcastInDim S3x4x4x2x2 ![0, 1, 2, 3, 4] Facts.bcast_S1x4x4x1x1_S3x4x4x2x2_0_1_2_3_4
            (broadcastInDim S1x4x4x1x1 ![1, 2] Facts.bcast_S4x4_S1x4x4x1x1_1_2
              (cmpi .eq
                (broadcastInDim S4x4 ![0, 1] Facts.bcast_S4x1_S4x4_0_1
                  (broadcastInDim S4x1 ![0] Facts.bcast_S4_S4x1_0 (iotaInDim S4 32 0)))
                (broadcastInDim S4x4 ![0, 1] Facts.bcast_S1x4_S4x4_0_1
                  (broadcastInDim S1x4 ![1] Facts.bcast_S4_S1x4_1 (iotaInDim S4 32 0)))))) j = 1#1) := by
  -- the scalar shape has exactly one index
  haveI : Subsingleton S_.Idx := ⟨fun a b => funext fun d => d.elim0⟩
  have h0 := congrFun hpre ValueIdx.ix0
  dsimp only [fn, fn_part1, fn_part2, fn_part3, fn_part4] at h0
  -- the chain is ((… and all(range test)) and all(pairwise test)) at the scalar's one index
  obtain ⟨h55, h71⟩ := IntOp.andi_eq_one.1 h0
  obtain ⟨-, h54⟩ := IntOp.andi_eq_one.1 h55
  exact ⟨fun i => Host.reduce_andi_all _ _ _ _ _ h54 i, fun j => Host.reduce_andi_all _ _ _ _ _ h71 j⟩

/-- Every entry of the group table is a column index: below 8 as an unsigned word. -/
theorem masks_range (a0 a1 a2 : FVec Ideal S4194304x1 .f32) (a3 : FVec Ideal S4194304x8 .f32) (a4 : FVec Ideal S8x11 .f32)
    (a5 : FVec Ideal S8 .f32) (a6 : FVec Ideal S8x8 .f32) (a7 : FVec Ideal S8 .f32) (a8 : FVec Ideal S3x8 .f32)
    (a9 : FVec Ideal S3 .f32) (mk : IVec S3x4x2 32)
    (hpre : Cert.Pre_finite_inputs.fn (F := Ideal) a0 a1 a2 a3 a4 a5 a6 a7 a8 a9 mk = fun _ => 1#1)
    (l : Fin 3) (f : Fin 4) (k : Fin 2) : (mk (ix3 l f k)).toNat < 8 := by
  have h := (tail_of_pre a0 a1 a2 a3 a4 a5 a6 a7 a8 a9 mk hpre).1 (ix3 l f k)
  -- at an index the test is the and of the two comparisons of the entry with the constants 0 and 8
  have h' : IntOp.andi (IntOp.cmpi .sge (mk (ix3 l f k)) 0#32) (IntOp.cmpi .slt (mk (ix3 l f k)) 8#32) = 1#1 := h
  obtain ⟨hge, hlt⟩ := IntOp.andi_eq_one.1 h'
  exact word_lt8 _ hge hlt

/-- Entries of two different groups of one layer differ. -/
theorem masks_disj (a0 a1 a2 : FVec Ideal S4194304x1 .f32) (a3 : FVec Ideal S4194304x8 .f32) (a4 : FVec Ideal S8x11 .f32)
    (a5 : FVec Ideal S8 .f32) (a6 : FVec Ideal S8x8 .f32) (a7 : FVec Ideal S8 .f32) (a8 : FVec Ideal S3x8 .f32)
    (a9 : FVec Ideal S3 .f32) (mk : IVec S3x4x2 32)
    (hpre : Cert.Pre_finite_inputs.fn (F := Ideal) a0 a1 a2 a3 a4 a5 a6 a7 a8 a9 mk = fun _ => 1#1)
    (l : Fin 3) (f f' : Fin 4) (k k' : Fin 2) (hne : f ≠ f') : mk (ix3 l f k) ≠ mk (ix3 l f' k') := by
  have h := (tail_of_pre a0 a1 a2 a3 a4 a5 a6 a7 a8 a9 mk hpre).2 (ix5 l f f' k k')
  -- at an index the test is: the two entries differ, or the two group positions are the same
  rcases IntOp.ori_eq_one.1 h with hd | hs
  · have hd' := IntOp.cmpi_ne.1 hd
    rw [left_apply, right_apply] at hd'
    exact hd'
  · rw [same_group_apply] at hs
    exact absurd (pos_eq_of_word_eq f f' (IntOp.cmpi_eq.1 hs)) hne

end Cert.Cppn.PreFacts

end
-- ==== Proof.KerBody.lean ====
/-
  The kernel's body as a function of its input blocks, read at an index of the output block.

  The output block is [3, 32768]: output j of the block's pixel q. It depends on pixel q's entries of the x, y, r and
  motion blocks, on the weight blocks, and on the selector block [3, 4, 8, 1] whose entry (l, f, h) weights group f's
  activation at column h in layer l. With selector entries 0 or 1 as the groups dictate, and no column in two groups,
  the weighted sum of activations is the selected one, and the body is the row function.
-/
import proofs.«421476_j60232621359502_3_alg».proof.Proof.Gen.KernelIdeal.Frame
import proofs.«421476_j60232621359502_3_alg».proof.Proof.Spec
import Idealize.ShloMosaic.Lib.ValueLayout
import Idealize.ShloMosaic.PureOps.IdealRules
import Idealize.ShloMosaic.PureOps.Ideal.Laws

noncomputable section

namespace Cert.Cppn.Ker

open Idealize.ShloMosaic Idealize.ShloMosaic.ValueIdx
open Cert.KernelIdeal Cert.KernelIdeal.Gen

/-- Layer 0's weights as the kernel holds them: the motion part [8, 8] beside three columns for x, y, r. -/
def w0Of (x4 : Vec Ideal S8x8 .f32) (x5 x6 x7 : Vec Ideal S8x1 .f32) : Fin 8 → Fin 11 → EReal := fun h k =>
  if hk : k.val < 8 then x4 (ix2 h ⟨k.val, hk⟩) else if k.val = 8 then x5 (ix2 h (0 : Fin 1))
  else if k.val = 9 then x6 (ix2 h (0 : Fin 1)) else x7 (ix2 h (0 : Fin 1))

/-! Zero offsets, the two constants, and the layout operations read at an index. -/

/-- The zero offsets of a whole block. -/
private theorem hz2 : (![0, 0] : Fin 2 → Nat) = fun _ => 0 := by funext a; fin_cases a <;> rfl

/-- The named reciprocal is the rational one tenth. -/
private theorem inv10 : Named.named (F := Ideal) Cert.KernelIdeal.κ "inv_10" (φ := .f32) 0x3DCCCCCD#32 = ((1 / 10 : ℝ) : EReal) :=
  IdealRules.named_const.ideal_named_scalar _ _ _ _ rfl

/-- The divisor's word is the real ten. -/
private theorem ten : Ideal.ofBits .f32 0x41200000#32 = ((10 : ℝ) : EReal) := by
  simp [Ideal.ofBits, Ideal.ieee, -EReal.coe_mul]; norm_num

/-- Dividing by ten is multiplying by the named reciprocal, on every extended real. -/
private theorem div_ten (a : EReal) : Ideal.div a Cert.Cppn.cTen = a * Named.named (F := Ideal) Cert.KernelIdeal.κ "inv_10" (φ := .f32) 0x3DCCCCCD#32 := by
  rw [inv10, Cert.Cppn.cTen, ten, Ideal.div_coe (by norm_num : (10 : ℝ) ≠ 0)]

/-- A column [8, 1] broadcast over the pixels reads the column's entry. -/
private theorem bcol8 (v : FVec Ideal S8x1 .f32) (h : Fin 8) (q : Fin 32768) :
    broadcastTo S8x32768 v broadcasts_S8x1_S8x32768 (ix2 h q) = v (ix2 h (0 : Fin 1)) := by
  refine broadcastTo_apply v broadcasts_S8x1_S8x32768 (ix2 h q) (ix2 h (0 : Fin 1)) fun ax => ?_
  match ax with
  | ⟨0, _⟩ => rfl
  | ⟨1, _⟩ => rfl

/-- The same for a column [3, 1]. -/
private theorem bcol3 (v : FVec Ideal S3x1 .f32) (j : Fin 3) (q : Fin 32768) :
    broadcastTo S3x32768 v broadcasts_S3x1_S3x32768 (ix2 j q) = v (ix2 j (0 : Fin 1)) := by
  refine broadcastTo_apply v broadcasts_S3x1_S3x32768 (ix2 j q) (ix2 j (0 : Fin 1)) fun ax => ?_
  match ax with
  | ⟨0, _⟩ => rfl
  | ⟨1, _⟩ => rfl

/-- A row [1, 32768] broadcast over the columns reads the row's entry. -/
private theorem brow8 (v : FVec Ideal S1x32768 .f32) (h : Fin 8) (q : Fin 32768) :
    broadcastTo S8x32768 v broadcasts_S1x32768_S8x32768 (ix2 h q) = v (ix2 (0 : Fin 1) q) :=
  broadcastTo_1b_ab_apply v broadcasts_S1x32768_S8x32768 h q

/-- Row f of the selector block, as a column. -/
private theorem selrow (w : FVec Ideal S4x8x1 .f32) (o : Nat) (hs : S4x8x1.Slices ![o, 0, 0] S1x8x1) (f : Fin 4) (hf : f.val = o)
    (h : Fin 8) :
    shapeCast S8x1 (extractStridedSlice S1x8x1 ![o, 0, 0] w hs) shapeCasts_S1x8x1_S8x1 (ix2 h (0 : Fin 1))
      = w (ix3 f h (0 : Fin 1)) := by
  refine (shapeCast_1ab_ab_apply _ shapeCasts_S1x8x1_S8x1 h (0 : Fin 1)).trans ?_
  refine extractStridedSlice_apply ![o, 0, 0] w hs (ix3 (0 : Fin 1) h (0 : Fin 1)) (ix3 f h (0 : Fin 1)) fun ax => ?_
  match ax with
  | ⟨0, _⟩ => show f.val = o + 0; omega
  | ⟨1, _⟩ => show h.val = 0 + h.val; omega
  | ⟨2, _⟩ => rfl

/-- A selector block [1, 4, 8, 1] seen as [4, 8, 1]. -/
private theorem cast4 (v : Vec Ideal S1x4x8x1 .f32) (f : Fin 4) (h : Fin 8) :
    shapeCast S4x8x1 v shapeCasts_S1x4x8x1_S4x8x1 (ix3 f h (0 : Fin 1)) = v (ix4 (0 : Fin 1) f h (0 : Fin 1)) :=
  shapeCast_1abc_abc_apply v shapeCasts_S1x4x8x1_S4x8x1 f h (0 : Fin 1)

/-- Layer l's part of the selector block [3, 4, 8, 1], for l = 0, 1, 2. -/
private theorem ld4 (x13 : Vec Ideal S3x4x8x1 .f32) (f : Fin 4) (h : Fin 8) :
    View.ld x13 r0_4 (ix4 (0 : Fin 1) f h (0 : Fin 1)) = x13 (ix4 (0 : Fin 3) f h (0 : Fin 1)) := by
  show x13 _ = x13 _
  congr 1
  funext ax
  match ax with
  | ⟨0, _⟩ => rfl
  | ⟨1, _⟩ => exact Fin.ext (by show 0 + 1 * f.val = f.val; omega)
  | ⟨2, _⟩ => exact Fin.ext (by show 0 + 1 * h.val = h.val; omega)
  | ⟨3, _⟩ => rfl

private theorem ld5 (x13 : Vec Ideal S3x4x8x1 .f32) (f : Fin 4) (h : Fin 8) :
    View.ld x13 r0_5 (ix4 (0 : Fin 1) f h (0 : Fin 1)) = x13 (ix4 (1 : Fin 3) f h (0 : Fin 1)) := by
  show x13 _ = x13 _
  congr 1
  funext ax
  match ax with
  | ⟨0, _⟩ => rfl
  | ⟨1, _⟩ => exact Fin.ext (by show 0 + 1 * f.val = f.val; omega)
  | ⟨2, _⟩ => exact Fin.ext (by show 0 + 1 * h.val = h.val; omega)
  | ⟨3, _⟩ => rfl

private theorem ld6 (x13 : Vec Ideal S3x4x8x1 .f32) (f : Fin 4) (h : Fin 8) :
    View.ld x13 r0_6 (ix4 (0 : Fin 1) f h (0 : Fin 1)) = x13 (ix4 (2 : Fin 3) f h (0 : Fin 1)) := by
  show x13 _ = x13 _
  congr 1
  funext ax
  match ax with
  | ⟨0, _⟩ => rfl
  | ⟨1, _⟩ => exact Fin.ext (by show 0 + 1 * f.val = f.val; omega)
  | ⟨2, _⟩ => exact Fin.ext (by show 0 + 1 * h.val = h.val; omega)
  | ⟨3, _⟩ => rfl

/-! The three products: operand indices at an output index and a contraction coordinate. -/

private theorem lhsA_0 (j : S8x32768.Idx) (k : dot_S8x8_S32768x8_S8x32768_1_1_0_0_n_n.contr.Idx) :
    (dot_S8x8_S32768x8_S8x32768_1_1_0_0_n_n.lhsIdx j k 0).val = (j 0).val := by
  unfold DotDims.lhsIdx
  rw [dif_neg (show ¬ (0 : Fin S8x8.rank) ∈ dot_S8x8_S32768x8_S8x32768_1_1_0_0_n_n.lhsBatch by decide),
    dif_pos (show (0 : Fin S8x8.rank) ∈ dot_S8x8_S32768x8_S8x32768_1_1_0_0_n_n.lhsNonContracting by decide)]
  rfl
private theorem lhsA_1 (j : S8x32768.Idx) (k : dot_S8x8_S32768x8_S8x32768_1_1_0_0_n_n.contr.Idx) :
    (dot_S8x8_S32768x8_S8x32768_1_1_0_0_n_n.lhsIdx j k 1).val = (k ⟨0, by decide⟩).val :=
  dot_S8x8_S32768x8_S8x32768_1_1_0_0_n_n.lhsIdx_val_of_single (cl := 1) rfl j k
private theorem rhsA_0 (j : S8x32768.Idx) (k : dot_S8x8_S32768x8_S8x32768_1_1_0_0_n_n.contr.Idx) :
    (dot_S8x8_S32768x8_S8x32768_1_1_0_0_n_n.rhsIdx j k 0).val = (j 1).val := by
  unfold DotDims.rhsIdx
  rw [dif_neg (show ¬ (0 : Fin S32768x8.rank) ∈ dot_S8x8_S32768x8_S8x32768_1_1_0_0_n_n.rhsBatch by decide),
    dif_pos (show (0 : Fin S32768x8.rank) ∈ dot_S8x8_S32768x8_S8x32768_1_1_0_0_n_n.rhsNonContracting by decide)]
  rfl
private theorem rhsA_1 (j : S8x32768.Idx) (k : dot_S8x8_S32768x8_S8x32768_1_1_0_0_n_n.contr.Idx) :
    (dot_S8x8_S32768x8_S8x32768_1_1_0_0_n_n.rhsIdx j k 1).val = (k ⟨0, by decide⟩).val :=
  dot_S8x8_S32768x8_S8x32768_1_1_0_0_n_n.rhsIdx_val_of_single (cr := 1) rfl j k

/-- Layer 0's product: both operands are contracted along their second axis. -/
private theorem mmA (A : FVec Ideal S8x8 .f32) (B : FVec Ideal S32768x8 .f32) (h : Fin 8) (q : Fin 32768) :
    matmul dot_S8x8_S32768x8_S8x32768_1_1_0_0_n_n none A B (constant (F := Ideal) S8x32768 .f32 0x00000000#32) (ix2 h q)
      = ∑ k : Fin 8, A (ix2 h k) * B (ix2 q k) := by
  refine (Ideal.matmul_constant_zero_apply dot_S8x8_S32768x8_S8x32768_1_1_0_0_n_n none A B (ix2 h q)).trans ?_
  rw [← Equiv.sum_comp (contrEquiv1 dot_S8x8_S32768x8_S8x32768_1_1_0_0_n_n 8 rfl rfl).symm]
  refine Finset.sum_congr rfl fun k _ => ?_
  have hk := contrEquiv1_symm_val dot_S8x8_S32768x8_S8x32768_1_1_0_0_n_n 8 rfl rfl k
  congr 1
  · congr 1; funext a
    match a with
    | ⟨0, _⟩ => exact Fin.ext (lhsA_0 _ _)
    | ⟨1, _⟩ => exact Fin.ext ((lhsA_1 _ _).trans hk)
  · congr 1; funext a
    match a with
    | ⟨0, _⟩ => exact Fin.ext (rhsA_0 _ _)
    | ⟨1, _⟩ => exact Fin.ext ((rhsA_1 _ _).trans hk)

private theorem lhsB_0 (j : S8x32768.Idx) (k : dot_S8x8_S8x32768_S8x32768_1_0_0_1_n_n.contr.Idx) :
    (dot_S8x8_S8x32768_S8x32768_1_0_0_1_n_n.lhsIdx j k 0).val = (j 0).val := by
  unfold DotDims.lhsIdx
  rw [dif_neg (show ¬ (0 : Fin S8x8.rank) ∈ dot_S8x8_S8x32768_S8x32768_1_0_0_1_n_n.lhsBatch by decide),
    dif_pos (show (0 : Fin S8x8.rank) ∈ dot_S8x8_S8x32768_S8x32768_1_0_0_1_n_n.lhsNonContracting by decide)]
  rfl
private theorem lhsB_1 (j : S8x32768.Idx) (k : dot_S8x8_S8x32768_S8x32768_1_0_0_1_n_n.contr.Idx) :
    (dot_S8x8_S8x32768_S8x32768_1_0_0_1_n_n.lhsIdx j k 1).val = (k ⟨0, by decide⟩).val :=
  dot_S8x8_S8x32768_S8x32768_1_0_0_1_n_n.lhsIdx_val_of_single (cl := 1) rfl j k
private theorem rhsB_0 (j : S8x32768.Idx) (k : dot_S8x8_S8x32768_S8x32768_1_0_0_1_n_n.contr.Idx) :
    (dot_S8x8_S8x32768_S8x32768_1_0_0_1_n_n.rhsIdx j k 0).val = (k ⟨0, by decide⟩).val :=
  dot_S8x8_S8x32768_S8x32768_1_0_0_1_n_n.rhsIdx_val_of_single (cr := 0) rfl j k
private theorem rhsB_1 (j : S8x32768.Idx) (k : dot_S8x8_S8x32768_S8x32768_1_0_0_1_n_n.contr.Idx) :
    (dot_S8x8_S8x32768_S8x32768_1_0_0_1_n_n.rhsIdx j k 1).val = (j 1).val := by
  unfold DotDims.rhsIdx
  rw [dif_neg (show ¬ (1 : Fin S8x32768.rank) ∈ dot_S8x8_S8x32768_S8x32768_1_0_0_1_n_n.rhsBatch by decide),
    dif_pos (show (1 : Fin S8x32768.rank) ∈ dot_S8x8_S8x32768_S8x32768_1_0_0_1_n_n.rhsNonContracting by decide)]
  rfl

/-- A hidden layer's product: weights by rows against the activations' columns. -/
private theorem mmB (A : FVec Ideal S8x8 .f32) (B : FVec Ideal S8x32768 .f32) (h : Fin 8) (q : Fin 32768) :
    matmul dot_S8x8_S8x32768_S8x32768_1_0_0_1_n_n none A B (constant (F := Ideal) S8x32768 .f32 0x00000000#32) (ix2 h q)
      = ∑ k : Fin 8, A (ix2 h k) * B (ix2 k q) := by
  refine (Ideal.matmul_constant_zero_apply dot_S8x8_S8x32768_S8x32768_1_0_0_1_n_n none A B (ix2 h q)).trans ?_
  rw [← Equiv.sum_comp (contrEquiv1 dot_S8x8_S8x32768_S8x32768_1_0_0_1_n_n 8 rfl rfl).symm]
  refine Finset.sum_congr rfl fun k _ => ?_
  have hk := contrEquiv1_symm_val dot_S8x8_S8x32768_S8x32768_1_0_0_1_n_n 8 rfl rfl k
  congr 1
  · congr 1; funext a
    match a with
    | ⟨0, _⟩ => exact Fin.ext (lhsB_0 _ _)
    | ⟨1, _⟩ => exact Fin.ext ((lhsB_1 _ _).trans hk)
  · congr 1; funext a
    match a with
    | ⟨0, _⟩ => exact Fin.ext ((rhsB_0 _ _).trans hk)
    | ⟨1, _⟩ => exact Fin.ext (rhsB_1 _ _)

private theorem lhsC_0 (j : S3x32768.Idx) (k : dot_S3x8_S8x32768_S3x32768_1_0_0_1_n_n.contr.Idx) :
    (dot_S3x8_S8x32768_S3x32768_1_0_0_1_n_n.lhsIdx j k 0).val = (j 0).val := by
  unfold DotDims.lhsIdx
  rw [dif_neg (show ¬ (0 : Fin S3x8.rank) ∈ dot_S3x8_S8x32768_S3x32768_1_0_0_1_n_n.lhsBatch by decide),
    dif_pos (show (0 : Fin S3x8.rank) ∈ dot_S3x8_S8x32768_S3x32768_1_0_0_1_n_n.lhsNonContracting by decide)]
  rfl
private theorem lhsC_1 (j : S3x32768.Idx) (k : dot_S3x8_S8x32768_S3x32768_1_0_0_1_n_n.contr.Idx) :
    (dot_S3x8_S8x32768_S3x32768_1_0_0_1_n_n.lhsIdx j k 1).val = (k ⟨0, by decide⟩).val :=
  dot_S3x8_S8x32768_S3x32768_1_0_0_1_n_n.lhsIdx_val_of_single (cl := 1) rfl j k
private theorem rhsC_0 (j : S3x32768.Idx) (k : dot_S3x8_S8x32768_S3x32768_1_0_0_1_n_n.contr.Idx) :
    (dot_S3x8_S8x32768_S3x32768_1_0_0_1_n_n.rhsIdx j k 0).val = (k ⟨0, by decide⟩).val :=
  dot_S3x8_S8x32768_S3x32768_1_0_0_1_n_n.rhsIdx_val_of_single (cr := 0) rfl j k
private theorem rhsC_1 (j : S3x32768.Idx) (k : dot_S3x8_S8x32768_S3x32768_1_0_0_1_n_n.contr.Idx) :
    (dot_S3x8_S8x32768_S3x32768_1_0_0_1_n_n.rhsIdx j k 1).val = (j 1).val := by
  unfold DotDims.rhsIdx
  rw [dif_neg (show ¬ (1 : Fin S8x32768.rank) ∈ dot_S3x8_S8x32768_S3x32768_1_0_0_1_n_n.rhsBatch by decide),
    dif_pos (show (1 : Fin S8x32768.rank) ∈ dot_S3x8_S8x32768_S3x32768_1_0_0_1_n_n.rhsNonContracting by decide)]
  rfl

/-- The head's product. -/
private theorem mmC (A : FVec Ideal S3x8 .f32) (B : FVec Ideal S8x32768 .f32) (h : Fin 3) (q : Fin 32768) :
    matmul dot_S3x8_S8x32768_S3x32768_1_0_0_1_n_n none A B (constant (F := Ideal) S3x32768 .f32 0x00000000#32) (ix2 h q)
      = ∑ k : Fin 8, A (ix2 h k) * B (ix2 k q) := by
  refine (Ideal.matmul_constant_zero_apply dot_S3x8_S8x32768_S3x32768_1_0_0_1_n_n none A B (ix2 h q)).trans ?_
  rw [← Equiv.sum_comp (contrEquiv1 dot_S3x8_S8x32768_S3x32768_1_0_0_1_n_n 8 rfl rfl).symm]
  refine Finset.sum_congr rfl fun k _ => ?_
  have hk := contrEquiv1_symm_val dot_S3x8_S8x32768_S3x32768_1_0_0_1_n_n 8 rfl rfl k
  congr 1
  · congr 1; funext a
    match a with
    | ⟨0, _⟩ => exact Fin.ext (lhsC_0 _ _)
    | ⟨1, _⟩ => exact Fin.ext ((lhsC_1 _ _).trans hk)
  · congr 1; funext a
    match a with
    | ⟨0, _⟩ => exact Fin.ext ((rhsC_0 _ _).trans hk)
    | ⟨1, _⟩ => exact Fin.ext (rhsC_1 _ _)

/-- The four one-argument operations at an index. -/
private theorem sinv_apply {s : Shape} (v : FVec Ideal s .f32) (i : s.Idx) : sin v i = Ideal.sin (v i) := rfl
private theorem expv_apply {s : Shape} (v : FVec Ideal s .f32) (i : s.Idx) : exp v i = Ideal.exp (v i) := rfl
private theorem tanhv_apply {s : Shape} (v : FVec Ideal s .f32) (i : s.Idx) : tanh v i = Ideal.tanh (v i) := rfl
private theorem logisticv_apply {s : Shape} (v : FVec Ideal s .f32) (i : s.Idx) : logistic v i = Ideal.logistic (v i) := rfl

/-- The named reciprocal of ten. -/
private abbrev cInv : EReal := Named.named (F := Ideal) Cert.KernelIdeal.κ "inv_10" (φ := .f32) 0x3DCCCCCD#32

/-- Layer 0 as the kernel forms it: the motion product, then the x, y and r columns, then the bias. -/
private theorem pay2_apply (v0 : Vec Ideal S32768x8 .f32) (v3 : Vec Ideal S8x8 .f32) (v6 : Vec Ideal S8x1 .f32)
    (v8 : Vec Ideal S1x32768 .f32) (v14 : Vec Ideal S8x1 .f32) (v16 : Vec Ideal S1x32768 .f32) (v22 : Vec Ideal S8x1 .f32)
    (v24 : Vec Ideal S1x32768 .f32) (v30 : Vec Ideal S8x1 .f32) (h : Fin 8) (q : Fin 32768) :
    k0_pay2 (F := Ideal) v0 v3 v6 v8 v14 v16 v22 v24 v30 (ix2 h q)
      = ((((∑ k : Fin 8, v3 (ix2 h k) * (v0 (ix2 q k) * cInv)) + v6 (ix2 h (0 : Fin 1)) * v8 (ix2 (0 : Fin 1) q))
          + v14 (ix2 h (0 : Fin 1)) * v16 (ix2 (0 : Fin 1) q)) + v22 (ix2 h (0 : Fin 1)) * v24 (ix2 (0 : Fin 1) q))
        + v30 (ix2 h (0 : Fin 1)) := by
  unfold k0_pay2
  simp only [addf_apply, mulf_apply, shapeCast_self, bcol8, brow8, mmA, broadcast_apply]

/-- Layer 0 is the row function's layer 0: the sum over eleven inputs splits into the motion part and the three columns,
    and dividing by ten is multiplying by the named reciprocal. -/
private theorem layer0 (x0 x1 x2 : Vec Ideal S1x32768 .f32) (x3 : Vec Ideal S32768x8 .f32) (x4 : Vec Ideal S8x8 .f32)
    (x5 x6 x7 x8 : Vec Ideal S8x1 .f32) (h : Fin 8) (q : Fin 32768) :
    k0_pay2 (F := Ideal) x3 x4 x5 x0 x6 x1 x7 x2 x8 (ix2 h q)
      = Cert.Cppn.out0 (w0Of x4 x5 x6 x7) (fun h => x8 (ix2 h (0 : Fin 1)))
          (Cert.Cppn.inp (x0 (ix2 (0 : Fin 1) q)) (x1 (ix2 (0 : Fin 1) q)) (x2 (ix2 (0 : Fin 1) q)) (fun k => x3 (ix2 q k))) h := by
  rw [pay2_apply]
  unfold Cert.Cppn.out0
  rw [Fin.sum_univ_castSucc (n := 10), Fin.sum_univ_castSucc (n := 9), Fin.sum_univ_castSucc (n := 8)]
  have e8 : ∀ k : Fin 8,
      Cert.Cppn.inp (x0 (ix2 (0 : Fin 1) q)) (x1 (ix2 (0 : Fin 1) q)) (x2 (ix2 (0 : Fin 1) q)) (fun k => x3 (ix2 q k))
          k.castSucc.castSucc.castSucc * w0Of x4 x5 x6 x7 h k.castSucc.castSucc.castSucc
        = x4 (ix2 h k) * (x3 (ix2 q k) * cInv) := by
    intro k
    simp only [Cert.Cppn.inp, w0Of]
    rw [dif_pos (show (k.castSucc.castSucc.castSucc).val < 8 from k.isLt),
      dif_pos (show (k.castSucc.castSucc.castSucc).val < 8 from k.isLt), div_ten, mul_comm]
    rfl
  have ex : Cert.Cppn.inp (x0 (ix2 (0 : Fin 1) q)) (x1 (ix2 (0 : Fin 1) q)) (x2 (ix2 (0 : Fin 1) q)) (fun k => x3 (ix2 q k))
        (Fin.last 8).castSucc.castSucc * w0Of x4 x5 x6 x7 h (Fin.last 8).castSucc.castSucc
      = x5 (ix2 h (0 : Fin 1)) * x0 (ix2 (0 : Fin 1) q) := mul_comm _ _
  have ey : Cert.Cppn.inp (x0 (ix2 (0 : Fin 1) q)) (x1 (ix2 (0 : Fin 1) q)) (x2 (ix2 (0 : Fin 1) q)) (fun k => x3 (ix2 q k))
        (Fin.last 9).castSucc * w0Of x4 x5 x6 x7 h (Fin.last 9).castSucc
      = x6 (ix2 h (0 : Fin 1)) * x1 (ix2 (0 : Fin 1) q) := mul_comm _ _
  have er : Cert.Cppn.inp (x0 (ix2 (0 : Fin 1) q)) (x1 (ix2 (0 : Fin 1) q)) (x2 (ix2 (0 : Fin 1) q)) (fun k => x3 (ix2 q k))
        (Fin.last 10) * w0Of x4 x5 x6 x7 h (Fin.last 10)
      = x7 (ix2 h (0 : Fin 1)) * x2 (ix2 (0 : Fin 1) q) := mul_comm _ _
  rw [Finset.sum_congr rfl (fun k _ => e8 k), ex, ey, er]

/-! The hidden layers' payloads read at a column h and a pixel q. -/

/-- A layer's pre-activation as the kernel forms it. -/
private def kpre (W : Vec Ideal S8x8 .f32) (b : FVec Ideal S8x1 .f32) (o : FVec Ideal S8x32768 .f32) (h : Fin 8) (q : Fin 32768) : EReal :=
  (∑ k : Fin 8, W (ix2 h k) * o (ix2 k q)) + b (ix2 h (0 : Fin 1))

/-- The Gaussian bump as the kernel forms it. -/
private def kgauss (p : EReal) : EReal := Cert.Cppn.cGauss * Ideal.exp ((Cert.Cppn.cNegHalf * p) * p)

/-- The bias column, cast to its own shape. -/
private theorem pay3_eq (v35 : Vec Ideal S8x1 .f32) : k0_pay3 (F := Ideal) v35 = v35 := by
  unfold k0_pay3; exact shapeCast_self _ _

/-- Layer 1: the pre-activation of layer 0's output, the four weighted activations, the average. -/
private theorem pay4_apply (v33 : FVec Ideal S8x32768 .f32) (v34 : Vec Ideal S8x8 .f32) (v35 : Vec Ideal S8x1 .f32)
    (v40 : Vec Ideal S1x4x8x1 .f32) (h : Fin 8) (q : Fin 32768) :
    k0_pay4 (F := Ideal) v33 v34 v35 v40 (ix2 h q)
      = ((((v40 (ix4 (0 : Fin 1) (0 : Fin 4) h (0 : Fin 1)) * Ideal.sin (kpre v34 v35 v33 h q)
            + v40 (ix4 (0 : Fin 1) (1 : Fin 4) h (0 : Fin 1)) * kgauss (kpre v34 v35 v33 h q))
          + v40 (ix4 (0 : Fin 1) (2 : Fin 4) h (0 : Fin 1)) * Ideal.tanh (kpre v34 v35 v33 h q))
          + v40 (ix4 (0 : Fin 1) (3 : Fin 4) h (0 : Fin 1)) * kpre v34 v35 v33 h q)
          + v33 (ix2 h q)) * Cert.Cppn.cHalf := by
  unfold k0_pay4
  simp only [addf_apply, mulf_apply, pay3_eq, bcol8, mmB, broadcast_apply, sinv_apply, expv_apply, tanhv_apply,
    selrow _ 0 slices_S4x8x1_o0_0_0_S1x8x1 (0 : Fin 4) rfl, selrow _ 1 slices_S4x8x1_o1_0_0_S1x8x1 (1 : Fin 4) rfl,
    selrow _ 2 slices_S4x8x1_o2_0_0_S1x8x1 (2 : Fin 4) rfl, selrow _ 3 slices_S4x8x1_o3_0_0_S1x8x1 (3 : Fin 4) rfl]
  rw [cast4 v40 (0 : Fin 4) h, cast4 v40 (1 : Fin 4) h, cast4 v40 (2 : Fin 4) h, cast4 v40 (3 : Fin 4) h]
  rfl

/-- Layer 2's pre-activation. -/
private theorem pay5_apply (v33 : FVec Ideal S8x32768 .f32) (v34 : Vec Ideal S8x8 .f32) (v35 : Vec Ideal S8x1 .f32)
    (v40 : Vec Ideal S1x4x8x1 .f32) (h : Fin 8) (q : Fin 32768) :
    k0_pay5 (F := Ideal) v33 v34 v35 v40 (ix2 h q) = kpre v34 v35 (k0_pay4 (F := Ideal) v33 v34 v35 v40) h q := by
  unfold k0_pay5
  simp only [addf_apply, pay3_eq, bcol8, mmB]
  rfl

/-- Layer 2's selector block. -/
private theorem pay6_apply (v75 : Vec Ideal S1x4x8x1 .f32) (f : Fin 4) (h : Fin 8) :
    k0_pay6 (F := Ideal) v75 (ix3 f h (0 : Fin 1)) = v75 (ix4 (0 : Fin 1) f h (0 : Fin 1)) := by
  unfold k0_pay6; exact cast4 v75 f h

/-- Layer 2's weighted sine. -/
private theorem pay7_apply (v33 : FVec Ideal S8x32768 .f32) (v34 : Vec Ideal S8x8 .f32) (v35 : Vec Ideal S8x1 .f32)
    (v40 v75 : Vec Ideal S1x4x8x1 .f32) (h : Fin 8) (q : Fin 32768) :
    k0_pay7 (F := Ideal) v33 v34 v35 v40 v75 (ix2 h q)
      = v75 (ix4 (0 : Fin 1) (0 : Fin 4) h (0 : Fin 1)) * Ideal.sin (k0_pay5 (F := Ideal) v33 v34 v35 v40 (ix2 h q)) := by
  unfold k0_pay7
  simp only [mulf_apply, bcol8, sinv_apply, selrow _ 0 slices_S4x8x1_o0_0_0_S1x8x1 (0 : Fin 4) rfl]
  rw [pay6_apply v75 (0 : Fin 4) h]

/-- Layer 2's output from its weighted sine, its pre-activation and its input. -/
private theorem pay8_apply (v71 v74 : FVec Ideal S8x32768 .f32) (v76 : FVec Ideal S4x8x1 .f32) (v81 : FVec Ideal S8x32768 .f32)
    (h : Fin 8) (q : Fin 32768) :
    k0_pay8 (F := Ideal) v71 v74 v76 v81 (ix2 h q)
      = ((((v81 (ix2 h q) + v76 (ix3 (1 : Fin 4) h (0 : Fin 1)) * kgauss (v74 (ix2 h q)))
          + v76 (ix3 (2 : Fin 4) h (0 : Fin 1)) * Ideal.tanh (v74 (ix2 h q)))
          + v76 (ix3 (3 : Fin 4) h (0 : Fin 1)) * v74 (ix2 h q))
          + v71 (ix2 h q)) * Cert.Cppn.cHalf := by
  unfold k0_pay8
  simp only [addf_apply, mulf_apply, bcol8, broadcast_apply, expv_apply, tanhv_apply,
    selrow _ 1 slices_S4x8x1_o1_0_0_S1x8x1 (1 : Fin 4) rfl,
    selrow _ 2 slices_S4x8x1_o2_0_0_S1x8x1 (2 : Fin 4) rfl, selrow _ 3 slices_S4x8x1_o3_0_0_S1x8x1 (3 : Fin 4) rfl]
  rfl

/-- Layer 3's pre-activation. -/
private theorem pay9_apply (v34 : Vec Ideal S8x8 .f32) (v36 : FVec Ideal S8x1 .f32) (v71 v74 : FVec Ideal S8x32768 .f32)
    (v76 : FVec Ideal S4x8x1 .f32) (v81 : FVec Ideal S8x32768 .f32) (h : Fin 8) (q : Fin 32768) :
    k0_pay9 (F := Ideal) v34 v36 v71 v74 v76 v81 (ix2 h q) = kpre v34 v36 (k0_pay8 (F := Ideal) v71 v74 v76 v81) h q := by
  unfold k0_pay9
  simp only [addf_apply, bcol8, mmB]
  rfl

/-- Layer 3's selector block. -/
private theorem pay10_apply (v110 : Vec Ideal S1x4x8x1 .f32) (f : Fin 4) (h : Fin 8) :
    k0_pay10 (F := Ideal) v110 (ix3 f h (0 : Fin 1)) = v110 (ix4 (0 : Fin 1) f h (0 : Fin 1)) := by
  unfold k0_pay10; exact cast4 v110 f h

/-- Layer 3's weighted sine and Gaussian, added. -/
private theorem pay11_apply (v34 : Vec Ideal S8x8 .f32) (v36 : FVec Ideal S8x1 .f32) (v71 v74 : FVec Ideal S8x32768 .f32)
    (v76 : FVec Ideal S4x8x1 .f32) (v81 : FVec Ideal S8x32768 .f32) (v110 : Vec Ideal S1x4x8x1 .f32) (h : Fin 8) (q : Fin 32768) :
    k0_pay11 (F := Ideal) v34 v36 v71 v74 v76 v81 v110 (ix2 h q)
      = v110 (ix4 (0 : Fin 1) (0 : Fin 4) h (0 : Fin 1)) * Ideal.sin (k0_pay9 (F := Ideal) v34 v36 v71 v74 v76 v81 (ix2 h q))
        + v110 (ix4 (0 : Fin 1) (1 : Fin 4) h (0 : Fin 1)) * kgauss (k0_pay9 (F := Ideal) v34 v36 v71 v74 v76 v81 (ix2 h q)) := by
  unfold k0_pay11
  simp only [addf_apply, mulf_apply, bcol8, broadcast_apply, sinv_apply, expv_apply,
    selrow _ 0 slices_S4x8x1_o0_0_0_S1x8x1 (0 : Fin 4) rfl, selrow _ 1 slices_S4x8x1_o1_0_0_S1x8x1 (1 : Fin 4) rfl]
  rw [pay10_apply v110 (0 : Fin 4) h, pay10_apply v110 (1 : Fin 4) h]
  rfl

/-- Layer 3's tanh. -/
private theorem pay12_apply (v34 : Vec Ideal S8x8 .f32) (v36 : FVec Ideal S8x1 .f32) (v71 v74 : FVec Ideal S8x32768 .f32)
    (v76 : FVec Ideal S4x8x1 .f32) (v81 : FVec Ideal S8x32768 .f32) (i : S8x32768.Idx) :
    k0_pay12 (F := Ideal) v34 v36 v71 v74 v76 v81 i = Ideal.tanh (k0_pay9 (F := Ideal) v34 v36 v71 v74 v76 v81 i) := rfl

/-- Layer 3's weight of the tanh. -/
private theorem pay13_apply (v110 : Vec Ideal S1x4x8x1 .f32) (h : Fin 8) (q : Fin 32768) :
    k0_pay13 (F := Ideal) v110 (ix2 h q) = v110 (ix4 (0 : Fin 1) (2 : Fin 4) h (0 : Fin 1)) := by
  unfold k0_pay13
  simp only [bcol8, selrow _ 2 slices_S4x8x1_o2_0_0_S1x8x1 (2 : Fin 4) rfl]
  rw [pay10_apply v110 (2 : Fin 4) h]

/-- The rest of layer 3 and the head: the logistic of the output product plus the output bias. -/
private theorem pay1_apply (v106 v109 : FVec Ideal S8x32768 .f32) (v111 : FVec Ideal S4x8x1 .f32) (v127 v130 v131 : FVec Ideal S8x32768 .f32)
    (v142 : Vec Ideal S3x8 .f32) (v144 : Vec Ideal S3x1 .f32) (j : Fin 3) (q : Fin 32768) :
    k0_pay1 (F := Ideal) v106 v109 v111 v127 v130 v131 v142 v144 (ix2 j q)
      = Ideal.logistic ((∑ k : Fin 8, v142 (ix2 j k)
            * (((((v127 (ix2 k q) + v131 (ix2 k q) * v130 (ix2 k q)) + v111 (ix3 (3 : Fin 4) k (0 : Fin 1)) * v109 (ix2 k q))
                + v106 (ix2 k q)) * Cert.Cppn.cHalf)))
          + v144 (ix2 j (0 : Fin 1))) := by
  unfold k0_pay1
  simp only [addf_apply, mulf_apply, bcol8, bcol3, mmC, broadcast_apply, logisticv_apply, shapeCast_self,
    selrow _ 3 slices_S4x8x1_o3_0_0_S1x8x1 (3 : Fin 4) rfl]
  rfl

/-! One hidden layer at a column, and the three layers and the head in turn. -/

/-- One layer at a column as the kernel forms it: the four weighted activations added in order, the layer's input added,
    the result halved. -/
private def lay (s : Fin 4 → EReal) (p o : EReal) : EReal :=
  ((((s 0 * Ideal.sin p + s 1 * kgauss p) + s 2 * Ideal.tanh p) + s 3 * p) + o) * Cert.Cppn.cHalf

/-- With weights 0 or 1 as the groups dictate and no column in two groups, it is the row function's layer. -/
private theorem lay_eq (G : Fin 4 → Fin 2 → BitVec 32) (h : Fin 8) (p o : EReal)
    (hd : ∀ f f' : Fin 4, f ≠ f' → ¬ (Cert.Cppn.inGroup (G f) h ∧ Cert.Cppn.inGroup (G f') h)) :
    lay (fun f => Cert.Cppn.wt (G f) h) p o = (Cert.Cppn.pick G h p + o) * Cert.Cppn.cHalf := by
  rw [← Cert.Cppn.blend_eq_pick G h p hd]; rfl

/-- The kernel's pre-activation is the row function's: the products commute. -/
private theorem kpre_eq (W : Vec Ideal S8x8 .f32) (b : FVec Ideal S8x1 .f32) (O : FVec Ideal S8x32768 .f32) (o : Fin 8 → EReal)
    (q : Fin 32768) (hO : ∀ k : Fin 8, O (ix2 k q) = o k) (h : Fin 8) :
    kpre W b O h q = Cert.Cppn.pre (fun h k => W (ix2 h k)) (fun h => b (ix2 h (0 : Fin 1))) o h := by
  unfold kpre Cert.Cppn.pre
  congr 1
  exact Finset.sum_congr rfl fun k _ => by rw [hO k, mul_comm]

/-- Layer 1 is the row function's step, given layer 0's output at the pixel. -/
private theorem layer1 (P : FVec Ideal S8x32768 .f32) (x9 : Vec Ideal S8x8 .f32) (x10 : Vec Ideal S8x1 .f32)
    (X4 : Vec Ideal S1x4x8x1 .f32) (G : Fin 4 → Fin 2 → BitVec 32) (o : Fin 8 → EReal) (q : Fin 32768)
    (hP : ∀ k : Fin 8, P (ix2 k q) = o k)
    (hs : ∀ (f : Fin 4) (h : Fin 8), X4 (ix4 (0 : Fin 1) f h (0 : Fin 1)) = Cert.Cppn.wt (G f) h)
    (hd : ∀ (h : Fin 8) (f f' : Fin 4), f ≠ f' → ¬ (Cert.Cppn.inGroup (G f) h ∧ Cert.Cppn.inGroup (G f') h)) (h : Fin 8) :
    k0_pay4 (F := Ideal) P x9 x10 X4 (ix2 h q)
      = Cert.Cppn.step G (fun h k => x9 (ix2 h k)) (fun h => x10 (ix2 h (0 : Fin 1))) o h := by
  rw [pay4_apply, hs 0 h, hs 1 h, hs 2 h, hs 3 h, kpre_eq x9 x10 P o q hP h, hP h]
  exact lay_eq G h _ _ (hd h)

/-- Layer 2 likewise, given layer 1's output at the pixel. -/
private theorem layer2 (P : FVec Ideal S8x32768 .f32) (x9 : Vec Ideal S8x8 .f32) (x10 : Vec Ideal S8x1 .f32)
    (X4 X5 : Vec Ideal S1x4x8x1 .f32) (G : Fin 4 → Fin 2 → BitVec 32) (o : Fin 8 → EReal) (q : Fin 32768)
    (hP : ∀ k : Fin 8, k0_pay4 (F := Ideal) P x9 x10 X4 (ix2 k q) = o k)
    (hs : ∀ (f : Fin 4) (h : Fin 8), X5 (ix4 (0 : Fin 1) f h (0 : Fin 1)) = Cert.Cppn.wt (G f) h)
    (hd : ∀ (h : Fin 8) (f f' : Fin 4), f ≠ f' → ¬ (Cert.Cppn.inGroup (G f) h ∧ Cert.Cppn.inGroup (G f') h)) (h : Fin 8) :
    k0_pay8 (F := Ideal) (k0_pay4 P x9 x10 X4) (k0_pay5 P x9 x10 X4) (k0_pay6 X5) (k0_pay7 P x9 x10 X4 X5) (ix2 h q)
      = Cert.Cppn.step G (fun h k => x9 (ix2 h k)) (fun h => x10 (ix2 h (0 : Fin 1))) o h := by
  rw [pay8_apply, pay7_apply, pay6_apply X5 (1 : Fin 4) h, pay6_apply X5 (2 : Fin 4) h, pay6_apply X5 (3 : Fin 4) h, pay5_apply,
    hs 0 h, hs 1 h, hs 2 h, hs 3 h, kpre_eq x9 x10 _ o q hP h, hP h]
  exact lay_eq G h _ _ (hd h)

/-- Layer 3 and the head likewise, given layer 2's output at the pixel. -/
private theorem layer3_head (A B : FVec Ideal S8x32768 .f32) (C : FVec Ideal S4x8x1 .f32) (D : FVec Ideal S8x32768 .f32)
    (x9 : Vec Ideal S8x8 .f32) (x10 : Vec Ideal S8x1 .f32) (X6 : Vec Ideal S1x4x8x1 .f32) (x11 : Vec Ideal S3x8 .f32)
    (x12 : Vec Ideal S3x1 .f32) (G : Fin 4 → Fin 2 → BitVec 32) (o : Fin 8 → EReal) (q : Fin 32768)
    (hP : ∀ k : Fin 8, k0_pay8 (F := Ideal) A B C D (ix2 k q) = o k)
    (hs : ∀ (f : Fin 4) (h : Fin 8), X6 (ix4 (0 : Fin 1) f h (0 : Fin 1)) = Cert.Cppn.wt (G f) h)
    (hd : ∀ (h : Fin 8) (f f' : Fin 4), f ≠ f' → ¬ (Cert.Cppn.inGroup (G f) h ∧ Cert.Cppn.inGroup (G f') h)) (j : Fin 3) :
    k0_pay1 (F := Ideal) (k0_pay8 A B C D) (k0_pay9 x9 (k0_pay3 x10) A B C D) (k0_pay10 X6)
        (k0_pay11 x9 (k0_pay3 x10) A B C D X6) (k0_pay12 x9 (k0_pay3 x10) A B C D) (k0_pay13 X6) x11 x12 (ix2 j q)
      = Cert.Cppn.head (fun j k => x11 (ix2 j k)) (fun j => x12 (ix2 j (0 : Fin 1)))
          (Cert.Cppn.step G (fun h k => x9 (ix2 h k)) (fun h => x10 (ix2 h (0 : Fin 1))) o) j := by
  rw [pay1_apply]
  unfold Cert.Cppn.head
  congr 2
  refine Finset.sum_congr rfl fun k _ => ?_
  rw [mul_comm]
  congr 1
  rw [pay11_apply, pay13_apply, pay12_apply, pay10_apply X6 (3 : Fin 4) k, pay9_apply, pay3_eq,
    hs 0 k, hs 1 k, hs 2 k, hs 3 k, kpre_eq x9 x10 _ o q hP k, hP k]
  exact lay_eq G k _ _ (hd k)

/-- The body's output block at output j, pixel q. -/
theorem body_apply (x0 x1 x2 : Vec Ideal S1x32768 .f32) (x3 : Vec Ideal S32768x8 .f32) (x4 : Vec Ideal S8x8 .f32)
    (x5 x6 x7 x8 : Vec Ideal S8x1 .f32) (x9 : Vec Ideal S8x8 .f32) (x10 : Vec Ideal S8x1 .f32) (x11 : Vec Ideal S3x8 .f32)
    (x12 : Vec Ideal S3x1 .f32) (x13 : Vec Ideal S3x4x8x1 .f32) (M : Fin 3 → Fin 4 → Fin 2 → BitVec 32)
    (hsel : ∀ (l : Fin 3) (f : Fin 4) (h : Fin 8), x13 (ix4 l f h (0 : Fin 1)) = Cert.Cppn.wt (M l f) h)
    (hd : ∀ (l : Fin 3) (h : Fin 8) (f f' : Fin 4), f ≠ f' → ¬ (Cert.Cppn.inGroup (M l f) h ∧ Cert.Cppn.inGroup (M l f') h))
    (j : Fin 3) (q : Fin 32768) :
    out0_14 (F := Ideal) x0 x1 x2 x3 x4 x5 x6 x7 x8 x9 x10 x11 x12 x13 (ix2 j q)
      = Cert.Cppn.rowOut (x0 (ix2 (0 : Fin 1) q)) (x1 (ix2 (0 : Fin 1) q)) (x2 (ix2 (0 : Fin 1) q)) (fun k => x3 (ix2 q k))
          (w0Of x4 x5 x6 x7) (fun h => x8 (ix2 h (0 : Fin 1))) (fun h k => x9 (ix2 h k)) (fun h => x10 (ix2 h (0 : Fin 1)))
          (fun j k => x11 (ix2 j k)) (fun j => x12 (ix2 j (0 : Fin 1))) M j := by
  unfold out0_14
  rw [View.canon_unit_zero hz2]
  simp only [View.ld_unit_zero (S := S32768x8) hz2, View.ld_unit_zero (S := S8x8) hz2, View.ld_unit_zero (S := S8x1) hz2,
    View.ld_unit_zero (S := S1x32768) hz2, View.ld_unit_zero (S := S3x8) hz2, View.ld_unit_zero (S := S3x1) hz2]
  unfold Cert.Cppn.rowOut
  refine layer3_head _ _ _ _ x9 x10 _ x11 x12 (M 2) _ q (fun k => ?_)
    (fun f h => (ld6 x13 f h).trans (hsel 2 f h)) (hd 2) j
  refine layer2 _ x9 x10 _ _ (M 1) _ q (fun k => ?_) (fun f h => (ld5 x13 f h).trans (hsel 1 f h)) (hd 1) k
  refine layer1 _ x9 x10 _ (M 0) _ q (fun k => ?_) (fun f h => (ld4 x13 f h).trans (hsel 0 f h)) (hd 0) k
  exact layer0 x0 x1 x2 x3 x4 x5 x6 x7 x8 k q

end Cert.Cppn.Ker

end
-- ==== Proof.KerHost.lean ====
/-
  What the host operations before the region leave in the arrays the kernel's windows read, as functions of the
  arguments: x, y, r reshaped from a column to a row; layer 0's weights cut into the motion part and three columns;
  the three biases reshaped to columns; and the selector, whose entry (l, f, h) is 1 when one of group f's two entries
  in layer l equals h and 0 otherwise (an or over the pair of an equality test against 0..7, widened to a float).

  Each array is first written as the term of the operations that made it, over the argument arrays, and that term is
  then read at an index: a reshape keeps the row-major position, a slice shifts by its offsets, a broadcast reads the
  coordinates it keeps, an or-fold of bits from 0 is 1 exactly when some bit is 1.
-/
import proofs.«421476_j60232621359502_3_alg».proof.Proof.Gen.KernelIdeal.Frame
import proofs.«421476_j60232621359502_3_alg».proof.Proof.Spec
import Idealize.ShloMosaic.Lib.Pipeline.Value
import Idealize.ShloMosaic.Lib.StableHlo.Predicate

noncomputable section

namespace Cert.Cppn.Ker

open Idealize.ShloMosaic Idealize.ShloMosaic.TcCoe Idealize.ShloMosaic.ValueIdx
open Cert.KernelIdeal Cert.KernelIdeal.Gen
open Idealize.ShloMosaic.StableHlo.Predicate (cmpi_eq_iff)

variable (m : (ℓ : Loc nD τ sig) → Buf (Elt Ideal) ℓ) (c : Dev nD)

/-- A column [N,1] viewed as a row [1,N]: entry (0, n) of the row is entry (n, 0) of the column (same row-major position). -/
private theorem col_to_row (x : FVec Ideal S4194304x1 .f32) (n : Fin 4194304) :
    shapeCast S1x4194304 x shapeCasts_S4194304x1_S1x4194304 (ix2 (0 : Fin 1) n) = x (ix2 n (0 : Fin 1)) :=
  shapeCast_apply x _ (ix2 (0 : Fin 1) n) (ix2 n (0 : Fin 1)) (by
    rw [Shape.rowMajor_val_two, Shape.rowMajor_val_two]
    show n.val * 1 + 0 = 0 * 4194304 + n.val
    omega)

/-- A vector [8] viewed as a column [8,1]. -/
private theorem vec8_to_col (x : FVec Ideal S8 .f32) (h : Fin 8) :
    shapeCast S8x1 x shapeCasts_S8_S8x1 (ix2 h (0 : Fin 1)) = x (ix1 h) :=
  shapeCast_apply x _ (ix2 h (0 : Fin 1)) (ix1 h) (by
    rw [Shape.rowMajor_val_one, Shape.rowMajor_val_two]
    show h.val = h.val * 1 + 0
    omega)

/-- A vector [3] viewed as a column [3,1]. -/
private theorem vec3_to_col (x : FVec Ideal S3 .f32) (j : Fin 3) :
    shapeCast S3x1 x shapeCasts_S3_S3x1 (ix2 j (0 : Fin 1)) = x (ix1 j) :=
  shapeCast_apply x _ (ix2 j (0 : Fin 1)) (ix1 j) (by
    rw [Shape.rowMajor_val_one, Shape.rowMajor_val_two]
    show j.val = j.val * 1 + 0
    omega)

/-- The first eight columns of an [8,11] matrix. -/
private theorem slice_motion (x : FVec Ideal S8x11 .f32) (h k : Fin 8) :
    extractStridedSlice S8x8 ![0, 0] x slices_S8x11_S8x8_0_0 (ix2 h k) = x (ix2 h (⟨k.val, by omega⟩ : Fin 11)) :=
  extractStridedSlice_apply _ x _ (ix2 h k) (ix2 h (⟨k.val, by omega⟩ : Fin 11)) (fun a => match a with
    | ⟨0, _⟩ => by show h.val = 0 + h.val; omega
    | ⟨1, _⟩ => by show k.val = 0 + k.val; omega)

/-- Column 8 of an [8,11] matrix as an [8,1] column. -/
private theorem slice_col8 (x : FVec Ideal S8x11 .f32) (h : Fin 8) :
    extractStridedSlice S8x1 ![0, 8] x slices_S8x11_S8x1_0_8 (ix2 h (0 : Fin 1)) = x (ix2 h (8 : Fin 11)) :=
  extractStridedSlice_apply _ x _ (ix2 h (0 : Fin 1)) (ix2 h (8 : Fin 11)) (fun a => match a with
    | ⟨0, _⟩ => by show h.val = 0 + h.val; omega
    | ⟨1, _⟩ => by show 8 = 8 + 0; omega)

/-- Column 9. -/
private theorem slice_col9 (x : FVec Ideal S8x11 .f32) (h : Fin 8) :
    extractStridedSlice S8x1 ![0, 9] x slices_S8x11_S8x1_0_9 (ix2 h (0 : Fin 1)) = x (ix2 h (9 : Fin 11)) :=
  extractStridedSlice_apply _ x _ (ix2 h (0 : Fin 1)) (ix2 h (9 : Fin 11)) (fun a => match a with
    | ⟨0, _⟩ => by show h.val = 0 + h.val; omega
    | ⟨1, _⟩ => by show 9 = 9 + 0; omega)

/-- Column 10. -/
private theorem slice_col10 (x : FVec Ideal S8x11 .f32) (h : Fin 8) :
    extractStridedSlice S8x1 ![0, 10] x slices_S8x11_S8x1_0_10 (ix2 h (0 : Fin 1)) = x (ix2 h (10 : Fin 11)) :=
  extractStridedSlice_apply _ x _ (ix2 h (0 : Fin 1)) (ix2 h (10 : Fin 11)) (fun a => match a with
    | ⟨0, _⟩ => by show h.val = 0 + h.val; omega
    | ⟨1, _⟩ => by show 10 = 10 + 0; omega)

theorem V_v0 (n : Fin 4194304) : (V m c main_v0 : FVec Ideal S1x4194304 .f32) (ix2 (0 : Fin 1) n) = ((m ((c : Thread nD τ).loc main_arg0)) : FVec Ideal S4194304x1 .f32) (ix2 n (0 : Fin 1)) := by
  have e : (V m c main_v0 : S1x4194304.Idx → EReal) = shapeCast S1x4194304 ((m ((c : Thread nD τ).loc main_arg0)) : FVec Ideal S4194304x1 .f32) shapeCasts_S4194304x1_S1x4194304 := by
    show StableHlo.after hostOps0 (fun b => m (c, b)) (Proc.devRef .tc main_v0) = _
    after_results
    rfl
  exact (congrFun e _).trans (col_to_row _ n)
theorem V_v1 (n : Fin 4194304) : (V m c main_v1 : FVec Ideal S1x4194304 .f32) (ix2 (0 : Fin 1) n) = ((m ((c : Thread nD τ).loc main_arg1)) : FVec Ideal S4194304x1 .f32) (ix2 n (0 : Fin 1)) := by
  have e : (V m c main_v1 : S1x4194304.Idx → EReal) = shapeCast S1x4194304 ((m ((c : Thread nD τ).loc main_arg1)) : FVec Ideal S4194304x1 .f32) shapeCasts_S4194304x1_S1x4194304 := by
    show StableHlo.after hostOps0 (fun b => m (c, b)) (Proc.devRef .tc main_v1) = _
    after_results
    rfl
  exact (congrFun e _).trans (col_to_row _ n)
theorem V_v2 (n : Fin 4194304) : (V m c main_v2 : FVec Ideal S1x4194304 .f32) (ix2 (0 : Fin 1) n) = ((m ((c : Thread nD τ).loc main_arg2)) : FVec Ideal S4194304x1 .f32) (ix2 n (0 : Fin 1)) := by
  have e : (V m c main_v2 : S1x4194304.Idx → EReal) = shapeCast S1x4194304 ((m ((c : Thread nD τ).loc main_arg2)) : FVec Ideal S4194304x1 .f32) shapeCasts_S4194304x1_S1x4194304 := by
    show StableHlo.after hostOps0 (fun b => m (c, b)) (Proc.devRef .tc main_v2) = _
    after_results
    rfl
  exact (congrFun e _).trans (col_to_row _ n)
theorem V_v3 (h k : Fin 8) : (V m c main_v3 : FVec Ideal S8x8 .f32) (ix2 h k) = ((m ((c : Thread nD τ).loc main_arg4)) : FVec Ideal S8x11 .f32) (ix2 h (⟨k.val, by omega⟩ : Fin 11)) := by
  have e : (V m c main_v3 : S8x8.Idx → EReal) = extractStridedSlice S8x8 ![0, 0] ((m ((c : Thread nD τ).loc main_arg4)) : FVec Ideal S8x11 .f32) slices_S8x11_S8x8_0_0 := by
    show StableHlo.after hostOps0 (fun b => m (c, b)) (Proc.devRef .tc main_v3) = _
    after_results
  exact (congrFun e _).trans (slice_motion _ h k)
theorem V_v4 (h : Fin 8) : (V m c main_v4 : FVec Ideal S8x1 .f32) (ix2 h (0 : Fin 1)) = ((m ((c : Thread nD τ).loc main_arg4)) : FVec Ideal S8x11 .f32) (ix2 h (8 : Fin 11)) := by
  have e : (V m c main_v4 : S8x1.Idx → EReal) = extractStridedSlice S8x1 ![0, 8] ((m ((c : Thread nD τ).loc main_arg4)) : FVec Ideal S8x11 .f32) slices_S8x11_S8x1_0_8 := by
    show StableHlo.after hostOps0 (fun b => m (c, b)) (Proc.devRef .tc main_v4) = _
    after_results
  exact (congrFun e _).trans (slice_col8 _ h)
theorem V_v5 (h : Fin 8) : (V m c main_v5 : FVec Ideal S8x1 .f32) (ix2 h (0 : Fin 1)) = ((m ((c : Thread nD τ).loc main_arg4)) : FVec Ideal S8x11 .f32) (ix2 h (9 : Fin 11)) := by
  have e : (V m c main_v5 : S8x1.Idx → EReal) = extractStridedSlice S8x1 ![0, 9] ((m ((c : Thread nD τ).loc main_arg4)) : FVec Ideal S8x11 .f32) slices_S8x11_S8x1_0_9 := by
    show StableHlo.after hostOps0 (fun b => m (c, b)) (Proc.devRef .tc main_v5) = _
    after_results
  exact (congrFun e _).trans (slice_col9 _ h)
theorem V_v6 (h : Fin 8) : (V m c main_v6 : FVec Ideal S8x1 .f32) (ix2 h (0 : Fin 1)) = ((m ((c : Thread nD τ).loc main_arg4)) : FVec Ideal S8x11 .f32) (ix2 h (10 : Fin 11)) := by
  have e : (V m c main_v6 : S8x1.Idx → EReal) = extractStridedSlice S8x1 ![0, 10] ((m ((c : Thread nD τ).loc main_arg4)) : FVec Ideal S8x11 .f32) slices_S8x11_S8x1_0_10 := by
    show StableHlo.after hostOps0 (fun b => m (c, b)) (Proc.devRef .tc main_v6) = _
    after_results
  exact (congrFun e _).trans (slice_col10 _ h)
theorem V_v7 (h : Fin 8) : (V m c main_v7 : FVec Ideal S8x1 .f32) (ix2 h (0 : Fin 1)) = ((m ((c : Thread nD τ).loc main_arg5)) : FVec Ideal S8 .f32) (ix1 h) := by
  have e : (V m c main_v7 : S8x1.Idx → EReal) = shapeCast S8x1 ((m ((c : Thread nD τ).loc main_arg5)) : FVec Ideal S8 .f32) shapeCasts_S8_S8x1 := by
    show StableHlo.after hostOps0 (fun b => m (c, b)) (Proc.devRef .tc main_v7) = _
    after_results
    rfl
  exact (congrFun e _).trans (vec8_to_col _ h)
theorem V_v8 (h : Fin 8) : (V m c main_v8 : FVec Ideal S8x1 .f32) (ix2 h (0 : Fin 1)) = ((m ((c : Thread nD τ).loc main_arg7)) : FVec Ideal S8 .f32) (ix1 h) := by
  have e : (V m c main_v8 : S8x1.Idx → EReal) = shapeCast S8x1 ((m ((c : Thread nD τ).loc main_arg7)) : FVec Ideal S8 .f32) shapeCasts_S8_S8x1 := by
    show StableHlo.after hostOps0 (fun b => m (c, b)) (Proc.devRef .tc main_v8) = _
    after_results
    rfl
  exact (congrFun e _).trans (vec8_to_col _ h)
theorem V_v9 (j : Fin 3) : (V m c main_v9 : FVec Ideal S3x1 .f32) (ix2 j (0 : Fin 1)) = ((m ((c : Thread nD τ).loc main_arg9)) : FVec Ideal S3 .f32) (ix1 j) := by
  have e : (V m c main_v9 : S3x1.Idx → EReal) = shapeCast S3x1 ((m ((c : Thread nD τ).loc main_arg9)) : FVec Ideal S3 .f32) shapeCasts_S3_S3x1 := by
    show StableHlo.after hostOps0 (fun b => m (c, b)) (Proc.devRef .tc main_v9) = _
    after_results
    rfl
  exact (congrFun e _).trans (vec3_to_col _ j)

/-- An or-fold of bits from 0 is 1 exactly when some bit is 1. -/
private theorem fold_ori_eq_one {ι : Type} [DecidableEq ι] (S : Finset ι) (p : ι → BitVec 1) :
    S.fold IntOp.ori 0#1 p = 1#1 ↔ ∃ k ∈ S, p k = 1#1 := by
  have hor : ∀ x y : BitVec 1, IntOp.ori x y = 1#1 ↔ x = 1#1 ∨ y = 1#1 := by
    intro x y
    rcases BitVec.eq_zero_or_eq_one x with rfl | rfl <;> rcases BitVec.eq_zero_or_eq_one y with rfl | rfl <;> decide
  induction S using Finset.induction_on with
  | empty =>
    rw [Finset.fold_empty]
    constructor
    · intro h; exact absurd h (by decide)
    · rintro ⟨k, hk, _⟩; exact absurd hk (Finset.notMem_empty k)
  | insert a S ha ih =>
    rw [Finset.fold_insert ha, hor]
    constructor
    · rintro (h | h)
      · exact ⟨a, Finset.mem_insert_self _ _, h⟩
      · obtain ⟨k, hk, h⟩ := ih.mp h
        exact ⟨k, Finset.mem_insert_of_mem hk, h⟩
    · rintro ⟨k, hk, h⟩
      rcases Finset.mem_insert.1 hk with rfl | hk
      · exact Or.inl h
      · exact Or.inr (ih.mpr ⟨k, hk, h⟩)

/-- Dropping axis 2 of [3,4,2,8] leaves [3,4,8]. -/
private theorem red2 : S3x4x2x8.Reduces [2] S3x4x8 := by decide

/-- The equality test at (l, f, k, h): group entry k of (l, f) against the column number h. -/
private theorem test_entry (g : IVec S3x4x2 32) (l : Fin 3) (f : Fin 4) (h : Fin 8) (k : Fin (S3x4x2x8.size 2)) :
    (cmpi .eq
      (broadcastInDim S3x4x2x8 ![0, 1, 2, 3] bcast_S3x4x2x1_S3x4x2x8_0_1_2_3
        (broadcastInDim S3x4x2x1 ![0, 1, 2] bcast_S3x4x2_S3x4x2x1_0_1_2 g))
      (broadcastInDim S3x4x2x8 ![0, 1, 2, 3] bcast_S1x1x1x8_S3x4x2x8_0_1_2_3
        (broadcastInDim S1x1x1x8 ![3] bcast_S8_S1x1x1x8_3 (iotaInDim S8 32 0)))) (red2.lift (ix3 l f h) k)
      = IntOp.cmpi .eq (g (ix3 l f (k : Fin 2))) (BitVec.ofNat 32 h.val) := by
  show IntOp.cmpi .eq _ _ = _
  have hA : broadcastInDim S3x4x2x8 ![0, 1, 2, 3] bcast_S3x4x2x1_S3x4x2x8_0_1_2_3
        (broadcastInDim S3x4x2x1 ![0, 1, 2] bcast_S3x4x2_S3x4x2x1_0_1_2 g) (red2.lift (ix3 l f h) k) = g (ix3 l f (k : Fin 2)) := by
    refine (broadcastInDim_apply _ _ _ (red2.lift (ix3 l f h) k) (ix4 l f (k : Fin 2) (0 : Fin 1))
      (fun a => match a with | ⟨0, _⟩ => rfl | ⟨1, _⟩ => rfl | ⟨2, _⟩ => rfl | ⟨3, _⟩ => rfl)).trans ?_
    exact broadcastInDim_apply _ _ _ (ix4 l f (k : Fin 2) (0 : Fin 1)) (ix3 l f (k : Fin 2))
      (fun a => match a with | ⟨0, _⟩ => rfl | ⟨1, _⟩ => rfl | ⟨2, _⟩ => rfl)
  have hB : broadcastInDim S3x4x2x8 ![0, 1, 2, 3] bcast_S1x1x1x8_S3x4x2x8_0_1_2_3
        (broadcastInDim S1x1x1x8 ![3] bcast_S8_S1x1x1x8_3 (iotaInDim S8 32 0)) (red2.lift (ix3 l f h) k) = BitVec.ofNat 32 h.val := by
    refine (broadcastInDim_apply _ _ _ (red2.lift (ix3 l f h) k) (ix4 (0 : Fin 1) (0 : Fin 1) (0 : Fin 1) h)
      (fun a => match a with | ⟨0, _⟩ => rfl | ⟨1, _⟩ => rfl | ⟨2, _⟩ => rfl | ⟨3, _⟩ => rfl)).trans ?_
    refine (broadcastInDim_apply _ _ _ (ix4 (0 : Fin 1) (0 : Fin 1) (0 : Fin 1) h) (ix1 h)
      (fun a => match a with | ⟨0, _⟩ => rfl)).trans ?_
    rfl
  rw [hA, hB]

/-- The equality tests of the selector: entry (l, f, k, h) is 1 when entry k of group (l, f) is the column number h. -/
private abbrev groupTest (g : IVec S3x4x2 32) : IVec S3x4x2x8 1 :=
  cmpi .eq
    (broadcastInDim S3x4x2x8 ![0, 1, 2, 3] bcast_S3x4x2x1_S3x4x2x8_0_1_2_3
      (broadcastInDim S3x4x2x1 ![0, 1, 2] bcast_S3x4x2_S3x4x2x1_0_1_2 g))
    (broadcastInDim S3x4x2x8 ![0, 1, 2, 3] bcast_S1x1x1x8_S3x4x2x8_0_1_2_3
      (broadcastInDim S1x1x1x8 ![3] bcast_S8_S1x1x1x8_3 (iotaInDim S8 32 0)))

/-- Their or over the pair. -/
private abbrev groupAny (g : IVec S3x4x2 32) : IVec S3x4x8 1 :=
  Host.reduce IntOp.ori (groupTest g) (constantI S_ 1 0#1) reducesTo_S3x4x2x8_S3x4x8_d2 h_S_

/-- The or over the pair is 1 exactly when the group holds the column. -/
private theorem groupAny_eq_one (g : IVec S3x4x2 32) (l : Fin 3) (f : Fin 4) (h : Fin 8) :
    groupAny g (ix3 l f h) = 1#1 ↔ Cert.Cppn.inGroup (fun k => g (ix3 l f k)) h := by
  show Host.reduce IntOp.ori (groupTest g) (constantI S_ 1 0#1) reducesTo_S3x4x2x8_S3x4x8_d2 h_S_ (ix3 l f h) = 1#1 ↔ _
  rw [Host.reduce_eq_fold_single IntOp.ori (groupTest g) (constantI S_ 1 0#1) reducesTo_S3x4x2x8_S3x4x8_d2 red2 h_S_ (ix3 l f h)]
  show Finset.univ.fold IntOp.ori 0#1 (groupTest g ∘ red2.lift (ix3 l f h)) = 1#1 ↔ _
  rw [fold_ori_eq_one]
  constructor
  · rintro ⟨k, _, hk⟩
    exact ⟨k, cmpi_eq_iff.mp ((test_entry g l f h k).symm.trans hk)⟩
  · rintro ⟨k, hk⟩
    exact ⟨k, Finset.mem_univ _, (test_entry g l f h k).trans (cmpi_eq_iff.mpr hk)⟩

/-- The selector's entry (l, f, h, 0): the bit widened to a float is the weight of group (l, f) at column h. -/
private theorem sel_entry (g : IVec S3x4x2 32) (l : Fin 3) (f : Fin 4) (h : Fin 8) :
    broadcastInDim S3x4x8x1 ![0, 1, 2] bcast_S3x4x8_S3x4x8x1_0_1_2 (uitofp (F := Ideal) .f32 (groupAny g)) (ix4 l f h (0 : Fin 1))
      = Cert.Cppn.wt (fun k => g (ix3 l f k)) h := by
  refine (broadcastInDim_apply _ _ _ (ix4 l f h (0 : Fin 1)) (ix3 l f h)
    (fun a => match a with | ⟨0, _⟩ => rfl | ⟨1, _⟩ => rfl | ⟨2, _⟩ => rfl)).trans ?_
  show ((((groupAny g (ix3 l f h)).toNat : ℕ) : ℝ) : EReal) = _
  unfold Cert.Cppn.wt
  by_cases hg : Cert.Cppn.inGroup (fun k => g (ix3 l f k)) h
  · rw [if_pos hg, (groupAny_eq_one g l f h).mpr hg]
    simp
  · rw [if_neg hg]
    rcases BitVec.eq_zero_or_eq_one (groupAny g (ix3 l f h)) with h0 | h1
    · rw [h0]; simp
    · exact absurd ((groupAny_eq_one g l f h).mp h1) hg

/-- The selector's entry: the weight of group f of layer l at column h. -/
theorem V_v18 (l : Fin 3) (f : Fin 4) (h : Fin 8) :
    (V m c main_v18 : FVec Ideal S3x4x8x1 .f32) (ix4 l f h (0 : Fin 1))
      = Cert.Cppn.wt (fun k => ((m ((c : Thread nD τ).loc main_arg10)) : IVec S3x4x2 32) (ix3 l f k)) h := by
  have e : (V m c main_v18 : S3x4x8x1.Idx → EReal)
      = broadcastInDim S3x4x8x1 ![0, 1, 2] bcast_S3x4x8_S3x4x8x1_0_1_2
          (uitofp (F := Ideal) .f32 (groupAny ((m ((c : Thread nD τ).loc main_arg10)) : IVec S3x4x2 32))) := by
    show StableHlo.after hostOps0 (fun b => m (c, b)) (Proc.devRef .tc main_v18) = _
    after_results
  exact (congrFun e _).trans (sel_entry _ l f h)

end Cert.Cppn.Ker

end
-- ==== Proof.KerRun.lean ====
/-
  The idealized kernel's run, read as one function of the argument arrays: every weakly fair execution ends with the
  transposed output array holding, at row n and output j, the row function of the arguments' entries.

  The road. The grid has 128 points; point t works on rows t * 32768 .. t * 32768 + 32767. Each input window's block at
  point t, read at an index, is an entry of its array (a block's coordinate is its block index times the block's size
  plus the coordinate inside the block; the block indices are decided once over the grid), and the arrays the host
  operations made before the region are entries of the arguments. So the body's output block at (j, q) is output j of the
  row function at row t * 32768 + q. The blocks of the 128 points cover the output array [3, 4194304] (column p lies in
  the block of point p / 32768), so the array ends as one function of the arguments, and the transposition after the
  region reads it at (n, j).
-/
import proofs.«421476_j60232621359502_3_alg».proof.Proof.Gen.KernelIdeal.Frame
import proofs.«421476_j60232621359502_3_alg».proof.Proof.Spec
import proofs.«421476_j60232621359502_3_alg».proof.Proof.KerBody
import proofs.«421476_j60232621359502_3_alg».proof.Proof.KerHost
import Idealize.ShloMosaic.Lib.Pipeline.Value
import Idealize.ShloMosaic.Lib.ValueLayout

noncomputable section

namespace Cert.Cppn.Ker

open Idealize.ShloMosaic Idealize.ShloMosaic.TcCoe Idealize.SL.Sem Idealize.ShloMosaic.ValueIdx
open Cert.KernelIdeal Cert.KernelIdeal.Gen
open Idealize.ShloMosaic.Pipeline (Dat)

namespace Run

variable (m : (ℓ : Loc nD τ sig) → Buf (Elt Ideal) ℓ) (c : Dev nD)

/-- The index maps, decided over the grid: the row windows sit at block t on the row axis, the whole-array windows at block 0. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = t.val ∧ win0_3.index t (1 : Fin 2) = 0
    ∧ win0_14.index t (0 : Fin 2) = 0 ∧ win0_14.index t (1 : Fin 2) = t.val :=
  (by decide +kernel : ∀ t : Fin grid0.N, _)

theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

theorem idx_sel : ∀ t : Fin cfg0.N,
    win0_13.index t (0 : Fin 4) = 0 ∧ win0_13.index t (1 : Fin 4) = 0
    ∧ win0_13.index t (2 : Fin 4) = 0 ∧ win0_13.index t (3 : Fin 4) = 0 :=
  (by decide +kernel : ∀ t : Fin grid0.N, _)

/-! Each window's block at a point, read at an index, is an entry of its array. -/

theorem iblk0_apply (t : Fin cfg0.N) (q : Fin 32768) (n : Fin 4194304) (hn : n.val = t.val * 32768 + q.val) :
    (iblk m c 0 t : Vec Ideal S1x32768 .f32) (ix2 (0 : Fin 1) q) = (V m c main_v0 : FVec Ideal S1x4194304 .f32) (ix2 (0 : Fin 1) n) := by
  show V m c main_v0 (((cfg0.win 0).blk t).view.emb (ix2 (0 : Fin 1) q)) = V m c main_v0 (ix2 (0 : Fin 1) n)
  refine congrArg _ ?_
  funext a; apply Fin.ext
  match a with
  | ⟨0, _⟩ => show win0_0.index t (0 : Fin 2) * 1 + 1 * 0 = 0; rw [(idx_facts t).1]
  | ⟨1, _⟩ => show win0_0.index t (1 : Fin 2) * 32768 + 1 * q.val = n.val; rw [(idx_facts t).2.1]; omega

theorem iblk1_apply (t : Fin cfg0.N) (q : Fin 32768) (n : Fin 4194304) (hn : n.val = t.val * 32768 + q.val) :
    (iblk m c 1 t : Vec Ideal S1x32768 .f32) (ix2 (0 : Fin 1) q) = (V m c main_v1 : FVec Ideal S1x4194304 .f32) (ix2 (0 : Fin 1) n) := by
  show V m c main_v1 (((cfg0.win 1).blk t).view.emb (ix2 (0 : Fin 1) q)) = V m c main_v1 (ix2 (0 : Fin 1) n)
  refine congrArg _ ?_
  funext a; apply Fin.ext
  match a with
  | ⟨0, _⟩ => show win0_1.index t (0 : Fin 2) * 1 + 1 * 0 = 0; rw [(idx_facts t).2.2.1]
  | ⟨1, _⟩ => show win0_1.index t (1 : Fin 2) * 32768 + 1 * q.val = n.val; rw [(idx_facts t).2.2.2.1]; omega

theorem iblk2_apply (t : Fin cfg0.N) (q : Fin 32768) (n : Fin 4194304) (hn : n.val = t.val * 32768 + q.val) :
    (iblk m c 2 t : Vec Ideal S1x32768 .f32) (ix2 (0 : Fin 1) q) = (V m c main_v2 : FVec Ideal S1x4194304 .f32) (ix2 (0 : Fin 1) n) := by
  show V m c main_v2 (((cfg0.win 2).blk t).view.emb (ix2 (0 : Fin 1) q)) = V m c main_v2 (ix2 (0 : Fin 1) n)
  refine congrArg _ ?_
  funext a; apply Fin.ext
  match a with
  | ⟨0, _⟩ => show win0_2.index t (0 : Fin 2) * 1 + 1 * 0 = 0; rw [(idx_facts t).2.2.2.2.1]
  | ⟨1, _⟩ => show win0_2.index t (1 : Fin 2) * 32768 + 1 * q.val = n.val; rw [(idx_facts t).2.2.2.2.2.1]; omega

theorem iblk3_apply (t : Fin cfg0.N) (q : Fin 32768) (k : Fin 8) (n : Fin 4194304) (hn : n.val = t.val * 32768 + q.val) :
    (iblk m c 3 t : Vec Ideal S32768x8 .f32) (ix2 q k) = (V m c main_arg3 : FVec Ideal S4194304x8 .f32) (ix2 n k) := by
  show V m c main_arg3 (((cfg0.win 3).blk t).view.emb (ix2 q k)) = V m c main_arg3 (ix2 n k)
  refine congrArg _ ?_
  funext a; apply Fin.ext
  match a with
  | ⟨0, _⟩ => show win0_3.index t (0 : Fin 2) * 32768 + 1 * q.val = n.val; rw [(idx_facts t).2.2.2.2.2.2.1]; omega
  | ⟨1, _⟩ => show win0_3.index t (1 : Fin 2) * 8 + 1 * k.val = k.val; rw [(idx_facts t).2.2.2.2.2.2.2.1]; omega

theorem iblk4_apply (t : Fin cfg0.N) (h k : Fin 8) :
    (iblk m c 4 t : Vec Ideal S8x8 .f32) (ix2 h k) = (V m c main_v3 : FVec Ideal S8x8 .f32) (ix2 h k) := by
  show V m c main_v3 (((cfg0.win 4).blk t).view.emb (ix2 h k)) = V m c main_v3 (ix2 h k)
  refine congrArg _ ?_
  funext a; apply Fin.ext
  match a with
  | ⟨0, _⟩ => show win0_4.index t (0 : Fin 2) * 8 + 1 * h.val = h.val; rw [(idx_whole t).1]; omega
  | ⟨1, _⟩ => show win0_4.index t (1 : Fin 2) * 8 + 1 * k.val = k.val; rw [(idx_whole t).2.1]; omega

theorem iblk5_apply (t : Fin cfg0.N) (h : Fin 8) :
    (iblk m c 5 t : Vec Ideal S8x1 .f32) (ix2 h (0 : Fin 1)) = (V m c main_v4 : FVec Ideal S8x1 .f32) (ix2 h (0 : Fin 1)) := by
  show V m c main_v4 (((cfg0.win 5).blk t).view.emb (ix2 h (0 : Fin 1))) = V m c main_v4 (ix2 h (0 : Fin 1))
  refine congrArg _ ?_
  funext a; apply Fin.ext
  match a with
  | ⟨0, _⟩ => show win0_5.index t (0 : Fin 2) * 8 + 1 * h.val = h.val; rw [(idx_whole t).2.2.1]; omega
  | ⟨1, _⟩ => show win0_5.index t (1 : Fin 2) * 1 + 1 * 0 = 0; rw [(idx_whole t).2.2.2.1]

theorem iblk6_apply (t : Fin cfg0.N) (h : Fin 8) :
    (iblk m c 6 t : Vec Ideal S8x1 .f32) (ix2 h (0 : Fin 1)) = (V m c main_v5 : FVec Ideal S8x1 .f32) (ix2 h (0 : Fin 1)) := by
  show V m c main_v5 (((cfg0.win 6).blk t).view.emb (ix2 h (0 : Fin 1))) = V m c main_v5 (ix2 h (0 : Fin 1))
  refine congrArg _ ?_
  funext a; apply Fin.ext
  match a with
  | ⟨0, _⟩ => show win0_6.index t (0 : Fin 2) * 8 + 1 * h.val = h.val; rw [(idx_whole t).2.2.2.2.1]; omega
  | ⟨1, _⟩ => show win0_6.index t (1 : Fin 2) * 1 + 1 * 0 = 0; rw [(idx_whole t).2.2.2.2.2.1]

theorem iblk7_apply (t : Fin cfg0.N) (h : Fin 8) :
    (iblk m c 7 t : Vec Ideal S8x1 .f32) (ix2 h (0 : Fin 1)) = (V m c main_v6 : FVec Ideal S8x1 .f32) (ix2 h (0 : Fin 1)) := by
  show V m c main_v6 (((cfg0.win 7).blk t).view.emb (ix2 h (0 : Fin 1))) = V m c main_v6 (ix2 h (0 : Fin 1))
  refine congrArg _ ?_
  funext a; apply Fin.ext
  match a with
  | ⟨0, _⟩ => show win0_7.index t (0 : Fin 2) * 8 + 1 * h.val = h.val; rw [(idx_whole t).2.2.2.2.2.2.1]; omega
  | ⟨1, _⟩ => show win0_7.index t (1 : Fin 2) * 1 + 1 * 0 = 0; rw [(idx_whole t).2.2.2.2.2.2.2.1]

theorem iblk8_apply (t : Fin cfg0.N) (h : Fin 8) :
    (iblk m c 8 t : Vec Ideal S8x1 .f32) (ix2 h (0 : Fin 1)) = (V m c main_v7 : FVec Ideal S8x1 .f32) (ix2 h (0 : Fin 1)) := by
  show V m c main_v7 (((cfg0.win 8).blk t).view.emb (ix2 h (0 : Fin 1))) = V m c main_v7 (ix2 h (0 : Fin 1))
  refine congrArg _ ?_
  funext a; apply Fin.ext
  match a with
  | ⟨0, _⟩ => show win0_8.index t (0 : Fin 2) * 8 + 1 * h.val = h.val; rw [(idx_whole t).2.2.2.2.2.2.2.2.1]; omega
  | ⟨1, _⟩ => show win0_8.index t (1 : Fin 2) * 1 + 1 * 0 = 0; rw [(idx_whole t).2.2.2.2.2.2.2.2.2.1]

theorem iblk9_apply (t : Fin cfg0.N) (h k : Fin 8) :
    (iblk m c 9 t : Vec Ideal S8x8 .f32) (ix2 h k) = (V m c main_arg6 : FVec Ideal S8x8 .f32) (ix2 h k) := by
  show V m c main_arg6 (((cfg0.win 9).blk t).view.emb (ix2 h k)) = V m c main_arg6 (ix2 h k)
  refine congrArg _ ?_
  funext a; apply Fin.ext
  match a with
  | ⟨0, _⟩ => show win0_9.index t (0 : Fin 2) * 8 + 1 * h.val = h.val; rw [(idx_whole t).2.2.2.2.2.2.2.2.2.2.1]; omega
  | ⟨1, _⟩ => show win0_9.index t (1 : Fin 2) * 8 + 1 * k.val = k.val; rw [(idx_whole t).2.2.2.2.2.2.2.2.2.2.2.1]; omega

theorem iblk10_apply (t : Fin cfg0.N) (h : Fin 8) :
    (iblk m c 10 t : Vec Ideal S8x1 .f32) (ix2 h (0 : Fin 1)) = (V m c main_v8 : FVec Ideal S8x1 .f32) (ix2 h (0 : Fin 1)) := by
  show V m c main_v8 (((cfg0.win 10).blk t).view.emb (ix2 h (0 : Fin 1))) = V m c main_v8 (ix2 h (0 : Fin 1))
  refine congrArg _ ?_
  funext a; apply Fin.ext
  match a with
  | ⟨0, _⟩ => show win0_10.index t (0 : Fin 2) * 8 + 1 * h.val = h.val; rw [(idx_whole t).2.2.2.2.2.2.2.2.2.2.2.2.1]; omega
  | ⟨1, _⟩ => show win0_10.index t (1 : Fin 2) * 1 + 1 * 0 = 0; rw [(idx_whole t).2.2.2.2.2.2.2.2.2.2.2.2.2.1]

theorem iblk11_apply (t : Fin cfg0.N) (j : Fin 3) (k : Fin 8) :
    (iblk m c 11 t : Vec Ideal S3x8 .f32) (ix2 j k) = (V m c main_arg8 : FVec Ideal S3x8 .f32) (ix2 j k) := by
  show V m c main_arg8 (((cfg0.win 11).blk t).view.emb (ix2 j k)) = V m c main_arg8 (ix2 j k)
  refine congrArg _ ?_
  funext a; apply Fin.ext
  match a with
  | ⟨0, _⟩ => show win0_11.index t (0 : Fin 2) * 3 + 1 * j.val = j.val; rw [(idx_whole t).2.2.2.2.2.2.2.2.2.2.2.2.2.2.1]; omega
  | ⟨1, _⟩ => show win0_11.index t (1 : Fin 2) * 8 + 1 * k.val = k.val; rw [(idx_whole t).2.2.2.2.2.2.2.2.2.2.2.2.2.2.2.1]; omega

theorem iblk12_apply (t : Fin cfg0.N) (j : Fin 3) :
    (iblk m c 12 t : Vec Ideal S3x1 .f32) (ix2 j (0 : Fin 1)) = (V m c main_v9 : FVec Ideal S3x1 .f32) (ix2 j (0 : Fin 1)) := by
  show V m c main_v9 (((cfg0.win 12).blk t).view.emb (ix2 j (0 : Fin 1))) = V m c main_v9 (ix2 j (0 : Fin 1))
  refine congrArg _ ?_
  funext a; apply Fin.ext
  match a with
  | ⟨0, _⟩ => show win0_12.index t (0 : Fin 2) * 3 + 1 * j.val = j.val; rw [(idx_whole t).2.2.2.2.2.2.2.2.2.2.2.2.2.2.2.2.1]; omega
  | ⟨1, _⟩ => show win0_12.index t (1 : Fin 2) * 1 + 1 * 0 = 0; rw [(idx_whole t).2.2.2.2.2.2.2.2.2.2.2.2.2.2.2.2.2]

theorem iblk13_apply (t : Fin cfg0.N) (l : Fin 3) (f : Fin 4) (h : Fin 8) :
    (iblk m c 13 t : Vec Ideal S3x4x8x1 .f32) (ix4 l f h (0 : Fin 1)) = (V m c main_v18 : FVec Ideal S3x4x8x1 .f32) (ix4 l f h (0 : Fin 1)) := by
  show V m c main_v18 (((cfg0.win 13).blk t).view.emb (ix4 l f h (0 : Fin 1))) = V m c main_v18 (ix4 l f h (0 : Fin 1))
  refine congrArg _ ?_
  funext a; apply Fin.ext
  match a with
  | ⟨0, _⟩ => show win0_13.index t (0 : Fin 4) * 3 + 1 * l.val = l.val; rw [(idx_sel t).1]; omega
  | ⟨1, _⟩ => show win0_13.index t (1 : Fin 4) * 4 + 1 * f.val = f.val; rw [(idx_sel t).2.1]; omega
  | ⟨2, _⟩ => show win0_13.index t (2 : Fin 4) * 8 + 1 * h.val = h.val; rw [(idx_sel t).2.2.1]; omega
  | ⟨3, _⟩ => show win0_13.index t (3 : Fin 4) * 1 + 1 * 0 = 0; rw [(idx_sel t).2.2.2]

/-- The body's output at output j, pixel q, when each input block's entries are the entries of eleven arrays at row n:
    the row function of those arrays at row n. -/
theorem body_Grow (x0 x1 x2 : Vec Ideal S1x32768 .f32) (x3 : Vec Ideal S32768x8 .f32) (x4 : Vec Ideal S8x8 .f32)
    (x5 x6 x7 x8 : Vec Ideal S8x1 .f32) (x9 : Vec Ideal S8x8 .f32) (x10 : Vec Ideal S8x1 .f32) (x11 : Vec Ideal S3x8 .f32)
    (x12 : Vec Ideal S3x1 .f32) (x13 : Vec Ideal S3x4x8x1 .f32)
    (A0 A1 A2 : FVec Ideal S4194304x1 .f32) (A3 : FVec Ideal S4194304x8 .f32) (A4 : FVec Ideal S8x11 .f32)
    (A5 : FVec Ideal S8 .f32) (A6 : FVec Ideal S8x8 .f32) (A7 : FVec Ideal S8 .f32) (A8 : FVec Ideal S3x8 .f32)
    (A9 : FVec Ideal S3 .f32) (A10 : IVec S3x4x2 32)
    (hd : ∀ (l : Fin 3) (f f' : Fin 4) (k k' : Fin 2), f ≠ f' → A10 (ix3 l f k) ≠ A10 (ix3 l f' k'))
    (n : Fin 4194304) (q : Fin 32768) (j : Fin 3)
    (h0 : x0 (ix2 (0 : Fin 1) q) = A0 (ix2 n (0 : Fin 1)))
    (h1 : x1 (ix2 (0 : Fin 1) q) = A1 (ix2 n (0 : Fin 1)))
    (h2 : x2 (ix2 (0 : Fin 1) q) = A2 (ix2 n (0 : Fin 1)))
    (h3 : ∀ k : Fin 8, x3 (ix2 q k) = A3 (ix2 n k))
    (h4 : ∀ h k : Fin 8, x4 (ix2 h k) = A4 (ix2 h (⟨k.val, by omega⟩ : Fin 11)))
    (h5 : ∀ h : Fin 8, x5 (ix2 h (0 : Fin 1)) = A4 (ix2 h (8 : Fin 11)))
    (h6 : ∀ h : Fin 8, x6 (ix2 h (0 : Fin 1)) = A4 (ix2 h (9 : Fin 11)))
    (h7 : ∀ h : Fin 8, x7 (ix2 h (0 : Fin 1)) = A4 (ix2 h (10 : Fin 11)))
    (h8 : ∀ h : Fin 8, x8 (ix2 h (0 : Fin 1)) = A5 (ix1 h))
    (h9 : ∀ h k : Fin 8, x9 (ix2 h k) = A6 (ix2 h k))
    (h10 : ∀ h : Fin 8, x10 (ix2 h (0 : Fin 1)) = A7 (ix1 h))
    (h11 : ∀ (j : Fin 3) (k : Fin 8), x11 (ix2 j k) = A8 (ix2 j k))
    (h12 : ∀ j : Fin 3, x12 (ix2 j (0 : Fin 1)) = A9 (ix1 j))
    (h13 : ∀ (l : Fin 3) (f : Fin 4) (h : Fin 8), x13 (ix4 l f h (0 : Fin 1)) = Cert.Cppn.wt (fun k => A10 (ix3 l f k)) h) :
    out0_14 (F := Ideal) x0 x1 x2 x3 x4 x5 x6 x7 x8 x9 x10 x11 x12 x13 (ix2 j q)
      = Cert.Cppn.Grow A0 A1 A2 A3 A4 A5 A6 A7 A8 A9 A10 n j := by
  have hd' : ∀ (l : Fin 3) (h : Fin 8) (f f' : Fin 4), f ≠ f' →
      ¬ (Cert.Cppn.inGroup ((fun l f k => A10 (ix3 l f k)) l f) h ∧ Cert.Cppn.inGroup ((fun l f k => A10 (ix3 l f k)) l f') h) := by
    rintro l h f f' hne ⟨⟨k, hk⟩, ⟨k', hk'⟩⟩
    exact hd l f f' k k' hne (hk.trans hk'.symm)
  refine (body_apply x0 x1 x2 x3 x4 x5 x6 x7 x8 x9 x10 x11 x12 x13 (fun l f k => A10 (ix3 l f k)) h13 hd' j q).trans ?_
  have e3 : (fun k => x3 (ix2 q k)) = fun k => A3 (ix2 n k) := funext h3
  have e4 : w0Of x4 x5 x6 x7 = fun h k => A4 (ix2 h k) := by
    funext h k
    unfold w0Of
    by_cases hk : k.val < 8
    · rw [dif_pos hk, h4]
    · rw [dif_neg hk]
      by_cases hk8 : k.val = 8
      · rw [if_pos hk8, h5]; exact congrArg (fun k' => A4 (ix2 h k')) (Fin.ext hk8.symm)
      · rw [if_neg hk8]
        by_cases hk9 : k.val = 9
        · rw [if_pos hk9, h6]; exact congrArg (fun k' => A4 (ix2 h k')) (Fin.ext hk9.symm)
        · rw [if_neg hk9, h7]
          have hk10 : k.val = 10 := by have := k.isLt; omega
          exact congrArg (fun k' => A4 (ix2 h k')) (Fin.ext hk10.symm)
  have e8 : (fun h => x8 (ix2 h (0 : Fin 1))) = fun h => A5 (ix1 h) := funext h8
  have e9 : (fun h k => x9 (ix2 h k)) = fun h k => A6 (ix2 h k) := funext fun h => funext fun k => h9 h k
  have e10 : (fun h => x10 (ix2 h (0 : Fin 1))) = fun h => A7 (ix1 h) := funext h10
  have e11 : (fun j k => x11 (ix2 j k)) = fun j k => A8 (ix2 j k) := funext fun j => funext fun k => h11 j k
  have e12 : (fun j => x12 (ix2 j (0 : Fin 1))) = fun j => A9 (ix1 j) := funext h12
  unfold Cert.Cppn.Grow
  rw [h0, h1, h2, e3, e4, e8, e9, e10, e11, e12]

/-- The output array [3, 4194304] the region leaves: at (j, n), output j of row n of the arguments. -/
def Gt : FVec Ideal S3x4194304 .f32 := fun i =>
  Cert.Cppn.Grow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) ⟨(i 1).val, idx2_lt1 i⟩ ⟨(i 0).val, idx2_lt0 i⟩

theorem Gt_ix2 (j : Fin 3) (n : Fin 4194304) : Gt m c (ix2 j n) =
    Cert.Cppn.Grow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) n j := rfl

/-- The body's output block at point t, output j, pixel q, is the output array's entry at row t * 32768 + q. -/
theorem out_block (hd : ∀ (l : Fin 3) (f f' : Fin 4) (k k' : Fin 2), f ≠ f' →
      (m ((c : Thread nD τ).loc main_arg10) : IVec S3x4x2 32) (ix3 l f k)
        ≠ (m ((c : Thread nD τ).loc main_arg10) : IVec S3x4x2 32) (ix3 l f' k'))
    (t : Fin cfg0.N) (j : Fin 3) (q : Fin 32768) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 j q)
      = Gt m c (((cfg0.win 14).blk t).view.emb (ix2 j q)) := by
  have ht : t.val < 128 := lt_of_lt_of_eq t.isLt N_0
  have hq : q.val < 32768 := q.isLt
  have hn : t.val * 32768 + q.val < 4194304 := by omega
  have e : ((cfg0.win 14).blk t).view.emb (ix2 j q) = (ix2 j (⟨t.val * 32768 + q.val, hn⟩ : Fin 4194304) : S3x4194304.Idx) := by
    funext a; apply Fin.ext
    match a with
    | ⟨0, _⟩ => show win0_14.index t (0 : Fin 2) * 3 + 1 * j.val = j.val; rw [(idx_facts t).2.2.2.2.2.2.2.2.1]; omega
    | ⟨1, _⟩ => show win0_14.index t (1 : Fin 2) * 32768 + 1 * q.val = t.val * 32768 + q.val; rw [(idx_facts t).2.2.2.2.2.2.2.2.2]; omega
  rw [e, Gt_ix2]
  exact body_Grow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) hd ⟨t.val * 32768 + q.val, hn⟩ q j
    ((iblk0_apply m c t q _ rfl).trans (V_v0 m c _))
    ((iblk1_apply m c t q _ rfl).trans (V_v1 m c _))
    ((iblk2_apply m c t q _ rfl).trans (V_v2 m c _))
    (fun k => (iblk3_apply m c t q k _ rfl).trans (congrFun (V_main_arg3 m c) _))
    (fun h k => (iblk4_apply m c t h k).trans (V_v3 m c h k))
    (fun h => (iblk5_apply m c t h).trans (V_v4 m c h))
    (fun h => (iblk6_apply m c t h).trans (V_v5 m c h))
    (fun h => (iblk7_apply m c t h).trans (V_v6 m c h))
    (fun h => (iblk8_apply m c t h).trans (V_v7 m c h))
    (fun h k => (iblk9_apply m c t h k).trans (congrFun (V_main_arg6 m c) _))
    (fun h => (iblk10_apply m c t h).trans (V_v8 m c h))
    (fun j k => (iblk11_apply m c t j k).trans (congrFun (V_main_arg8 m c) _))
    (fun j => (iblk12_apply m c t j).trans (V_v9 m c j))
    (fun l f h => (iblk13_apply m c t l f h).trans (V_v18 m c l f h))

/-- What point t writes back to the output array is block t of the output array's function. -/
theorem flushed_eq (hd : ∀ (l : Fin 3) (f f' : Fin 4) (k k' : Fin 2), f ≠ f' →
      (m ((c : Thread nD τ).loc main_arg10) : IVec S3x4x2 32) (ix3 l f k)
        ≠ (m ((c : Thread nD τ).loc main_arg10) : IVec S3x4x2 32) (ix3 l f' k'))
    (t : Fin cfg0.N) :
    (dats m 0 c).flushed 14 t = ((cfg0.win 14).blk t).view.read (Elt Ideal) (Gt m c) := by
  show (cfg0.win 14).cut (grid0.coords t) ((dats m 0 c).after 14 t) = _
  rw [after0_14]
  funext y
  have hy : y = (ix2 (⟨(y 0).val, (y 0).isLt⟩ : Fin 3) (⟨(y 1).val, (y 1).isLt⟩ : Fin 32768) : S3x32768.Idx) := by
    funext a; match a with | ⟨0, _⟩ => rfl | ⟨1, _⟩ => rfl
  rw [hy]
  exact out_block m c hd t _ _

/-- An index of the output array is in point t's block iff each coordinate is in the block's range on its axis. -/
theorem mem_blk (t : Fin cfg0.N) (i : S3x4194304.Idx) :
    i ∈ ((cfg0.win 14).blk t).view.set ↔ ∀ a : Fin 2, win0_14.index t a * S3x32768.size a ≤ (i a).val ∧ (i a).val < win0_14.index t a * S3x32768.size a + S3x32768.size a := by
  show i ∈ ((View.whole main_v19).slice (win0_14.rect t)).set ↔ _
  rw [View.set_slice_whole, Rect.mem_set_unit]
  exact Iff.rfl

/-- Every column p of the output array lies in the block of point p / 32768. -/
theorem cover (i : S3x4194304.Idx) :
    ∃ t : Fin cfg0.N, (cfg0.win 14).flush t = true ∧ i ∈ ((cfg0.win 14).blk t).view.set := by
  have h0 : (i 0).val < 3 := idx2_lt0 i
  have h1 : (i 1).val < 4194304 := idx2_lt1 i
  have hlt : (i 1).val / 32768 < cfg0.N := lt_of_lt_of_eq (show (i 1).val / 32768 < 128 by omega) N_0.symm
  refine ⟨⟨(i 1).val / 32768, hlt⟩, flush0_14 _, ?_⟩
  rw [mem_blk]
  have e0 : win0_14.index ⟨(i 1).val / 32768, hlt⟩ (0 : Fin 2) = 0 := (idx_facts ⟨(i 1).val / 32768, hlt⟩).2.2.2.2.2.2.2.2.1
  have e1 : win0_14.index ⟨(i 1).val / 32768, hlt⟩ (1 : Fin 2) = (i 1).val / 32768 := (idx_facts ⟨(i 1).val / 32768, hlt⟩).2.2.2.2.2.2.2.2.2
  intro a
  match a with
  | ⟨0, _⟩ =>
    show win0_14.index ⟨(i 1).val / 32768, hlt⟩ (0 : Fin 2) * 3 ≤ (i 0).val ∧ (i 0).val < win0_14.index ⟨(i 1).val / 32768, hlt⟩ (0 : Fin 2) * 3 + 3
    rw [e0]; omega
  | ⟨1, _⟩ =>
    show win0_14.index ⟨(i 1).val / 32768, hlt⟩ (1 : Fin 2) * 32768 ≤ (i 1).val ∧ (i 1).val < win0_14.index ⟨(i 1).val / 32768, hlt⟩ (1 : Fin 2) * 32768 + 32768
    rw [e1]; omega

/-- The output array after the region. -/
theorem final (hd : ∀ (l : Fin 3) (f f' : Fin 4) (k k' : Fin 2), f ≠ f' →
      (m ((c : Thread nD τ).loc main_arg10) : IVec S3x4x2 32) (ix3 l f k)
        ≠ (m ((c : Thread nD τ).loc main_arg10) : IVec S3x4x2 32) (ix3 l f' k')) :
    (dats m 0 c).arrAt 14 cfg0.N = Gt m c :=
  (dats m 0 c).arrAt_eq_of_cover 14 (Gt m c) (fun t _ => flushed_eq m c hd t) cover

/-- The transposed output array after the host operation that follows the region: the whole result, row by row. -/
theorem tail_v20 (hd : ∀ (l : Fin 3) (f f' : Fin 4) (k k' : Fin 2), f ≠ f' →
      (m ((c : Thread nD τ).loc main_arg10) : IVec S3x4x2 32) (ix3 l f k)
        ≠ (m ((c : Thread nD τ).loc main_arg10) : IVec S3x4x2 32) (ix3 l f' k')) :
    Pipeline.afterTail₀ cfgs (dats m) 0 (V0 m) [hostOps1] c main_v20
      = Cert.Cppn.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) := by
  unfold Pipeline.afterTail₀
  show StableHlo.after hostOps1 _ (Proc.devRef .tc main_v20) = _
  after_results
  have hv19 : Pipeline.withArrays (cfgs 0).spec c (V0 m c) (fun w => (dats m 0 c).arrAt w (cfgs 0).N) (Proc.devRef .tc main_v19)
      = Gt m c :=
    (Pipeline.withArrays_arr spec0 launch0.win.arr_inj c _ _ 14).trans (final m c hd)
  rw [hv19]
  funext i
  obtain ⟨n, j, rfl⟩ : ∃ (n : Fin 4194304) (j : Fin 3), i = ix2 n j := ⟨i 0, i 1, eq_ix2 i⟩
  rw [transpose_ix2_apply, Gt_ix2, Cert.Cppn.G_ix2]

end Run

/-- When no two groups of a layer share an entry, the kernel's program ends with its result at G of its arguments. -/
theorem run_G (m : (ℓ : Loc nD τ sig) → Buf (Elt Ideal) ℓ) (ρ : Dev nD → PrngReg)
    (hd : ∀ (c : Dev nD) (l : Fin 3) (f f' : Fin 4) (k k' : Fin 2), f ≠ f' →
      (m ((c.tc : Thread nD τ).loc main_arg10) : IVec S3x4x2 32) (ix3 l f k)
        ≠ (m ((c.tc : Thread nD τ).loc main_arg10) : IVec S3x4x2 32) (ix3 l f' k')) :
    θ_run (defs (F := Ideal)) (onTc (τ := τ) (main (F := Ideal))) ⟨m, fun _ => 0, ρ⟩ (fun r => ∀ c : Dev nD,
      r.2.mem ((c.tc : Thread nD τ).loc main_v20) = Cert.Cppn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v20 (Pipeline.mem_restRefs_of main_v20 (by decide) (by decide))).trans (Run.tail_v20 m c (hd c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 9).trans (((dats m 0 c).arrAt_in 9 rfl _).trans ((A_eq m c 9).trans (V_main_arg6 m c))),
      (((h c).2 main_arg7 (Pipeline.mem_restRefs_of main_arg7 (by decide) (by decide))).trans (W_main_arg7 m (dats m) c)),
      ((h c).1 11).trans (((dats m 0 c).arrAt_in 11 rfl _).trans ((A_eq m c 11).trans (V_main_arg8 m c))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.Cppn.Ker

end
-- ==== Proof.RefGroup.lean ====
/-
  One layer of the reference, read at an index.

  A layer takes the previous activations O and the pre-activations P, both [4194304, 8]. For each of four groups
  g : [2] of column indices it gathers P's columns g, applies the group's activation, and writes the two columns back
  into an array that starts at zero; the groups are written in order, so a column keeps the last group that names it.
  The result is added to O and halved. A negative entry e is first replaced by e + 8; with every entry in [0, 8)
  that step and the gather's clamp change nothing, and the write at column h happens exactly when an entry equals h.
-/
import proofs.«421476_j60232621359502_3_alg».proof.ReferenceIdeal
import proofs.«421476_j60232621359502_3_alg».proof.Proof.Spec
import Idealize.ShloMosaic.Lib.StableHlo.Predicate
import Idealize.ShloMosaic.PureOps.Ideal.Laws

noncomputable section

namespace Cert.Cppn.Ref

open Idealize.ShloMosaic Idealize.ShloMosaic.ValueIdx
open Cert.ReferenceIdeal

variable [Cert.ReferenceIdeal.Facts]
open Cert.ReferenceIdeal.Facts₀ Cert.ReferenceIdeal.Facts

/-! A left fold of single-point overwrites, and the set-scatter as such a fold. -/

/-- A left fold of single-point overwrites, read at one point. -/
private theorem foldl_overwrite {ι κ β : Type} (g : ι → Option κ) (U : ι → β) (step : (κ → β) → ι → (κ → β))
    (h_some : ∀ (r : κ → β) (n : ι) (i : κ), g n = some i → step r n i = U n ∧ ∀ i', i' ≠ i → step r n i' = r i')
    (h_none : ∀ (r : κ → β) (n : ι), g n = none → step r n = r)
    (i' : κ) (v : β) :
    ∀ (l : List ι) (x : κ → β), (∀ n ∈ l, g n = some i' → U n = v) →
      ((∃ n ∈ l, g n = some i') → l.foldl step x i' = v) ∧ ((∀ n ∈ l, g n ≠ some i') → l.foldl step x i' = x i') := by
  intro l
  induction l with
  | nil =>
    intro x _
    exact ⟨fun ⟨n, hn, _⟩ => absurd hn List.not_mem_nil, fun _ => rfl⟩
  | cons n l ih =>
    intro x hv
    have hvl : ∀ m ∈ l, g m = some i' → U m = v := fun m hm => hv m (List.mem_cons_of_mem _ hm)
    have ihx := ih (step x n) hvl
    rw [List.foldl_cons]
    constructor
    · intro hex
      by_cases hl : ∃ m ∈ l, g m = some i'
      · exact ihx.1 hl
      · have hmiss : ∀ m ∈ l, g m ≠ some i' := fun m hm hg => hl ⟨m, hm, hg⟩
        rw [ihx.2 hmiss]
        obtain ⟨m, hm, hg⟩ := hex
        rcases List.mem_cons.1 hm with rfl | hm'
        · rw [(h_some x m i' hg).1]; exact hv m List.mem_cons_self hg
        · exact absurd hg (hmiss m hm')
    · intro hall
      rw [ihx.2 (fun m hm => hall m (List.mem_cons_of_mem _ hm))]
      have hn : g n ≠ some i' := hall n List.mem_cons_self
      cases hgn : g n with
      | none => rw [h_none x n hgn]
      | some i => exact (h_some x n i hgn).2 i' (fun e => hn (by rw [hgn, e]))

/-- A set-scatter read at one point: the value every update landing there carries, when one lands there. -/
private theorem scatter_hit {α : Type} {s si u : Shape} {w : Nat} (d : ScatterDims s si u) (x : s.Idx → α) (idx : IVec si w)
    (upd : u.Idx → α) (i' : s.Idx) (v : α) (hv : ∀ j, d.resultIdx? j idx = some i' → upd j = v)
    (hex : ∃ j, d.resultIdx? j idx = some i') :
    Host.scatter d (fun _ b => b) x idx upd i' = v := by
  unfold Host.scatter
  refine ((foldl_overwrite (fun n => d.resultIdx? (u.rowMajor.symm n) idx) (fun n => upd (u.rowMajor.symm n)) _ ?_ ?_ i' v
    (List.finRange u.numel) x (fun n _ hn => hv _ hn)).1 ?_)
  · intro r n i hg
    simp only [hg]
    exact ⟨if_pos trivial, fun i'' hne => if_neg hne⟩
  · intro r n hg
    simp only [hg]
  · obtain ⟨j, hj⟩ := hex
    exact ⟨u.rowMajor j, List.mem_finRange _, by simpa using hj⟩

/-- A set-scatter read at a point no update lands at: the operand there. -/
private theorem scatter_miss {α : Type} {s si u : Shape} {w : Nat} (d : ScatterDims s si u) (x : s.Idx → α) (idx : IVec si w)
    (upd : u.Idx → α) (i' : s.Idx) (hno : ∀ j, d.resultIdx? j idx ≠ some i') :
    Host.scatter d (fun _ b => b) x idx upd i' = x i' := by
  unfold Host.scatter
  refine ((foldl_overwrite (fun n => d.resultIdx? (u.rowMajor.symm n) idx) (fun n => upd (u.rowMajor.symm n)) _ ?_ ?_ i' (x i')
    (List.finRange u.numel) x (fun n _ hn => absurd hn (hno _))).2 ?_)
  · intro r n i hg
    simp only [hg]
    exact ⟨if_pos trivial, fun i'' hne => if_neg hne⟩
  · intro r n hg
    simp only [hg]
  · exact fun n _ => hno _

/-- A group's start indices as the gather and the scatter take them: negative entries moved up by 8, one per row. -/
abbrev nidx (g : IVec S2 32) : IVec S2x1 32 :=
  broadcastInDim S2x1 ![0] bcast_S2_S2x1_0 (select (cmpi .slt g (broadcastInDim S2 ![] bcast_S_S2 (constantI S_ 32 0#32))) (addi g (broadcastInDim S2 ![] bcast_S_S2 (constantI S_ 32 8#32))) g)

/-- The two columns of P a group names. -/
abbrev gat (P : FVec Ideal S4194304x8 .f32) (g : IVec S2 32) : FVec Ideal S4194304x2 .f32 :=
  Host.gather gather_S4194304x8_S2x1_S4194304x2_0_1_n_n_1_1_41943041 P (nidx g)

/-- X with the two columns a group names overwritten by U's. -/
abbrev put (X : FVec Ideal S4194304x8 .f32) (g : IVec S2 32) (U : FVec Ideal S4194304x2 .f32) : FVec Ideal S4194304x8 .f32 :=
  Host.scatter scatter_S4194304x8_S2x1_S4194304x2_0_1_1_1 (fun _ b => b) X (nidx g) U

/-- A whole layer, in the program's own spelling. -/
abbrev layer (O P : FVec Ideal S4194304x8 .f32) (g0 g1 g2 g3 : IVec S2 32) : FVec Ideal S4194304x8 .f32 :=
  mulf (addf (put (put (put (put (broadcastInDim S4194304x8 ![] bcast_S_S4194304x8 (constant S_ .f32 0x00000000#32)) g0 (Host.sin (gat P g0))) g1 (mulf (broadcastInDim S4194304x2 ![] bcast_S_S4194304x2 (constant S_ .f32 0x3ECC422A#32)) (Host.exp (mulf (mulf (broadcastInDim S4194304x2 ![] bcast_S_S4194304x2 (constant S_ .f32 0xBF000000#32)) (gat P g1)) (gat P g1))))) g2 (Host.tanh (gat P g2))) g3 (gat P g3)) O) (broadcastInDim S4194304x8 ![] bcast_S_S4194304x8 (constant S_ .f32 0x3F000000#32))

/-! The start indices, the scatter's landing point and the gather's reading point for this program's records. -/

/-- A vector laid out as a column reads, at row k, its entry k. -/
private theorem bcast_col_apply {α : Type} (x : S2.Idx → α) (k : Fin 2) :
    broadcastInDim S2x1 ![0] bcast_S2_S2x1_0 x (ix2 k (0 : Fin 1)) = x (ix1 k) := by
  unfold broadcastInDim
  congr 1
  funext a
  obtain rfl : a = 0 := Subsingleton.elim _ _
  rfl

/-- With the entry in [0, 8) the move of negative entries changes nothing. -/
private theorem nidx_apply (g : IVec S2 32) (k : Fin 2) (hk : (g (ix1 k)).toNat < 8) : nidx g (ix2 k (0 : Fin 1)) = g (ix1 k) := by
  refine (bcast_col_apply _ k).trans ?_
  show Scalar.select (IntOp.cmpi .slt (g (ix1 k)) 0#32) (IntOp.addi (g (ix1 k)) 8#32) (g (ix1 k)) = g (ix1 k)
  have h0 : ¬ IntOp.cmpi .slt (g (ix1 k)) 0#32 = 1#1 := by
    rw [StableHlo.Predicate.slt_iff_toNat (by omega) (by decide)]
    exact Nat.not_lt_zero _
  exact if_neg h0

/-! The scatter's record: update (n, k) lands at (n, e) with e the start index of row k read signed, when 0 ≤ e < 8. -/

private theorem sd_siIdx (j : S4194304x2.Idx) (c : Fin scatter_S4194304x8_S2x1_S4194304x2_0_1_1_1.scatterDimsToOperandDims.length) :
    scatter_S4194304x8_S2x1_S4194304x2_0_1_1_1.siIdx j c = ix2 (j 1) (0 : Fin 1) := by
  funext b
  match b with
  | ⟨0, _⟩ => rfl
  | ⟨1, _⟩ => exact Fin.ext (by have := c.isLt; change c.val < 1 at this; show c.val = 0; omega)

private theorem sd_start0 (j : S4194304x2.Idx) (idx : IVec S2x1 32) :
    scatter_S4194304x8_S2x1_S4194304x2_0_1_1_1.start j idx 0 = 0 := by
  unfold ScatterDims.start
  rw [dif_neg (show (0 : Fin 2) ∉ scatter_S4194304x8_S2x1_S4194304x2_0_1_1_1.scatterDimsToOperandDims from
    (by decide : (0 : Fin 2) ∉ ([1] : List (Fin 2))))]

private theorem sd_start1 (j : S4194304x2.Idx) (idx : IVec S2x1 32) :
    scatter_S4194304x8_S2x1_S4194304x2_0_1_1_1.start j idx 1 = (idx (ix2 (j 1) (0 : Fin 1))).toInt := by
  unfold ScatterDims.start
  rw [dif_pos (show (1 : Fin 2) ∈ scatter_S4194304x8_S2x1_S4194304x2_0_1_1_1.scatterDimsToOperandDims from
    (List.mem_singleton.mpr rfl : (1 : Fin 2) ∈ ([1] : List (Fin 2)))), sd_siIdx]
  rfl

private theorem sd_window0 (j : S4194304x2.Idx) : scatter_S4194304x8_S2x1_S4194304x2_0_1_1_1.window j 0 = (j 0).val := by
  unfold ScatterDims.window
  rw [dif_pos (show (0 : Fin 2) ∈ scatter_S4194304x8_S2x1_S4194304x2_0_1_1_1.sKept from
    (by decide : (0 : Fin S4194304x8.rank) ∈ S4194304x8.kept ([1] : List (Fin S4194304x8.rank))))]
  rfl

private theorem sd_window1 (j : S4194304x2.Idx) : scatter_S4194304x8_S2x1_S4194304x2_0_1_1_1.window j 1 = 0 := by
  unfold ScatterDims.window
  rw [dif_neg (show (1 : Fin 2) ∉ scatter_S4194304x8_S2x1_S4194304x2_0_1_1_1.sKept from
    (by decide : (1 : Fin S4194304x8.rank) ∉ S4194304x8.kept ([1] : List (Fin S4194304x8.rank))))]

/-- Update (n, k) of the scatter lands at (n, c) when row k's start index, read signed, is c in [0, 8). -/
private theorem sd_resultIdx (idx : IVec S2x1 32) (n : Fin 4194304) (k : Fin 2) (c : Fin 8)
    (hc : (idx (ix2 k (0 : Fin 1))).toInt = (c.val : Int)) :
    scatter_S4194304x8_S2x1_S4194304x2_0_1_1_1.resultIdx? (ix2 n k) idx = some (ix2 n c) := by
  have e0 : scatter_S4194304x8_S2x1_S4194304x2_0_1_1_1.start (ix2 n k) idx 0
      + (scatter_S4194304x8_S2x1_S4194304x2_0_1_1_1.window (ix2 n k) 0 : Int) = (n.val : Int) := by
    rw [sd_start0, sd_window0]; simp
  have e1 : scatter_S4194304x8_S2x1_S4194304x2_0_1_1_1.start (ix2 n k) idx 1
      + (scatter_S4194304x8_S2x1_S4194304x2_0_1_1_1.window (ix2 n k) 1 : Int) = (c.val : Int) := by
    rw [sd_start1, sd_window1]; simp [hc]
  have key : ∀ a : Fin S4194304x8.rank, scatter_S4194304x8_S2x1_S4194304x2_0_1_1_1.start (ix2 n k) idx a
      + (scatter_S4194304x8_S2x1_S4194304x2_0_1_1_1.window (ix2 n k) a : Int) = (((ix2 n c : S4194304x8.Idx) a).val : Int) := by
    intro a
    match a with
    | ⟨0, _⟩ => exact e0
    | ⟨1, _⟩ => exact e1
  unfold ScatterDims.resultIdx?
  rw [dif_pos (fun a => by
    rw [key a]
    exact ⟨Int.natCast_nonneg _, by exact_mod_cast ((ix2 n c : S4194304x8.Idx) a).isLt⟩)]
  congr 1
  funext a
  apply Fin.ext
  show (_ + _ : Int).toNat = _
  rw [key a]
  simp

/-! The gather's record: result (n, k) reads the operand at (n, e), e the start index of row k read signed and clamped into [0, 7]. -/

private theorem gd_siIdx (j : S4194304x2.Idx) (c : Fin gather_S4194304x8_S2x1_S4194304x2_0_1_n_n_1_1_41943041.startIndexMap.length) :
    gather_S4194304x8_S2x1_S4194304x2_0_1_n_n_1_1_41943041.siIdx j c = ix2 (j 1) (0 : Fin 1) := by
  funext b
  match b with
  | ⟨0, _⟩ => rfl
  | ⟨1, _⟩ => exact Fin.ext (by have := c.isLt; change c.val < 1 at this; show c.val = 0; omega)

private theorem gd_operandIdx (idx : IVec S2x1 32) (n : Fin 4194304) (k : Fin 2) :
    gather_S4194304x8_S2x1_S4194304x2_0_1_n_n_1_1_41943041.operandIdx (ix2 n k) idx
      = ix2 n (⟨min (idx (ix2 k (0 : Fin 1))).toInt.toNat 7, by omega⟩ : Fin 8) := by
  funext a
  match a with
  | ⟨0, _⟩ =>
    apply Fin.ext
    show gather_S4194304x8_S2x1_S4194304x2_0_1_n_n_1_1_41943041.start (ix2 n k) idx 0
      + gather_S4194304x8_S2x1_S4194304x2_0_1_n_n_1_1_41943041.batchCoord (ix2 n k) 0
      + gather_S4194304x8_S2x1_S4194304x2_0_1_n_n_1_1_41943041.offCoord (ix2 n k) 0 = n.val
    rw [GatherDims.batchCoord_eq_zero _ _ _ (show (0 : Fin 2) ∉ gather_S4194304x8_S2x1_S4194304x2_0_1_n_n_1_1_41943041.operandBatchingDims from List.not_mem_nil)]
    unfold GatherDims.start GatherDims.offCoord
    rw [dif_neg (show (0 : Fin 2) ∉ gather_S4194304x8_S2x1_S4194304x2_0_1_n_n_1_1_41943041.startIndexMap from
        (by decide : (0 : Fin 2) ∉ ([1] : List (Fin 2)))),
      dif_pos (show (0 : Fin 2) ∈ gather_S4194304x8_S2x1_S4194304x2_0_1_n_n_1_1_41943041.sKept from
        (by decide : (0 : Fin S4194304x8.rank) ∈ S4194304x8.kept (([1] : List (Fin S4194304x8.rank)) ++ [])))]
    show 0 + 0 + n.val = n.val
    omega
  | ⟨1, _⟩ =>
    apply Fin.ext
    show gather_S4194304x8_S2x1_S4194304x2_0_1_n_n_1_1_41943041.start (ix2 n k) idx 1
      + gather_S4194304x8_S2x1_S4194304x2_0_1_n_n_1_1_41943041.batchCoord (ix2 n k) 1
      + gather_S4194304x8_S2x1_S4194304x2_0_1_n_n_1_1_41943041.offCoord (ix2 n k) 1 = min (idx (ix2 k (0 : Fin 1))).toInt.toNat 7
    rw [GatherDims.batchCoord_eq_zero _ _ _ (show (1 : Fin 2) ∉ gather_S4194304x8_S2x1_S4194304x2_0_1_n_n_1_1_41943041.operandBatchingDims from List.not_mem_nil),
      GatherDims.offCoord_eq_zero _ _ _ (show (1 : Fin 2) ∉ gather_S4194304x8_S2x1_S4194304x2_0_1_n_n_1_1_41943041.sKept from
        (by decide : (1 : Fin S4194304x8.rank) ∉ S4194304x8.kept (([1] : List (Fin S4194304x8.rank)) ++ [])))]
    unfold GatherDims.start
    rw [dif_pos (show (1 : Fin 2) ∈ gather_S4194304x8_S2x1_S4194304x2_0_1_n_n_1_1_41943041.startIndexMap from
        (List.mem_singleton.mpr rfl : (1 : Fin 2) ∈ ([1] : List (Fin 2)))), gd_siIdx]
    rfl

/-- With the entry in [0, 8) the gather reads the column the entry names. -/
private theorem gat_apply (P : FVec Ideal S4194304x8 .f32) (g : IVec S2 32) (n : Fin 4194304) (k : Fin 2) (hk : (g (ix1 k)).toNat < 8) :
    gat P g (ix2 n k) = P (ix2 n (⟨(g (ix1 k)).toNat, hk⟩ : Fin 8)) := by
  show P (gather_S4194304x8_S2x1_S4194304x2_0_1_n_n_1_1_41943041.operandIdx (ix2 n k) (nidx g)) = _
  rw [gd_operandIdx]
  have e : (⟨min (nidx g (ix2 k (0 : Fin 1))).toInt.toNat 7, by omega⟩ : Fin 8) = ⟨(g (ix1 k)).toNat, hk⟩ := by
    apply Fin.ext
    show min (nidx g (ix2 k (0 : Fin 1))).toInt.toNat 7 = (g (ix1 k)).toNat
    rw [nidx_apply g k hk, StableHlo.Predicate.toInt_eq_toNat_of_lt (by omega), Int.toNat_natCast]
    omega
  rw [e]

/-- Two rank-2 indices agree only when their coordinates do. -/
private theorem ix2_inj {n0 n1 : Nat} {a a' : Fin n0} {b b' : Fin n1} (e : (ix2 a b : (⟨2, ![n0, n1]⟩ : Shape).Idx) = ix2 a' b') :
    a = a' ∧ b = b' := ⟨congrFun e 0, congrFun e 1⟩

/-- A word below 8 is the word of h exactly when its value is h. -/
private theorem eq_ofNat_iff (w : BitVec 32) (h : Fin 8) : w = BitVec.ofNat 32 h.val ↔ w.toNat = h.val := by
  have hh := h.isLt
  constructor
  · intro e; rw [e, BitVec.toNat_ofNat]; omega
  · intro e; apply BitVec.eq_of_toNat_eq; rw [BitVec.toNat_ofNat, e]; omega

/-- One group written into X, read at (n, h): the value v every update landing there carries when the group names h,
    else X. -/
private theorem put_apply (X : FVec Ideal S4194304x8 .f32) (g : IVec S2 32) (U : FVec Ideal S4194304x2 .f32)
    (hg : ∀ k : Fin 2, (g (ix1 k)).toNat < 8) (n : Fin 4194304) (h : Fin 8) (v : EReal)
    (hv : ∀ k : Fin 2, g (ix1 k) = BitVec.ofNat 32 h.val → U (ix2 n k) = v) :
    put X g U (ix2 n h) = if Cert.Cppn.inGroup (fun k => g (ix1 k)) h then v else X (ix2 n h) := by
  have hres : ∀ (n' : Fin 4194304) (k : Fin 2),
      scatter_S4194304x8_S2x1_S4194304x2_0_1_1_1.resultIdx? (ix2 n' k) (nidx g)
        = some (ix2 n' (⟨(g (ix1 k)).toNat, hg k⟩ : Fin 8)) := fun n' k =>
    sd_resultIdx _ n' k _ (by
      rw [nidx_apply g k (hg k), StableHlo.Predicate.toInt_eq_toNat_of_lt (by have := hg k; omega)])
  by_cases hin : Cert.Cppn.inGroup (fun k => g (ix1 k)) h
  · rw [if_pos hin]
    obtain ⟨k, hk⟩ := hin
    refine scatter_hit _ X (nidx g) U (ix2 n h) v ?_ ⟨ix2 n k, ?_⟩
    · intro j hj
      obtain ⟨a, b, rfl⟩ : ∃ a b, j = ix2 a b := ⟨j 0, j 1, eq_ix2 j⟩
      rw [hres] at hj
      obtain ⟨e0, e1⟩ := ix2_inj (Option.some.inj hj)
      subst e0
      exact hv b ((eq_ofNat_iff _ h).2 (congrArg Fin.val e1))
    · rw [hres]
      exact congrArg some (congrArg (ix2 n) (Fin.ext ((eq_ofNat_iff _ h).1 hk)))
  · rw [if_neg hin]
    refine scatter_miss _ X (nidx g) U (ix2 n h) ?_
    intro j hj
    obtain ⟨a, b, rfl⟩ : ∃ a b, j = ix2 a b := ⟨j 0, j 1, eq_ix2 j⟩
    rw [hres] at hj
    obtain ⟨e0, e1⟩ := ix2_inj (Option.some.inj hj)
    exact hin ⟨b, (eq_ofNat_iff _ h).2 (congrArg Fin.val e1)⟩

/-- The gathered column of an entry equal to h is P's column h. -/
private theorem gat_hit (P : FVec Ideal S4194304x8 .f32) (g : IVec S2 32) (n : Fin 4194304) (k : Fin 2) (h : Fin 8)
    (hk : g (ix1 k) = BitVec.ofNat 32 h.val) : gat P g (ix2 n k) = P (ix2 n h) := by
  have e := (eq_ofNat_iff _ h).1 hk
  rw [gat_apply P g n k (by rw [e]; exact h.isLt)]
  exact congrArg P (congrArg (ix2 n) (Fin.ext e))

/-- Four groups written in order into X, read at (n, h): the last group naming h decides. -/
private theorem put4_apply (X : FVec Ideal S4194304x8 .f32) (g0 g1 g2 g3 : IVec S2 32) (U0 U1 U2 U3 : FVec Ideal S4194304x2 .f32)
    (h0 : ∀ k : Fin 2, (g0 (ix1 k)).toNat < 8) (h1 : ∀ k : Fin 2, (g1 (ix1 k)).toNat < 8)
    (h2 : ∀ k : Fin 2, (g2 (ix1 k)).toNat < 8) (h3 : ∀ k : Fin 2, (g3 (ix1 k)).toNat < 8)
    (n : Fin 4194304) (h : Fin 8) (v0 v1 v2 v3 : EReal)
    (hv0 : ∀ k : Fin 2, g0 (ix1 k) = BitVec.ofNat 32 h.val → U0 (ix2 n k) = v0)
    (hv1 : ∀ k : Fin 2, g1 (ix1 k) = BitVec.ofNat 32 h.val → U1 (ix2 n k) = v1)
    (hv2 : ∀ k : Fin 2, g2 (ix1 k) = BitVec.ofNat 32 h.val → U2 (ix2 n k) = v2)
    (hv3 : ∀ k : Fin 2, g3 (ix1 k) = BitVec.ofNat 32 h.val → U3 (ix2 n k) = v3) :
    put (put (put (put X g0 U0) g1 U1) g2 U2) g3 U3 (ix2 n h)
      = if Cert.Cppn.inGroup (fun k => g3 (ix1 k)) h then v3
        else if Cert.Cppn.inGroup (fun k => g2 (ix1 k)) h then v2
        else if Cert.Cppn.inGroup (fun k => g1 (ix1 k)) h then v1
        else if Cert.Cppn.inGroup (fun k => g0 (ix1 k)) h then v0 else X (ix2 n h) :=
  (put_apply (put (put (put X g0 U0) g1 U1) g2 U2) g3 U3 h3 n h v3 hv3).trans
    (congrArg (fun t => if Cert.Cppn.inGroup (fun k => g3 (ix1 k)) h then v3 else t)
      ((put_apply (put (put X g0 U0) g1 U1) g2 U2 h2 n h v2 hv2).trans
        (congrArg (fun t => if Cert.Cppn.inGroup (fun k => g2 (ix1 k)) h then v2 else t)
          ((put_apply (put X g0 U0) g1 U1 h1 n h v1 hv1).trans
            (congrArg (fun t => if Cert.Cppn.inGroup (fun k => g1 (ix1 k)) h then v1 else t)
              (put_apply X g0 U0 h0 n h v0 hv0))))))

/-- The sum with O, halved, read at an index. -/
private theorem halve_apply (A O : FVec Ideal S4194304x8 .f32) (i : S4194304x8.Idx) :
    mulf (addf A O) (broadcastInDim S4194304x8 ![] bcast_S_S4194304x8 (constant S_ .f32 0x3F000000#32)) i
      = (A i + O i) * Cert.Cppn.cHalf := rfl

/-- A layer at row n, column h: the activation of the last group holding h (zero if none) plus O, halved. -/
theorem layer_apply (O P : FVec Ideal S4194304x8 .f32) (g0 g1 g2 g3 : IVec S2 32)
    (hr : ∀ (f : Fin 4) (k : Fin 2), ((![g0, g1, g2, g3] f) (ix1 k)).toNat < 8) (n : Fin 4194304) (h : Fin 8) :
    layer O P g0 g1 g2 g3 (ix2 n h)
      = (Cert.Cppn.pick (fun f k => (![g0, g1, g2, g3] f) (ix1 k)) h (P (ix2 n h)) + O (ix2 n h)) * Cert.Cppn.cHalf := by
  have h0 : ∀ k : Fin 2, (g0 (ix1 k)).toNat < 8 := hr 0
  have h1 : ∀ k : Fin 2, (g1 (ix1 k)).toNat < 8 := hr 1
  have h2 : ∀ k : Fin 2, (g2 (ix1 k)).toNat < 8 := hr 2
  have h3 : ∀ k : Fin 2, (g3 (ix1 k)).toNat < 8 := hr 3
  have hv0 : ∀ k : Fin 2, g0 (ix1 k) = BitVec.ofNat 32 h.val →
      Host.sin (gat P g0) (ix2 n k) = Cert.Cppn.act 0 (P (ix2 n h)) := fun k hk =>
    congrArg Ideal.sin (gat_hit P g0 n k h hk)
  have hv2 : ∀ k : Fin 2, g2 (ix1 k) = BitVec.ofNat 32 h.val →
      Host.tanh (gat P g2) (ix2 n k) = Cert.Cppn.act 2 (P (ix2 n h)) := fun k hk =>
    congrArg Ideal.tanh (gat_hit P g2 n k h hk)
  have hv3 : ∀ k : Fin 2, g3 (ix1 k) = BitVec.ofNat 32 h.val →
      gat P g3 (ix2 n k) = Cert.Cppn.act 3 (P (ix2 n h)) := fun k hk => gat_hit P g3 n k h hk
  have hv1 : ∀ k : Fin 2, g1 (ix1 k) = BitVec.ofNat 32 h.val →
      mulf (broadcastInDim S4194304x2 ![] bcast_S_S4194304x2 (constant S_ .f32 0x3ECC422A#32)) (Host.exp (mulf (mulf (broadcastInDim S4194304x2 ![] bcast_S_S4194304x2 (constant S_ .f32 0xBF000000#32)) (gat P g1)) (gat P g1))) (ix2 n k)
        = Cert.Cppn.act 1 (P (ix2 n h)) := fun k hk =>
    congrArg (fun p => Cert.Cppn.cGauss * Ideal.exp ((Cert.Cppn.cNegHalf * p) * p)) (gat_hit P g1 n k h hk)
  have key := put4_apply (broadcastInDim S4194304x8 ![] bcast_S_S4194304x8 (constant S_ .f32 0x00000000#32)) g0 g1 g2 g3
    (Host.sin (gat P g0))
    (mulf (broadcastInDim S4194304x2 ![] bcast_S_S4194304x2 (constant S_ .f32 0x3ECC422A#32)) (Host.exp (mulf (mulf (broadcastInDim S4194304x2 ![] bcast_S_S4194304x2 (constant S_ .f32 0xBF000000#32)) (gat P g1)) (gat P g1))))
    (Host.tanh (gat P g2)) (gat P g3) h0 h1 h2 h3 n h _ _ _ _ hv0 hv1 hv2 hv3
  have hz : broadcastInDim S4194304x8 ![] bcast_S_S4194304x8 (constant (F := Ideal) S_ .f32 0x00000000#32) (ix2 n h) = 0 :=
    Ideal.ofBits_zero_f32
  rw [hz] at key
  have hpick : Cert.Cppn.pick (fun f k => (![g0, g1, g2, g3] f) (ix1 k)) h (P (ix2 n h))
      = if Cert.Cppn.inGroup (fun k => g3 (ix1 k)) h then Cert.Cppn.act 3 (P (ix2 n h))
        else if Cert.Cppn.inGroup (fun k => g2 (ix1 k)) h then Cert.Cppn.act 2 (P (ix2 n h))
        else if Cert.Cppn.inGroup (fun k => g1 (ix1 k)) h then Cert.Cppn.act 1 (P (ix2 n h))
        else if Cert.Cppn.inGroup (fun k => g0 (ix1 k)) h then Cert.Cppn.act 0 (P (ix2 n h)) else 0 := rfl
  rw [hpick, ← key]
  exact halve_apply _ O (ix2 n h)

end Cert.Cppn.Ref

end
-- ==== Proof.RefRun.lean ====
/-
  The idealized reference's run, read as one function of the argument arrays: when every entry of the group table is
  a column index, every weakly fair execution ends with the result array holding the row function of the arguments.

  The run's result is a composed term of the argument arrays. It is read at row n, output j, from the outside in:
  the head is the logistic of a product with the transposed output weights plus a bias row; under it stand three
  layers, each a product of the previous layer's rows with the transposed weights plus a bias row, passed through the
  four groups' activations, added to the layer's input and halved; at the bottom layer 0, a product of the joined
  inputs (the motion entries over ten, then x, y, r) with the transposed input weights plus a bias row. Each product
  is a finite sum over its one contracted axis; a transpose swaps the two coordinates; a bias row broadcast over the
  rows reads its own entry; the joined array reads the piece its column falls in; a slice of the group table reads
  the table's entry. With these reads each array's row n is the row function's value, layer by layer.
-/
import proofs.«421476_j60232621359502_3_alg».proof.Proof.Gen.ReferenceIdeal.Run
import proofs.«421476_j60232621359502_3_alg».proof.Proof.Spec
import proofs.«421476_j60232621359502_3_alg».proof.Proof.RefGroup
import Idealize.ShloMosaic.PureOps.Ideal.Laws
import Idealize.ShloMosaic.Lib.Pipeline.Value
import Idealize.ShloMosaic.Lib.ValueLayout

noncomputable section

namespace Cert.Cppn.Ref

open Idealize.ShloMosaic Idealize.ShloMosaic.TcCoe Idealize.SL.Sem Idealize.ShloMosaic.ValueIdx
open Cert.ReferenceIdeal Cert.ReferenceIdeal.Gen

/-! ### The three products read at an index -/

private theorem lhs11_0 (j : S4194304x8.Idx) (k : dot_S4194304x11_S11x8_S4194304x8_1_0_0_1_n_n.contr.Idx) :
    ((dot_S4194304x11_S11x8_S4194304x8_1_0_0_1_n_n.lhsIdx j k) 0).val = (j 0).val := by
  unfold DotDims.lhsIdx
  rw [dif_neg (show ¬(0 : Fin S4194304x11.rank) ∈ dot_S4194304x11_S11x8_S4194304x8_1_0_0_1_n_n.lhsBatch by decide),
    dif_pos (show (0 : Fin S4194304x11.rank) ∈ dot_S4194304x11_S11x8_S4194304x8_1_0_0_1_n_n.lhsNonContracting by decide)]
  rfl

private theorem lhs11_1 (j : S4194304x8.Idx) (k : dot_S4194304x11_S11x8_S4194304x8_1_0_0_1_n_n.contr.Idx) :
    ((dot_S4194304x11_S11x8_S4194304x8_1_0_0_1_n_n.lhsIdx j k) 1).val = (k ⟨0, by decide⟩).val :=
  dot_S4194304x11_S11x8_S4194304x8_1_0_0_1_n_n.lhsIdx_val_of_single rfl j k

private theorem rhs11_0 (j : S4194304x8.Idx) (k : dot_S4194304x11_S11x8_S4194304x8_1_0_0_1_n_n.contr.Idx) :
    ((dot_S4194304x11_S11x8_S4194304x8_1_0_0_1_n_n.rhsIdx j k) 0).val = (k ⟨0, by decide⟩).val :=
  dot_S4194304x11_S11x8_S4194304x8_1_0_0_1_n_n.rhsIdx_val_of_single rfl j k

private theorem rhs11_1 (j : S4194304x8.Idx) (k : dot_S4194304x11_S11x8_S4194304x8_1_0_0_1_n_n.contr.Idx) :
    ((dot_S4194304x11_S11x8_S4194304x8_1_0_0_1_n_n.rhsIdx j k) 1).val = (j 1).val := by
  unfold DotDims.rhsIdx
  rw [dif_neg (show ¬(1 : Fin S11x8.rank) ∈ dot_S4194304x11_S11x8_S4194304x8_1_0_0_1_n_n.rhsBatch by decide),
    dif_pos (show (1 : Fin S11x8.rank) ∈ dot_S4194304x11_S11x8_S4194304x8_1_0_0_1_n_n.rhsNonContracting by decide)]
  rfl

/-- The product at row n, column h: the sum over the contracted axis. -/
private theorem dot11_apply (X : FVec Ideal S4194304x11 .f32) (W : FVec Ideal S11x8 .f32) (n : Fin 4194304) (h : Fin 8) :
    Host.dotGeneral (F := Ideal) dot_S4194304x11_S11x8_S4194304x8_1_0_0_1_n_n none X W (ix2 n h)
      = ∑ k : Fin 11, X (ix2 n k) * W (ix2 k h) := by
  show FloatOps.dotGeneral _ none .single X W (ix2 n h) = _
  rw [Ideal.dotGeneral_apply, ← Equiv.sum_comp (contrEquiv1 dot_S4194304x11_S11x8_S4194304x8_1_0_0_1_n_n 11 rfl rfl).symm]
  refine Finset.sum_congr rfl fun k _ => ?_
  have hk := contrEquiv1_symm_val dot_S4194304x11_S11x8_S4194304x8_1_0_0_1_n_n 11 rfl rfl k
  congr 2
  · funext a
    refine Fin.ext ?_
    match a with
    | ⟨0, _⟩ => exact lhs11_0 _ _
    | ⟨1, _⟩ => exact (lhs11_1 _ _).trans hk
  · funext a
    refine Fin.ext ?_
    match a with
    | ⟨0, _⟩ => exact (rhs11_0 _ _).trans hk
    | ⟨1, _⟩ => exact rhs11_1 _ _

private theorem lhs8_0 (j : S4194304x8.Idx) (k : dot_S4194304x8_S8x8_S4194304x8_1_0_0_1_n_n.contr.Idx) :
    ((dot_S4194304x8_S8x8_S4194304x8_1_0_0_1_n_n.lhsIdx j k) 0).val = (j 0).val := by
  unfold DotDims.lhsIdx
  rw [dif_neg (show ¬(0 : Fin S4194304x8.rank) ∈ dot_S4194304x8_S8x8_S4194304x8_1_0_0_1_n_n.lhsBatch by decide),
    dif_pos (show (0 : Fin S4194304x8.rank) ∈ dot_S4194304x8_S8x8_S4194304x8_1_0_0_1_n_n.lhsNonContracting by decide)]
  rfl

private theorem lhs8_1 (j : S4194304x8.Idx) (k : dot_S4194304x8_S8x8_S4194304x8_1_0_0_1_n_n.contr.Idx) :
    ((dot_S4194304x8_S8x8_S4194304x8_1_0_0_1_n_n.lhsIdx j k) 1).val = (k ⟨0, by decide⟩).val :=
  dot_S4194304x8_S8x8_S4194304x8_1_0_0_1_n_n.lhsIdx_val_of_single rfl j k

private theorem rhs8_0 (j : S4194304x8.Idx) (k : dot_S4194304x8_S8x8_S4194304x8_1_0_0_1_n_n.contr.Idx) :
    ((dot_S4194304x8_S8x8_S4194304x8_1_0_0_1_n_n.rhsIdx j k) 0).val = (k ⟨0, by decide⟩).val :=
  dot_S4194304x8_S8x8_S4194304x8_1_0_0_1_n_n.rhsIdx_val_of_single rfl j k

private theorem rhs8_1 (j : S4194304x8.Idx) (k : dot_S4194304x8_S8x8_S4194304x8_1_0_0_1_n_n.contr.Idx) :
    ((dot_S4194304x8_S8x8_S4194304x8_1_0_0_1_n_n.rhsIdx j k) 1).val = (j 1).val := by
  unfold DotDims.rhsIdx
  rw [dif_neg (show ¬(1 : Fin S8x8.rank) ∈ dot_S4194304x8_S8x8_S4194304x8_1_0_0_1_n_n.rhsBatch by decide),
    dif_pos (show (1 : Fin S8x8.rank) ∈ dot_S4194304x8_S8x8_S4194304x8_1_0_0_1_n_n.rhsNonContracting by decide)]
  rfl

/-- The product at row n, column h: the sum over the contracted axis. -/
private theorem dot8_apply (X : FVec Ideal S4194304x8 .f32) (W : FVec Ideal S8x8 .f32) (n : Fin 4194304) (h : Fin 8) :
    Host.dotGeneral (F := Ideal) dot_S4194304x8_S8x8_S4194304x8_1_0_0_1_n_n none X W (ix2 n h)
      = ∑ k : Fin 8, X (ix2 n k) * W (ix2 k h) := by
  show FloatOps.dotGeneral _ none .single X W (ix2 n h) = _
  rw [Ideal.dotGeneral_apply, ← Equiv.sum_comp (contrEquiv1 dot_S4194304x8_S8x8_S4194304x8_1_0_0_1_n_n 8 rfl rfl).symm]
  refine Finset.sum_congr rfl fun k _ => ?_
  have hk := contrEquiv1_symm_val dot_S4194304x8_S8x8_S4194304x8_1_0_0_1_n_n 8 rfl rfl k
  congr 2
  · funext a
    refine Fin.ext ?_
    match a with
    | ⟨0, _⟩ => exact lhs8_0 _ _
    | ⟨1, _⟩ => exact (lhs8_1 _ _).trans hk
  · funext a
    refine Fin.ext ?_
    match a with
    | ⟨0, _⟩ => exact (rhs8_0 _ _).trans hk
    | ⟨1, _⟩ => exact rhs8_1 _ _

private theorem lhs3_0 (j : S4194304x3.Idx) (k : dot_S4194304x8_S8x3_S4194304x3_1_0_0_1_n_n.contr.Idx) :
    ((dot_S4194304x8_S8x3_S4194304x3_1_0_0_1_n_n.lhsIdx j k) 0).val = (j 0).val := by
  unfold DotDims.lhsIdx
  rw [dif_neg (show ¬(0 : Fin S4194304x8.rank) ∈ dot_S4194304x8_S8x3_S4194304x3_1_0_0_1_n_n.lhsBatch by decide),
    dif_pos (show (0 : Fin S4194304x8.rank) ∈ dot_S4194304x8_S8x3_S4194304x3_1_0_0_1_n_n.lhsNonContracting by decide)]
  rfl

private theorem lhs3_1 (j : S4194304x3.Idx) (k : dot_S4194304x8_S8x3_S4194304x3_1_0_0_1_n_n.contr.Idx) :
    ((dot_S4194304x8_S8x3_S4194304x3_1_0_0_1_n_n.lhsIdx j k) 1).val = (k ⟨0, by decide⟩).val :=
  dot_S4194304x8_S8x3_S4194304x3_1_0_0_1_n_n.lhsIdx_val_of_single rfl j k

private theorem rhs3_0 (j : S4194304x3.Idx) (k : dot_S4194304x8_S8x3_S4194304x3_1_0_0_1_n_n.contr.Idx) :
    ((dot_S4194304x8_S8x3_S4194304x3_1_0_0_1_n_n.rhsIdx j k) 0).val = (k ⟨0, by decide⟩).val :=
  dot_S4194304x8_S8x3_S4194304x3_1_0_0_1_n_n.rhsIdx_val_of_single rfl j k

private theorem rhs3_1 (j : S4194304x3.Idx) (k : dot_S4194304x8_S8x3_S4194304x3_1_0_0_1_n_n.contr.Idx) :
    ((dot_S4194304x8_S8x3_S4194304x3_1_0_0_1_n_n.rhsIdx j k) 1).val = (j 1).val := by
  unfold DotDims.rhsIdx
  rw [dif_neg (show ¬(1 : Fin S8x3.rank) ∈ dot_S4194304x8_S8x3_S4194304x3_1_0_0_1_n_n.rhsBatch by decide),
    dif_pos (show (1 : Fin S8x3.rank) ∈ dot_S4194304x8_S8x3_S4194304x3_1_0_0_1_n_n.rhsNonContracting by decide)]
  rfl

/-- The product at row n, column h: the sum over the contracted axis. -/
private theorem dot3_apply (X : FVec Ideal S4194304x8 .f32) (W : FVec Ideal S8x3 .f32) (n : Fin 4194304) (h : Fin 3) :
    Host.dotGeneral (F := Ideal) dot_S4194304x8_S8x3_S4194304x3_1_0_0_1_n_n none X W (ix2 n h)
      = ∑ k : Fin 8, X (ix2 n k) * W (ix2 k h) := by
  show FloatOps.dotGeneral _ none .single X W (ix2 n h) = _
  rw [Ideal.dotGeneral_apply, ← Equiv.sum_comp (contrEquiv1 dot_S4194304x8_S8x3_S4194304x3_1_0_0_1_n_n 8 rfl rfl).symm]
  refine Finset.sum_congr rfl fun k _ => ?_
  have hk := contrEquiv1_symm_val dot_S4194304x8_S8x3_S4194304x3_1_0_0_1_n_n 8 rfl rfl k
  congr 2
  · funext a
    refine Fin.ext ?_
    match a with
    | ⟨0, _⟩ => exact lhs3_0 _ _
    | ⟨1, _⟩ => exact (lhs3_1 _ _).trans hk
  · funext a
    refine Fin.ext ?_
    match a with
    | ⟨0, _⟩ => exact (rhs3_0 _ _).trans hk
    | ⟨1, _⟩ => exact rhs3_1 _ _

/-! ### Small reads -/

/-- A bias row broadcast over the rows reads its own entry. -/
private theorem bias8_apply (b : FVec Ideal S8 .f32) (n : Fin 4194304) (h : Fin 8) :
    broadcastInDim S4194304x8 ![0, 1] bcast_S1x8_S4194304x8_0_1 (broadcastInDim S1x8 ![1] bcast_S8_S1x8_1 b) (ix2 n h)
      = b (ix1 h) := by
  refine (broadcastInDim_apply _ _ _ (ix2 n h) (ix2 (0 : Fin 1) h) (fun a => ?_)).trans
    (broadcastInDim_apply _ _ _ (ix2 (0 : Fin 1) h) (ix1 h) (fun a => ?_))
  · match a with
    | ⟨0, _⟩ => rfl
    | ⟨1, _⟩ => rfl
  · match a with
    | ⟨0, _⟩ => rfl

private theorem bias3_apply (b : FVec Ideal S3 .f32) (n : Fin 4194304) (j : Fin 3) :
    broadcastInDim S4194304x3 ![0, 1] bcast_S1x3_S4194304x3_0_1 (broadcastInDim S1x3 ![1] bcast_S3_S1x3_1 b) (ix2 n j)
      = b (ix1 j) := by
  refine (broadcastInDim_apply _ _ _ (ix2 n j) (ix2 (0 : Fin 1) j) (fun a => ?_)).trans
    (broadcastInDim_apply _ _ _ (ix2 (0 : Fin 1) j) (ix1 j) (fun a => ?_))
  · match a with
    | ⟨0, _⟩ => rfl
    | ⟨1, _⟩ => rfl
  · match a with
    | ⟨0, _⟩ => rfl

/-- One [2]-slice of the group table: entry k of masks[l, f]. -/
private theorem slice_apply (mk : IVec S3x4x2 32) (a b : Nat) (ha : a < 3) (hb : b < 4)
    (hs : S3x4x2.Slices ![a, b, 0] S1x1x2) (hc : S1x1x2.ShapeCasts S2) (k : Fin 2) :
    shapeCast S2 (extractStridedSlice S1x1x2 ![a, b, 0] mk hs) hc (ix1 k) = mk (ix3 (⟨a, ha⟩ : Fin 3) (⟨b, hb⟩ : Fin 4) k) := by
  refine (shapeCast_apply _ hc (ix1 k) (ix3 (0 : Fin 1) (0 : Fin 1) k) ?_).trans ?_
  · rw [Shape.rowMajor_val_three, Shape.rowMajor_val_one]
    show (0 * 1 + 0) * 2 + k.val = k.val
    omega
  · exact extractStridedSlice_apply _ mk hs _ (ix3 (⟨a, ha⟩ : Fin 3) (⟨b, hb⟩ : Fin 4) k) (fun ax =>
      match ax with
      | ⟨0, _⟩ => rfl
      | ⟨1, _⟩ => rfl
      | ⟨2, _⟩ => (Nat.zero_add _).symm)

/-- The four joined pieces at row n, column k: the first piece below 8, then one column each. -/
private theorem cat_apply (A : FVec Ideal S4194304x8 .f32) (x y r : FVec Ideal S4194304x1 .f32) (n : Fin 4194304) (k : Fin 11) :
    concatenate S4194304x11 1 [⟨S4194304x8, A⟩, ⟨S4194304x1, x⟩, ⟨S4194304x1, y⟩, ⟨S4194304x1, r⟩]
        concatenates_S4194304x8_S4194304x1_S4194304x1_S4194304x1_S4194304x11_d1 (ix2 n k)
      = if hk : k.val < 8 then A (ix2 n ⟨k.val, hk⟩) else if k.val = 8 then x (ix2 n (0 : Fin 1))
        else if k.val = 9 then y (ix2 n (0 : Fin 1)) else r (ix2 n (0 : Fin 1)) := by
  by_cases hk : k.val < 8
  · rw [dif_pos hk]
    exact concatenate_apply_piece (1 : Fin 2) _ _ (ix2 n k) 0 (by show 0 < 4; omega) S4194304x8 A rfl rfl 0 rfl (ix2 n ⟨k.val, hk⟩)
      (fun b hb => match b with
        | ⟨0, _⟩ => rfl
        | ⟨1, _⟩ => absurd rfl hb) (Nat.zero_add _)
  · rw [dif_neg hk]
    by_cases h8 : k.val = 8
    · rw [if_pos h8]
      exact concatenate_apply_piece (1 : Fin 2) _ _ (ix2 n k) 1 (by show 1 < 4; omega) S4194304x1 x rfl rfl 8 rfl (ix2 n (0 : Fin 1))
        (fun b hb => match b with
          | ⟨0, _⟩ => rfl
          | ⟨1, _⟩ => absurd rfl hb) (by show 8 + 0 = k.val; omega)
    · rw [if_neg h8]
      by_cases h9 : k.val = 9
      · rw [if_pos h9]
        exact concatenate_apply_piece (1 : Fin 2) _ _ (ix2 n k) 2 (by show 2 < 4; omega) S4194304x1 y rfl rfl 9 rfl (ix2 n (0 : Fin 1))
          (fun b hb => match b with
            | ⟨0, _⟩ => rfl
            | ⟨1, _⟩ => absurd rfl hb) (by show 9 + 0 = k.val; omega)
      · rw [if_neg h9]
        have h10 : k.val = 10 := by have := k.isLt; omega
        exact concatenate_apply_piece (1 : Fin 2) _ _ (ix2 n k) 3 (by show 3 < 4; omega) S4194304x1 r rfl rfl 10 rfl (ix2 n (0 : Fin 1))
          (fun b hb => match b with
            | ⟨0, _⟩ => rfl
            | ⟨1, _⟩ => absurd rfl hb) (by show 10 + 0 = k.val; omega)

/-! ### The program's pieces, in its own spelling, read at an index -/

/-- The word 0x3F800000 is one. -/
private theorem ofBits_one : Ideal.ofBits .f32 0x3F800000#32 = 1 := by
  simp [Ideal.ofBits, Ideal.ieee, -EReal.coe_mul]
  norm_num

/-- Layer 0's array: the joined inputs times the transposed weights, plus the bias row. -/
private abbrev out0V (x y r : FVec Ideal S4194304x1 .f32) (z : FVec Ideal S4194304x8 .f32) (W0 : FVec Ideal S8x11 .f32)
    (b0 : FVec Ideal S8 .f32) : FVec Ideal S4194304x8 .f32 :=
  addf (Host.dotGeneral dot_S4194304x11_S11x8_S4194304x8_1_0_0_1_n_n none (concatenate S4194304x11 1 [⟨S4194304x8, (Host.divf z (broadcastInDim S4194304x8 ![] bcast_S_S4194304x8 (constant S_ .f32 0x41200000#32)))⟩, ⟨S4194304x1, x⟩, ⟨S4194304x1, y⟩, ⟨S4194304x1, r⟩] concatenates_S4194304x8_S4194304x1_S4194304x1_S4194304x1_S4194304x11_d1) (transpose S11x8 [1, 0] W0 transposes_S8x11_S11x8_1_0)) (broadcastInDim S4194304x8 ![0, 1] bcast_S1x8_S4194304x8_0_1 (broadcastInDim S1x8 ![1] bcast_S8_S1x8_1 b0))

private theorem out0V_apply (x y r : FVec Ideal S4194304x1 .f32) (z : FVec Ideal S4194304x8 .f32) (W0 : FVec Ideal S8x11 .f32)
    (b0 : FVec Ideal S8 .f32) (n : Fin 4194304) (h : Fin 8) :
    out0V x y r z W0 b0 (ix2 n h)
      = Cert.Cppn.out0 (fun h k => W0 (ix2 h k)) (fun h => b0 (ix1 h))
          (Cert.Cppn.inp (x (ix2 n (0 : Fin 1))) (y (ix2 n (0 : Fin 1))) (r (ix2 n (0 : Fin 1))) (fun k => z (ix2 n k))) h := by
  show Host.dotGeneral (F := Ideal) dot_S4194304x11_S11x8_S4194304x8_1_0_0_1_n_n none _ _ (ix2 n h)
    + broadcastInDim S4194304x8 ![0, 1] bcast_S1x8_S4194304x8_0_1 (broadcastInDim S1x8 ![1] bcast_S8_S1x8_1 b0) (ix2 n h) = _
  rw [dot11_apply, bias8_apply]
  unfold Cert.Cppn.out0
  congr 1
  refine Finset.sum_congr rfl fun k _ => ?_
  rw [cat_apply, transpose_ix2_apply]
  rfl

/-- A layer's pre-activation array. -/
private abbrev preV (X : FVec Ideal S4194304x8 .f32) (Wm : FVec Ideal S8x8 .f32) (bm : FVec Ideal S8 .f32) :
    FVec Ideal S4194304x8 .f32 :=
  addf (Host.dotGeneral dot_S4194304x8_S8x8_S4194304x8_1_0_0_1_n_n none X (transpose S8x8 [1, 0] Wm transposes_S8x8_S8x8_1_0)) (broadcastInDim S4194304x8 ![0, 1] bcast_S1x8_S4194304x8_0_1 (broadcastInDim S1x8 ![1] bcast_S8_S1x8_1 bm))

private theorem preV_apply (X : FVec Ideal S4194304x8 .f32) (Wm : FVec Ideal S8x8 .f32) (bm : FVec Ideal S8 .f32)
    (n : Fin 4194304) (h : Fin 8) :
    preV X Wm bm (ix2 n h)
      = Cert.Cppn.pre (fun h k => Wm (ix2 h k)) (fun h => bm (ix1 h)) (fun k => X (ix2 n k)) h := by
  show Host.dotGeneral (F := Ideal) dot_S4194304x8_S8x8_S4194304x8_1_0_0_1_n_n none _ _ (ix2 n h)
    + broadcastInDim S4194304x8 ![0, 1] bcast_S1x8_S4194304x8_0_1 (broadcastInDim S1x8 ![1] bcast_S8_S1x8_1 bm) (ix2 n h) = _
  rw [dot8_apply, bias8_apply]
  unfold Cert.Cppn.pre
  congr 1
  refine Finset.sum_congr rfl fun k _ => ?_
  rw [transpose_ix2_apply]

/-- The head's array: one over one plus the exponential of minus the output layer. -/
private abbrev headV (X : FVec Ideal S4194304x8 .f32) (Wo : FVec Ideal S3x8 .f32) (bo : FVec Ideal S3 .f32) :
    FVec Ideal S4194304x3 .f32 :=
  Host.divf (broadcastInDim S4194304x3 ![] bcast_S_S4194304x3 (constant S_ .f32 0x3F800000#32)) (addf (broadcastInDim S4194304x3 ![] bcast_S_S4194304x3 (constant S_ .f32 0x3F800000#32)) (Host.exp (Host.negf (addf (Host.dotGeneral dot_S4194304x8_S8x3_S4194304x3_1_0_0_1_n_n none X (transpose S8x3 [1, 0] Wo transposes_S3x8_S8x3_1_0)) (broadcastInDim S4194304x3 ![0, 1] bcast_S1x3_S4194304x3_0_1 (broadcastInDim S1x3 ![1] bcast_S3_S1x3_1 bo))))))

private theorem headV_apply (X : FVec Ideal S4194304x8 .f32) (Wo : FVec Ideal S3x8 .f32) (bo : FVec Ideal S3 .f32)
    (n : Fin 4194304) (j : Fin 3) :
    headV X Wo bo (ix2 n j)
      = Cert.Cppn.head (fun j k => Wo (ix2 j k)) (fun j => bo (ix1 j)) (fun k => X (ix2 n k)) j := by
  show Ideal.div (Ideal.ofBits .f32 0x3F800000#32) (Ideal.ofBits .f32 0x3F800000#32
    + Ideal.exp (-(Host.dotGeneral (F := Ideal) dot_S4194304x8_S8x3_S4194304x3_1_0_0_1_n_n none _ _ (ix2 n j)
      + broadcastInDim S4194304x3 ![0, 1] bcast_S1x3_S4194304x3_0_1 (broadcastInDim S1x3 ![1] bcast_S3_S1x3_1 bo) (ix2 n j)))) = _
  rw [ofBits_one, dot3_apply, bias3_apply,
    Finset.sum_congr rfl fun (k : Fin 8) _ => by rw [transpose_ix2_apply Wo transposes_S3x8_S8x3_1_0 k j]]
  rfl

/-- One [2]-slice of the group table. -/
private abbrev sl (mk : IVec S3x4x2 32) (off : Fin 3 → Nat) (hs : S3x4x2.Slices off S1x1x2) : IVec S2 32 :=
  shapeCast S2 (extractStridedSlice S1x1x2 off mk hs) shapeCasts_S1x1x2_S2

/-- Layer a's four slices are the rows masks[a, f]. -/
private theorem groups_eq (mk : IVec S3x4x2 32) (a : Nat) (ha : a < 3)
    (h0 : S3x4x2.Slices ![a, 0, 0] S1x1x2) (h1 : S3x4x2.Slices ![a, 1, 0] S1x1x2)
    (h2 : S3x4x2.Slices ![a, 2, 0] S1x1x2) (h3 : S3x4x2.Slices ![a, 3, 0] S1x1x2) :
    (fun (f : Fin 4) (k : Fin 2) => (![sl mk ![a, 0, 0] h0, sl mk ![a, 1, 0] h1, sl mk ![a, 2, 0] h2, sl mk ![a, 3, 0] h3] f) (ix1 k))
      = fun f k => mk (ix3 (⟨a, ha⟩ : Fin 3) f k) := by
  funext f k
  match f with
  | ⟨0, _⟩ => exact slice_apply mk a 0 ha (by omega) h0 _ k
  | ⟨1, _⟩ => exact slice_apply mk a 1 ha (by omega) h1 _ k
  | ⟨2, _⟩ => exact slice_apply mk a 2 ha (by omega) h2 _ k
  | ⟨3, _⟩ => exact slice_apply mk a 3 ha (by omega) h3 _ k

/-- A whole layer at row n: the row function's step. -/
private theorem layer_row (O : FVec Ideal S4194304x8 .f32) (Wm : FVec Ideal S8x8 .f32) (bm : FVec Ideal S8 .f32)
    (mk : IVec S3x4x2 32) (hmk : ∀ (l : Fin 3) (f : Fin 4) (k : Fin 2), (mk (ix3 l f k)).toNat < 8)
    (a : Nat) (ha : a < 3)
    (h0 : S3x4x2.Slices ![a, 0, 0] S1x1x2) (h1 : S3x4x2.Slices ![a, 1, 0] S1x1x2)
    (h2 : S3x4x2.Slices ![a, 2, 0] S1x1x2) (h3 : S3x4x2.Slices ![a, 3, 0] S1x1x2) (n : Fin 4194304) :
    (fun h : Fin 8 => layer O (preV O Wm bm) (sl mk ![a, 0, 0] h0) (sl mk ![a, 1, 0] h1) (sl mk ![a, 2, 0] h2) (sl mk ![a, 3, 0] h3) (ix2 n h))
      = Cert.Cppn.step (fun f k => mk (ix3 (⟨a, ha⟩ : Fin 3) f k)) (fun h k => Wm (ix2 h k)) (fun h => bm (ix1 h))
          (fun k => O (ix2 n k)) := by
  funext h
  have hg := groups_eq mk a ha h0 h1 h2 h3
  rw [layer_apply O _ _ _ _ _ (fun f k => by
    rw [show ((![sl mk ![a, 0, 0] h0, sl mk ![a, 1, 0] h1, sl mk ![a, 2, 0] h2, sl mk ![a, 3, 0] h3] f) (ix1 k))
      = mk (ix3 (⟨a, ha⟩ : Fin 3) f k) from congrFun (congrFun hg f) k]
    exact hmk _ _ _) n h, preV_apply, hg]
  rfl

/-! ### The whole result -/

open Cert.ReferenceIdeal.Value in
/-- The program's result array, layer by layer, is the row function of the arguments. -/
private theorem value_G (V0 : Valuation τ sig (Elt Ideal))
    (hmk : ∀ (l : Fin 3) (f : Fin 4) (k : Fin 2), (((V0 (Proc.devRef .tc main_arg10)) : IVec S3x4x2 32) (ix3 l f k)).toNat < 8)
    (T : FVec Ideal S4194304x3 .f32)
    (hT : T = headV (layer (res_main_v169 V0) (res_main_v174 V0) (res_main_v177 V0) (res_main_v194 V0) (res_main_v216 V0) (res_main_v233 V0)) (V0 (Proc.devRef .tc main_arg8)) (V0 (Proc.devRef .tc main_arg9))) :
    T = Cert.Cppn.G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  subst hT
  funext i
  obtain ⟨n, j, rfl⟩ : ∃ (n : Fin 4194304) (j : Fin 3), i = ix2 n j := ⟨i 0, i 1, eq_ix2 i⟩
  rw [headV_apply, Cert.Cppn.G_ix2]
  unfold Cert.Cppn.Grow Cert.Cppn.rowOut
  have e0 : (fun h : Fin 8 => res_main_v7 V0 (ix2 n h)) = _ :=
    funext fun h => out0V_apply (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) n h
  have e1 : (fun h : Fin 8 => res_main_v88 V0 (ix2 n h)) = _ :=
    layer_row (res_main_v7 V0) (V0 (Proc.devRef .tc main_arg6)) (V0 (Proc.devRef .tc main_arg7)) (V0 (Proc.devRef .tc main_arg10)) hmk 0 (by omega)
      slices_S3x4x2_S1x1x2_0_0_0 slices_S3x4x2_S1x1x2_0_1_0 slices_S3x4x2_S1x1x2_0_2_0 slices_S3x4x2_S1x1x2_0_3_0 n
  have e2 : (fun h : Fin 8 => res_main_v169 V0 (ix2 n h)) = _ :=
    layer_row (res_main_v88 V0) (V0 (Proc.devRef .tc main_arg6)) (V0 (Proc.devRef .tc main_arg7)) (V0 (Proc.devRef .tc main_arg10)) hmk 1 (by omega)
      slices_S3x4x2_S1x1x2_1_0_0 slices_S3x4x2_S1x1x2_1_1_0 slices_S3x4x2_S1x1x2_1_2_0 slices_S3x4x2_S1x1x2_1_3_0 n
  have e3 : (fun h : Fin 8 => layer (res_main_v169 V0) (res_main_v174 V0) (res_main_v177 V0) (res_main_v194 V0) (res_main_v216 V0) (res_main_v233 V0) (ix2 n h)) = _ :=
    layer_row (res_main_v169 V0) (V0 (Proc.devRef .tc main_arg6)) (V0 (Proc.devRef .tc main_arg7)) (V0 (Proc.devRef .tc main_arg10)) hmk 2 (by omega)
      slices_S3x4x2_S1x1x2_2_0_0 slices_S3x4x2_S1x1x2_2_1_0 slices_S3x4x2_S1x1x2_2_2_0 slices_S3x4x2_S1x1x2_2_3_0 n
  rw [e3, e2, e1, e0]
  rfl

/-- When every group entry lies in [0, 8), the reference's program ends with its result at G of its arguments. -/
theorem run_G (m : (ℓ : Loc nD τ sig) → Buf (Elt Ideal) ℓ) (ρ : Dev nD → PrngReg)
    (hr : ∀ (c : Dev nD) (l : Fin 3) (f : Fin 4) (k : Fin 2),
      ((m ((c.tc : Thread nD τ).loc main_arg10) : IVec S3x4x2 32) (ix3 l f k)).toNat < 8) :
    θ_run (defs (F := Ideal)) (onTc (τ := τ) (main (F := Ideal))) ⟨m, fun _ => 0, ρ⟩ (fun r => ∀ c : Dev nD,
      r.2.mem ((c.tc : Thread nD τ).loc main_v261) = Cert.Cppn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ⟨(h c).1.trans ?_, (h c).2⟩) (Cert.ReferenceIdeal.Value.run (F := Ideal) m ρ)
  exact value_G (StableHlo.launchContents m c) (hr c) _ rfl

end Cert.Cppn.Ref

end
-- ==== Proof.lean ====
/-
  The five claims. The kernel and the reference compute one function of the argument arrays, row by row
  (Proof/Spec.lean). The kernel weights the four activations of a column by 0 or 1 and adds them; the reference
  writes the groups one after another, so a column keeps the last group naming it. The two agree when no column
  lies in two groups, which the precondition states of the group table together with every entry being a column
  index; the kernel's side uses the first fact, the reference's the second. The kernel multiplies the motion
  entries by the named constant 1/10 where the reference divides by ten: one value on every extended real.
-/
import proofs.«421476_j60232621359502_3_alg».proof.Defs
import proofs.«421476_j60232621359502_3_alg».proof.Proof.Gen.Kernel
import proofs.«421476_j60232621359502_3_alg».proof.Proof.Gen.Kernel.Skeleton
import proofs.«421476_j60232621359502_3_alg».proof.Proof.Gen.Kernel.Launch
import proofs.«421476_j60232621359502_3_alg».proof.Proof.Gen.Kernel.Points
import proofs.«421476_j60232621359502_3_alg».proof.Proof.Gen.Kernel.Frame
import proofs.«421476_j60232621359502_3_alg».proof.Proof.Gen.KernelIdeal
import proofs.«421476_j60232621359502_3_alg».proof.Proof.Gen.KernelIdeal.Skeleton
import proofs.«421476_j60232621359502_3_alg».proof.Proof.Gen.KernelIdeal.Launch
import proofs.«421476_j60232621359502_3_alg».proof.Proof.Gen.KernelIdeal.Points
import proofs.«421476_j60232621359502_3_alg».proof.Proof.Gen.KernelIdeal.Frame
import proofs.«421476_j60232621359502_3_alg».proof.Proof.Gen.ReferenceIdeal
import proofs.«421476_j60232621359502_3_alg».proof.Proof.Gen.ReferenceIdeal.Run
import proofs.«421476_j60232621359502_3_alg».proof.Proof.Gen.Pre_finite_inputs
import proofs.«421476_j60232621359502_3_alg».proof.Proof.Spec
import proofs.«421476_j60232621359502_3_alg».proof.Proof.PreFacts
import proofs.«421476_j60232621359502_3_alg».proof.Proof.KerRun
import proofs.«421476_j60232621359502_3_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one ledger entry: the constant named inv_10 is the rational 1/10. -/
theorem preserves : Cert.preserves_Kernel_KernelIdeal :=
  IdealRules.named_const.statement Cert.KernelIdeal.κ "inv_10" .f32 0x3DCCCCCD#32 ((1 / 10 : ℝ) : EReal) rfl

/-- Both programs end with their result at G of the arguments; the arguments agree, so the results do. -/
theorem algebraic : Cert.algebraic_KernelIdeal_ReferenceIdeal := by
  intro m ρ m' ρ' hpre hagree
  refine ⟨_, Cert.Cppn.Ker.run_G m ρ
    (fun c l f f' k k' hne => Cert.Cppn.PreFacts.masks_disj _ _ _ _ _ _ _ _ _ _ _ (hpre c) l f f' k k' hne), ?_⟩
  refine (θ_run Cert.ReferenceIdeal.defs _ _).mono (fun _ h c => ⟨(h c).1.trans ?_, (h c).2⟩)
    (Cert.Cppn.Ref.run_G m' ρ' (fun c l f k => by
      rw [(hagree c).2.2.2.2.2.2.2.2.2.2]
      exact Cert.Cppn.PreFacts.masks_range _ _ _ _ _ _ _ _ _ _ _ (hpre c) l f k))
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
